-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v215) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S320x64 : Shape := ⟨2, ![320, 64]⟩
abbrev S64x2 : Shape := ⟨2, ![64, 2]⟩
abbrev S2 : Shape := ⟨1, ![2]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S320x64 : S_.BroadcastsInDim S320x64 (![] : Fin 0 → Fin S320x64.rank)
  reducesTo_S320x64_S_d0_1 : S320x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S64x128 .f32) (main_arg14 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S64x2 .f32) (main_arg10 : FVec F S2 .f32) (main_arg11 : FVec F S128x64 .f32) (main_arg12 : FVec F S64 .f32) (main_arg13 : FVec F S64x128 .f32) (main_arg14 : FVec F S128 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S320x64 .f32) (main_arg8 : FVec F S64 .f32) (main_arg9 : FVec F S64x2 .f32) (main_arg10 : FVec F S2 .f32) (main_arg11 : FVec F S128x64 .f32) (main_arg12 : FVec F S64 .f32) (main_arg13 : FVec F S64x128 .f32) (main_arg14 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S320x64 .f32 := Host.absf main_arg7
  let main_cst_8 : FVec F S_ .f32 := constant S_ .f32 0x7F800000#32
  let main_v25 : FVec F S320x64 .f32 := broadcastInDim S320x64 ![] bcast_S_S320x64 main_cst_8
  let main_v26 : IVec S320x64 1 := cmpf .olt main_v24 main_v25
  let main_c_9 : IVec S_ 1 := constantI S_ 1 1#1
  let main_v27 : IVec S_ 1 := (fun x v => Host.reduce IntOp.andi x v reducesTo_S320x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S128x64 .f32) (main_arg4 : FVec F S64 .f32) (main_arg5 : FVec F S64x64 .f32) (main_arg6 : FVec F S64 .f32) (main_arg7 : FVec F S320x64 .f32) (main_arg8 : FVec F S64 .f32) (main_arg9 : FVec F S64x2 .f32) (main_arg10 : FVec F S2 .f32) (main_arg11 : FVec F S128x64 .f32) (main_arg12 : FVec F S64 .f32) (main_arg13 : FVec F S64x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S320x64 : Shape := ⟨2, ![320, 64]⟩
abbrev S64x2 : Shape := ⟨2, ![64, 2]⟩
abbrev S2 : Shape := ⟨1, ![2]⟩
abbrev S64x128 : Shape := ⟨2, ![64, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S1000x128 : Shape := ⟨2, ![1000, 128]⟩
abbrev S1000x64 : Shape := ⟨2, ![1000, 64]⟩
abbrev S800000x64 : Shape := ⟨2, ![800000, 64]⟩
abbrev S1000x1 : Shape := ⟨2, ![1000, 1]⟩
abbrev S1x2 : Shape := ⟨2, ![1, 2]⟩
abbrev S50000x2 : Shape := ⟨2, ![50000, 2]⟩
abbrev S1000x2 : Shape := ⟨2, ![1000, 2]⟩
abbrev S800000x128 : Shape := ⟨2, ![800000, 128]⟩
abbrev S1x128 : Shape := ⟨2, ![1, 128]⟩

abbrev nBuf : Space → Nat
  | .hbm => 153
  | .vmem => 54
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x64, .f32⟩
  | 4 => ⟨S64, .f32⟩
  | 5 => ⟨S64x64, .f32⟩
  | 6 => ⟨S64, .f32⟩
  | 7 => ⟨S320x64, .f32⟩
  | 8 => ⟨S64, .f32⟩
  | 9 => ⟨S64x2, .f32⟩
  | 10 => ⟨S2, .f32⟩
  | 11 => ⟨S128x64, .f32⟩
  | 12 => ⟨S64, .f32⟩
  | 13 => ⟨S64x128, .f32⟩
  | 14 => ⟨S128, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S_, .f32⟩
  | 38 => ⟨S50000, .f32⟩
  | 39 => ⟨S50000, .f32⟩
  | 40 => ⟨S50000x1, .f32⟩
  | 41 => ⟨S1x64, .f32⟩
  | 42 => ⟨S1x64, .f32⟩
  | 43 => ⟨S50000x64, .f32⟩
  | 44 => ⟨S50000x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S50000x64, .f32⟩
  | 60 => ⟨S50000x64, .f32⟩
  | 61 => ⟨S50000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S_, .f32⟩
  | 72 => ⟨S50000x64, .f32⟩
  | 73 => ⟨S800000x1, .i32⟩
  | 74 => ⟨S50000x64, .f32⟩
  | 75 => ⟨S50000x64, .f32⟩
  | 76 => ⟨S64x64, .f32⟩
  | 77 => ⟨S64x64, .f32⟩
  | 78 => ⟨S64x64, .f32⟩
  | 79 => ⟨S64x64, .f32⟩
  | 80 => ⟨S64x64, .f32⟩
  | 81 => ⟨S_, .f32⟩
  | 82 => ⟨S64x64, .f32⟩
  | 83 => ⟨S64x64, .f32⟩
  | 84 => ⟨S_, .f32⟩
  | 85 => ⟨S64x64, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x64, .f32⟩
  | 92 => ⟨S_, .f32⟩
  | 93 => ⟨S64x64, .f32⟩
  | 94 => ⟨S64x64, .f32⟩
  | 95 => ⟨S_, .f32⟩
  | 96 => ⟨S64x64, .f32⟩
  | 97 => ⟨S64x64, .f32⟩
  | 98 => ⟨S64x64, .f32⟩
  | 99 => ⟨S_, .f32⟩
  | 100 => ⟨S64x64, .f32⟩
  | 101 => ⟨S64x64, .f32⟩
  | 102 => ⟨S64x64, .f32⟩
  | 103 => ⟨S64x64, .f32⟩
  | 104 => ⟨S_, .f32⟩
  | 105 => ⟨S64x64, .f32⟩
  | 106 => ⟨S64x64, .f32⟩
  | 107 => ⟨S_, .f32⟩
  | 108 => ⟨S64x64, .f32⟩
  | 109 => ⟨S64x64, .f32⟩
  | 110 => ⟨S64x64, .f32⟩
  | 111 => ⟨S_, .f32⟩
  | 112 => ⟨S64x64, .f32⟩
  | 113 => ⟨S64x64, .f32⟩
  | 114 => ⟨S64x64, .f32⟩
  | 115 => ⟨S64x64, .f32⟩
  | 116 => ⟨S1x64, .f32⟩
  | 117 => ⟨S1x2, .f32⟩
  | 118 => ⟨S50000x2, .f32⟩
  | 119 => ⟨S50000x128, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S1x64, .f32⟩
  | 7 => ⟨S50000x64, .f32⟩
  | 8 => ⟨S50000x64, .f32⟩
  | 9 => ⟨S50000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S_, .f32⟩
  | 20 => ⟨S50000x64, .f32⟩
  | 21 => ⟨S800000x1, .i32⟩
  | 22 => ⟨S50000x64, .f32⟩
  | 23 => ⟨S1x128, .f32⟩
  | 24 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1000x64, .f32⟩
  | .local _ .vmem, ⟨7, _⟩ => ⟨S1000x64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x1, .f32⟩
  | .local _ .vmem, ⟨13, _⟩ => ⟨S1000x1, .f32⟩
  | .local _ .vmem, ⟨14, _⟩ => ⟨S1000x64, .f32⟩
  | .local _ .vmem, ⟨15, _⟩ => ⟨S1000x64, .f32⟩
  | .local _ .vmem, ⟨16, _⟩ => ⟨S1000x64, .f32⟩
  | .local _ .vmem, ⟨17, _⟩ => ⟨S1000x64, .f32⟩
  | .local _ .vmem, ⟨18, _⟩ => ⟨S1000x64, .f32⟩
  | .local _ .vmem, ⟨19, _⟩ => ⟨S1000x64, .f32⟩
  | .local _ .vmem, ⟨20, _⟩ => ⟨S1000x1, .f32⟩
  | .local _ .vmem, ⟨21, _⟩ => ⟨S1000x1, .f32⟩
  | .local _ .vmem, ⟨22, _⟩ => ⟨S1000x64, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | .local _ .vmem, ⟨26, _⟩ => ⟨S1000x64, .f32⟩
  | .local _ .vmem, ⟨27, _⟩ => ⟨S1000x64, .f32⟩
  | .local _ .vmem, ⟨28, _⟩ => ⟨S1000x64, .f32⟩
  | .local _ .vmem, ⟨29, _⟩ => ⟨S1000x64, .f32⟩
  | .local _ .vmem, ⟨30, _⟩ => ⟨S64x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S64x2, .f32⟩
  | .local _ .vmem, ⟨35, _⟩ => ⟨S1x2, .f32⟩
  | .local _ .vmem, ⟨36, _⟩ => ⟨S1000x2, .f32⟩
  | .local _ .vmem, ⟨37, _⟩ => ⟨S1000x2, .f32⟩
  | .local _ .vmem, ⟨38, _⟩ => ⟨S1000x128, .f32⟩
  | .local _ .vmem, ⟨39, _⟩ => ⟨S1000x128, .f32⟩
  | .local _ .vmem, ⟨40, _⟩ => ⟨S1000x1, .f32⟩
  | .local _ .vmem, ⟨41, _⟩ => ⟨S1000x1, .f32⟩
  | .local _ .vmem, ⟨42, _⟩ => ⟨S128x64, .f32⟩
  | .local _ .vmem, ⟨43, _⟩ => ⟨S1x64, .f32⟩
  | .local _ .vmem, ⟨44, _⟩ => ⟨S1000x64, .f32⟩
  | .local _ .vmem, ⟨45, _⟩ => ⟨S1000x64, .f32⟩
  | .local _ .vmem, ⟨46, _⟩ => ⟨S1000x64, .f32⟩
  | .local _ .vmem, ⟨47, _⟩ => ⟨S1000x64, .f32⟩
  | .local _ .vmem, ⟨48, _⟩ => ⟨S1000x1, .f32⟩
  | .local _ .vmem, ⟨49, _⟩ => ⟨S1000x1, .f32⟩
  | .local _ .vmem, ⟨50, _⟩ => ⟨S64x128, .f32⟩
  | .local _ .vmem, ⟨51, _⟩ => ⟨S1x128, .f32⟩
  | .local _ .vmem, ⟨52, _⟩ => ⟨S1000x128, .f32⟩
  | .local _ .vmem, ⟨53, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_5 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c : Ref sig .tc := ⟨.hbm, 46, rfl⟩
abbrev main_v20 : Ref sig .tc := ⟨.hbm, 47, rfl⟩
abbrev main_v21 : Ref sig .tc := ⟨.hbm, 48, rfl⟩
abbrev main_c_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_7 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_c_9 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_10 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩
abbrev main_cst_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_16 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_17 : Ref sig .tc := ⟨.hbm, 104, rfl⟩
abbrev main_v66 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_19 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_20 : Ref sig .tc := ⟨.hbm, 121, rfl⟩
abbrev main_v80 : Ref sig .tc := ⟨.hbm, 122, rfl⟩
abbrev main_v81 : Ref sig .tc := ⟨.hbm, 123, rfl⟩
abbrev main_c_21 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_22 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_23 : Ref sig .tc := ⟨.hbm, 138, rfl⟩
abbrev main_v94 : Ref sig .tc := ⟨.hbm, 139, rfl⟩
abbrev main_v95 : Ref sig .tc := ⟨.hbm, 140, rfl⟩
abbrev main_c_24 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_25 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg9_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem9_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem4_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem4_1 : DmaSem sig := 53

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x2 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S64_S1x64 : S64.ShapeCasts S1x64
  inb_S1000x128_S1000x128_0_0 : ∀ a, (![0, 0] : Fin 2 → Nat) a + S1000x128.size a ≤ S1000x128.size a
  h_S1000x128 : 0 < S1000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x64_S64x64_0_0 : ∀ a, (![0, 0] : Fin 2 → Nat) a + S64x64.size a ≤ S64x64.size a
  h_S64x64 : 0 < S64x64.numel
  inb_S1000x64_S1000x64_0_0 : ∀ a, (![0, 0] : Fin 2 → Nat) a + S1000x64.size a ≤ S1000x64.size a
  h_S1000x64 : 0 < S1000x64.numel
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S1000x64_S1000x64 : S1000x64.ShapeCasts S1000x64
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x64 : S1000x1.Broadcasts S1000x64
  slices_S320x64_S64x64_0_0 : S320x64.Slices ![0, 0] S64x64
  slices_S320x64_S64x64_64_0 : S320x64.Slices ![64, 0] S64x64
  slices_S320x64_S64x64_128_0 : S320x64.Slices ![128, 0] S64x64
  slices_S320x64_S64x64_192_0 : S320x64.Slices ![192, 0] S64x64
  slices_S320x64_S64x64_256_0 : S320x64.Slices ![256, 0] S64x64
  bcast_S_S64x64 : S_.BroadcastsInDim S64x64 (![] : Fin 0 → Fin S64x64.rank)
  shapeCasts_S2_S1x2 : S2.ShapeCasts S1x2
  shapeCasts_S64x64_S64x64 : S64x64.ShapeCasts S64x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S1000x128_S1000x128 : S1000x128.ShapeCasts S1000x128
  broadcasts_S1000x1_S1000x128 : S1000x1.Broadcasts S1000x128
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  scatter_S50000_S800000x1_S800000_n_0_0_1_wf : ScatterDims.WF S50000 S800000x1 S800000 [] [0] [0] 1
  dot_S1000x128_S128x64_S1000x64_1_0_0_1_n_n_wf : DotDims.WF S1000x128 S128x64 S1000x64 [1] [0] [0] [1] [] []
  dot_S1000x64_S64x64_S1000x64_1_0_0_1_n_n_wf : DotDims.WF S1000x64 S64x64 S1000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S1000x64_S64x2_S1000x2_1_0_0_1_n_n_wf : DotDims.WF S1000x64 S64x2 S1000x2 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x64_S64x128_S1000x128_1_0_0_1_n_n_wf : DotDims.WF S1000x64 S64x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x64.size a ≤ S50000x64.size a
  hwx0_5 : ∀ i : grid0.Coords, EltTy.bits .f32 = 32 ∨ (Rect.block (s := S50000x64) S1000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S50000x64.size a
  hwx1_1 : ∀ i : grid1.Coords, EltTy.bits .f32 = 32 ∨ (Rect.block (s := S50000x64) S1000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S50000x64.size a
  hwx1_3 : ∀ i : grid1.Coords, EltTy.bits .f32 = 32 ∨ (Rect.block (s := S50000x64) S1000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S50000x64.size a
  hwx2_0 : ∀ i : grid2.Coords, EltTy.bits .f32 = 32 ∨ (Rect.block (s := S50000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x64.size a ≤ S50000x64.size a
  hwx2_1 : ∀ i : grid2.Coords, EltTy.bits .f32 = 32 ∨ (Rect.block (s := S50000x64) S1000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S50000x1.size a
  hwx2_2 : ∀ i : grid2.Coords, EltTy.bits .f32 = 32 ∨ (Rect.block (s := S50000x1) S1000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S50000x64.size a
  hwx2_3 : ∀ i : grid2.Coords, EltTy.bits .f32 = 32 ∨ (Rect.block (s := S50000x64) S1000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S50000x64.size a
  hwx3_0 : ∀ i : grid3.Coords, EltTy.bits .f32 = 32 ∨ (Rect.block (s := S50000x64) S1000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S50000x64.size a
  hwx3_1 : ∀ i : grid3.Coords, EltTy.bits .f32 = 32 ∨ (Rect.block (s := S50000x64) S1000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S50000x64.size a
  hwx3_2 : ∀ i : grid3.Coords, EltTy.bits .f32 = 32 ∨ (Rect.block (s := S50000x64) S1000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x2.size a ≤ S64x2.size a
  hwx3_7 : ∀ i : grid3.Coords, EltTy.bits .f32 = 32 ∨ (Rect.block (s := S64x2) S64x2.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x2.size a ≤ S1x2.size a
  hwx3_8 : ∀ i : grid3.Coords, EltTy.bits .f32 = 32 ∨ (Rect.block (s := S1x2) S1x2.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1000x2.size a ≤ S50000x2.size a
  hwx3_9 : ∀ i : grid3.Coords, EltTy.bits .f32 = 32 ∨ (Rect.block (s := S50000x2) S1000x2.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x1.size a ≤ S50000x1.size a
  hwx4_1 : ∀ i : grid4.Coords, EltTy.bits .f32 = 32 ∨ (Rect.block (s := S50000x1) S1000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x64.size a ≤ S50000x64.size a
  hwx4_4 : ∀ i : grid4.Coords, EltTy.bits .f32 = 32 ∨ (Rect.block (s := S50000x64) S1000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x64.size a ≤ S50000x64.size a
  hwx5_0 : ∀ i : grid5.Coords, EltTy.bits .f32 = 32 ∨ (Rect.block (s := S50000x64) S1000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x1.size a ≤ S50000x1.size a
  hwx5_1 : ∀ i : grid5.Coords, EltTy.bits .f32 = 32 ∨ (Rect.block (s := S50000x1) S1000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x128.size a ≤ S64x128.size a
  hwx5_2 : ∀ i : grid5.Coords, EltTy.bits .f32 = 32 ∨ (Rect.block (s := S64x128) S64x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x128.size a ≤ S50000x128.size a
  hwx5_4 : ∀ i : grid5.Coords, EltTy.bits .f32 = 32 ∨ (Rect.block (s := S50000x128) S1000x128.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v17) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg9) S64x2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v76) S1x2.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v77) S1000x2.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v89) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S1000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v91) S1000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v103) S1000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v11) S1000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg13) S64x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v104) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S1000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S320x64 : Shape := ⟨2, ![320, 64]⟩
abbrev S64x2 : Shape := ⟨2, ![64, 2]⟩
abbrev S2 : Shape := ⟨1, ![2]⟩
abbrev S64x128 : Shape := ⟨2, ![64, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S50000x320 : Shape := ⟨2, ![50000, 320]⟩
abbrev S50000x2 : Shape := ⟨2, ![50000, 2]⟩
abbrev S1x2 : Shape := ⟨2, ![1, 2]⟩
abbrev S800000x128 : Shape := ⟨2, ![800000, 128]⟩
abbrev S1x128 : Shape := ⟨2, ![1, 128]⟩

abbrev nBuf : Space → Nat
  | .hbm => 289
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x64, .f32⟩
  | 4 => ⟨S64, .f32⟩
  | 5 => ⟨S64x64, .f32⟩
  | 6 => ⟨S64, .f32⟩
  | 7 => ⟨S320x64, .f32⟩
  | 8 => ⟨S64, .f32⟩
  | 9 => ⟨S64x2, .f32⟩
  | 10 => ⟨S2, .f32⟩
  | 11 => ⟨S128x64, .f32⟩
  | 12 => ⟨S64, .f32⟩
  | 13 => ⟨S64x128, .f32⟩
  | 14 => ⟨S128, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S_, .f32⟩
  | 38 => ⟨S50000, .f32⟩
  | 39 => ⟨S50000, .f32⟩
  | 40 => ⟨S50000x1, .f32⟩
  | 41 => ⟨S50000x64, .f32⟩
  | 42 => ⟨S1x64, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S50000x64, .f32⟩
  | 59 => ⟨S50000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S_, .f32⟩
  | 70 => ⟨S50000x64, .f32⟩
  | 71 => ⟨S800000x1, .i32⟩
  | 72 => ⟨S50000x64, .f32⟩
  | 73 => ⟨S50000x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S50000x64, .f32⟩
  | 80 => ⟨S50000x64, .f32⟩
  | 81 => ⟨S50000x64, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x64, .f32⟩
  | 91 => ⟨S_, .f32⟩
  | 92 => ⟨S50000x64, .f32⟩
  | 93 => ⟨S800000x1, .i32⟩
  | 94 => ⟨S50000x64, .f32⟩
  | 95 => ⟨S50000x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S_, .f32⟩
  | 103 => ⟨S50000x64, .f32⟩
  | 104 => ⟨S50000x64, .f32⟩
  | 105 => ⟨S50000x64, .f32⟩
  | 106 => ⟨S50000x64, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S50000x64, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S50000x64, .f32⟩
  | _ => ⟨S50000x128, .f32⟩

abbrev hbmTy0_1 (i : Nat) : BufTy := match i % 128 with
  | 0 => ⟨S50000x64, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x64, .f32⟩
  | 10 => ⟨S_, .f32⟩
  | 11 => ⟨S50000x64, .f32⟩
  | 12 => ⟨S800000x1, .i32⟩
  | 13 => ⟨S50000x64, .f32⟩
  | 14 => ⟨S50000x64, .f32⟩
  | 15 => ⟨S50000x64, .f32⟩
  | 16 => ⟨S50000x64, .f32⟩
  | 17 => ⟨S_, .f32⟩
  | 18 => ⟨S50000x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S50000x64, .f32⟩
  | 25 => ⟨S50000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S_, .f32⟩
  | 36 => ⟨S50000x64, .f32⟩
  | 37 => ⟨S800000x1, .i32⟩
  | 38 => ⟨S50000x64, .f32⟩
  | 39 => ⟨S50000x64, .f32⟩
  | 40 => ⟨S50000x64, .f32⟩
  | 41 => ⟨S50000x64, .f32⟩
  | 42 => ⟨S_, .f32⟩
  | 43 => ⟨S50000x64, .f32⟩
  | 44 => ⟨S50000x64, .f32⟩
  | 45 => ⟨S50000x64, .f32⟩
  | 46 => ⟨S50000x64, .f32⟩
  | 47 => ⟨S50000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S50000x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x64, .f32⟩
  | 68 => ⟨S50000x64, .f32⟩
  | 69 => ⟨S50000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S50000x64, .f32⟩
  | 84 => ⟨S50000x64, .f32⟩
  | 85 => ⟨S50000x64, .f32⟩
  | 86 => ⟨S50000x64, .f32⟩
  | 87 => ⟨S50000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S50000x64, .f32⟩
  | 102 => ⟨S50000x64, .f32⟩
  | 103 => ⟨S50000x64, .f32⟩
  | 104 => ⟨S50000x320, .f32⟩
  | 105 => ⟨S50000x64, .f32⟩
  | 106 => ⟨S1x64, .f32⟩
  | 107 => ⟨S50000x64, .f32⟩
  | 108 => ⟨S50000x64, .f32⟩
  | 109 => ⟨S_, .f32⟩
  | 110 => ⟨S50000x64, .f32⟩
  | 111 => ⟨S50000x64, .f32⟩
  | 112 => ⟨S50000x2, .f32⟩
  | 113 => ⟨S1x2, .f32⟩
  | 114 => ⟨S50000x2, .f32⟩
  | 115 => ⟨S50000x2, .f32⟩
  | 116 => ⟨S50000x128, .f32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S_, .f32⟩
  | _ => ⟨S50000x128, .f32⟩

abbrev hbmTy0_2 (i : Nat) : BufTy := match i % 128 with
  | 0 => ⟨S50000x128, .f32⟩
  | 1 => ⟨S800000x1, .i32⟩
  | 2 => ⟨S50000x128, .f32⟩
  | 3 => ⟨S50000x128, .f32⟩
  | 4 => ⟨S50000x128, .f32⟩
  | 5 => ⟨S50000x64, .f32⟩
  | 6 => ⟨S1x64, .f32⟩
  | 7 => ⟨S50000x64, .f32⟩
  | 8 => ⟨S50000x64, .f32⟩
  | 9 => ⟨S_, .f32⟩
  | 10 => ⟨S50000x64, .f32⟩
  | 11 => ⟨S50000x64, .f32⟩
  | 12 => ⟨S50000x64, .f32⟩
  | 13 => ⟨S50000x64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S50000x64, .f32⟩
  | 28 => ⟨S50000x64, .f32⟩
  | 29 => ⟨S50000x128, .f32⟩
  | 30 => ⟨S1x128, .f32⟩
  | 31 => ⟨S50000x128, .f32⟩
  | 32 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_5 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call2_cst : Ref sig .tc := ⟨.hbm, 45, rfl⟩
abbrev main_call2_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call3_cst : Ref sig .tc := ⟨.hbm, 52, rfl⟩
abbrev main_call3_v0 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c : Ref sig .tc := ⟨.hbm, 60, rfl⟩
abbrev main_v29 : Ref sig .tc := ⟨.hbm, 61, rfl⟩
abbrev main_v30 : Ref sig .tc := ⟨.hbm, 62, rfl⟩
abbrev main_c_7 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_9 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_10 : Ref sig .tc := ⟨.hbm, 82, rfl⟩
abbrev main_v47 : Ref sig .tc := ⟨.hbm, 83, rfl⟩
abbrev main_v48 : Ref sig .tc := ⟨.hbm, 84, rfl⟩
abbrev main_c_11 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_12 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_13 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_14 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_15 : Ref sig .tc := ⟨.hbm, 107, rfl⟩
abbrev main_v67 : Ref sig .tc := ⟨.hbm, 108, rfl⟩
abbrev main_v68 : Ref sig .tc := ⟨.hbm, 109, rfl⟩
abbrev main_c_16 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_17 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_18 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_19 : Ref sig .tc := ⟨.hbm, 129, rfl⟩
abbrev main_v85 : Ref sig .tc := ⟨.hbm, 130, rfl⟩
abbrev main_v86 : Ref sig .tc := ⟨.hbm, 131, rfl⟩
abbrev main_c_20 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_21 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_22 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_23 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_24 : Ref sig .tc := ⟨.hbm, 154, rfl⟩
abbrev main_v105 : Ref sig .tc := ⟨.hbm, 155, rfl⟩
abbrev main_v106 : Ref sig .tc := ⟨.hbm, 156, rfl⟩
abbrev main_c_25 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_26 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_27 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_c_28 : Ref sig .tc := ⟨.hbm, 176, rfl⟩
abbrev main_v123 : Ref sig .tc := ⟨.hbm, 177, rfl⟩
abbrev main_v124 : Ref sig .tc := ⟨.hbm, 178, rfl⟩
abbrev main_c_29 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_30 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_31 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_c_32 : Ref sig .tc := ⟨.hbm, 198, rfl⟩
abbrev main_v141 : Ref sig .tc := ⟨.hbm, 199, rfl⟩
abbrev main_v142 : Ref sig .tc := ⟨.hbm, 200, rfl⟩
abbrev main_c_33 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_34 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_c_35 : Ref sig .tc := ⟨.hbm, 216, rfl⟩
abbrev main_v156 : Ref sig .tc := ⟨.hbm, 217, rfl⟩
abbrev main_v157 : Ref sig .tc := ⟨.hbm, 218, rfl⟩
abbrev main_c_36 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_cst_37 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_call4_cst : Ref sig .tc := ⟨.hbm, 237, rfl⟩
abbrev main_call4_v0 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_c_38 : Ref sig .tc := ⟨.hbm, 246, rfl⟩
abbrev main_v181 : Ref sig .tc := ⟨.hbm, 247, rfl⟩
abbrev main_v182 : Ref sig .tc := ⟨.hbm, 248, rfl⟩
abbrev main_c_39 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_cst_40 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_call5_cst : Ref sig .tc := ⟨.hbm, 265, rfl⟩
abbrev main_call5_v0 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_c_41 : Ref sig .tc := ⟨.hbm, 270, rfl⟩
abbrev main_v200 : Ref sig .tc := ⟨.hbm, 271, rfl⟩
abbrev main_v201 : Ref sig .tc := ⟨.hbm, 272, rfl⟩
abbrev main_c_42 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_cst_43 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x64_S50000x64_S50000x64_S50000x64_S50000x64_S50000x320_d1 : Shape.Concatenates [S50000x64, S50000x64, S50000x64, S50000x64, S50000x64] S50000x320 1
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x320_S320x64_S50000x64_1_0_0_1_n_n_wf : DotDims.WF S50000x320 S320x64 S50000x64 [1] [0] [0] [1] [] []
  dot_S50000x64_S64x2_S50000x2_1_0_0_1_n_n_wf : DotDims.WF S50000x64 S64x2 S50000x2 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x64_S64x128_S50000x128_1_0_0_1_n_n_wf : DotDims.WF S50000x64 S64x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x320_S320x64_S50000x64_1_0_0_1_n_n : DotDims S50000x320 S320x64 S50000x64 where
  lhsContracting := [1]
  rhsContracting := [0]
  lhsNonContracting := [0]
  rhsNonContracting := [1]
  lhsBatch := []
  rhsBatch := []
  wf := dot_S50000x320_S320x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.Whole.lean ====
/-
  The six dense stages of the network as functions of whole arrays of extended reals, row by row.

  Every stage is ROW-LOCAL: row `n` of its result depends on row `n` of its row-indexed operands and on the whole of
  its small operands (weights and biases). The same definitions, read at 1000 rows, describe what one grid point
  computes from its blocks, and read at 50000 rows what the whole call leaves in its output array.
    * `dense x w b`      : x · w + b, the bias a single row `[1, N]`
    * `relu a`           : max(a, 0), entry by entry
    * `scaleRows a d`    : row n of `a` times the scalar `d[n, 0]`
    * `lapRes f g d`     : f - g scaled by rows, the residual f - (g · d)
    * `head h f g …`     : (relu (h·A₀ + f·A₁ + g·A₂ + b₃)) · W₄ + b₄
-/
import Idealize.ShloMosaic.PureOps.Ideal
import Idealize.ShloMosaic.Lib.ValueIdx

noncomputable section

namespace Cert.Whole

open Idealize.ShloMosaic Idealize.ShloMosaic.ValueIdx

/-- An array of extended reals over a shape. -/
abbrev Arr (s : Shape) : Type := s.Idx → EReal

/-- Every entry is a real number (neither infinity). -/
def IsReal {s : Shape} (a : Arr s) : Prop := ∀ i, ∃ r : ℝ, a i = (r : EReal)

variable {M K N : ℕ}

/-- Entry `(n, j)` of the product x · w: the sum over the contracted coordinate. -/
def mmAt (x : Arr ⟨2, ![M, K]⟩) (w : Arr ⟨2, ![K, N]⟩) (n : Fin M) (j : Fin N) : EReal :=
  ∑ k : Fin K, x (ix2 n k) * w (ix2 k j)

/-- x · w + b with `b` one row. -/
def dense (x : Arr ⟨2, ![M, K]⟩) (w : Arr ⟨2, ![K, N]⟩) (b : Arr ⟨2, ![1, N]⟩) : Arr ⟨2, ![M, N]⟩ :=
  fun i => mmAt x w (i 0) (i 1) + b (ix2 0 (i 1))

/-- The rectifier, entry by entry. -/
def relu {s : Shape} (a : Arr s) : Arr s := fun i => max (a i) 0

/-- Row `n` times the scalar `d[n, 0]`. -/
def scaleRows (a : Arr ⟨2, ![M, N]⟩) (d : Arr ⟨2, ![M, 1]⟩) : Arr ⟨2, ![M, N]⟩ :=
  fun i => a i * d (ix2 (i 0) 0)

/-- The residual f - g · d, `d` a column of row scalars. -/
def lapRes (f g : Arr ⟨2, ![M, N]⟩) (d : Arr ⟨2, ![M, 1]⟩) : Arr ⟨2, ![M, N]⟩ :=
  fun i => f i - g i * d (ix2 (i 0) 0)

/-- The three-term hidden layer h·A₀ + f·A₁ + g·A₂ + b₃ before its rectifier. -/
def head3 (h f g : Arr ⟨2, ![M, K]⟩) (a0 a1 a2 : Arr ⟨2, ![K, N]⟩) (b3 : Arr ⟨2, ![1, N]⟩) : Arr ⟨2, ![M, N]⟩ :=
  fun i => ((mmAt h a0 (i 0) (i 1) + mmAt f a1 (i 0) (i 1)) + mmAt g a2 (i 0) (i 1)) + b3 (ix2 0 (i 1))

theorem dense_apply (x : Arr ⟨2, ![M, K]⟩) (w : Arr ⟨2, ![K, N]⟩) (b : Arr ⟨2, ![1, N]⟩) (n : Fin M) (j : Fin N) :
    dense x w b (ix2 n j) = mmAt x w n j + b (ix2 0 j) := rfl
theorem relu_apply {s : Shape} (a : Arr s) (i : s.Idx) : relu a i = max (a i) 0 := rfl
theorem scaleRows_apply (a : Arr ⟨2, ![M, N]⟩) (d : Arr ⟨2, ![M, 1]⟩) (n : Fin M) (j : Fin N) :
    scaleRows a d (ix2 n j) = a (ix2 n j) * d (ix2 n 0) := rfl
theorem lapRes_apply (f g : Arr ⟨2, ![M, N]⟩) (d : Arr ⟨2, ![M, 1]⟩) (n : Fin M) (j : Fin N) :
    lapRes f g d (ix2 n j) = f (ix2 n j) - g (ix2 n j) * d (ix2 n 0) := rfl
theorem head3_apply (h f g : Arr ⟨2, ![M, K]⟩) (a0 a1 a2 : Arr ⟨2, ![K, N]⟩) (b3 : Arr ⟨2, ![1, N]⟩) (n : Fin M) (j : Fin N) :
    head3 h f g a0 a1 a2 b3 (ix2 n j) = ((mmAt h a0 n j + mmAt f a1 n j) + mmAt g a2 n j) + b3 (ix2 0 j) := rfl

end Cert.Whole

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.Pay.lean ====
/-
  What one grid point computes: each kernel body's stored value is the corresponding row-local stage
  (`Cert.Whole`) of the blocks it loads, read at 1000 rows.

  The bodies use four kinds of operations: identity casts, a bias row or a scalar column repeated over the block,
  entrywise arithmetic, and products into a zero accumulator (the sum over the contracted coordinate on the
  extended reals).
-/
import proofs.«403152_j77584289235637_3_alg».proof.Proof.Gen.KernelIdeal.Skeleton
import proofs.«403152_j77584289235637_3_alg».proof.Proof.Whole
import proofs.«403152_j77584289235637_3_alg».proof.Proof.LibPlainDot
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Whole

/-- An `[a, 1]` column repeated to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The zero word is the real zero. -/
theorem zero_word : (Scalar.ofBits (F := Ideal) .f32 0x00000000#32 : Ideal .f32) = (0 : EReal) := Ideal.ofBits_zero_f32

/-- A product into the zero accumulator plus a repeated bias row is `dense`. -/
theorem dense_of_matmul {m k n : ℕ} (D : DotDims ⟨2, ![m, k]⟩ ⟨2, ![k, n]⟩ ⟨2, ![m, n]⟩) (hD : D = DotDims.plain m k n)
    (x : Arr ⟨2, ![m, k]⟩) (w : Arr ⟨2, ![k, n]⟩) (b : Arr ⟨2, ![1, n]⟩) (hb : (⟨2, ![1, n]⟩ : Shape).Broadcasts ⟨2, ![m, n]⟩) :
    addf (F := Ideal) (φ := .f32) (matmul (F := Ideal) (φ₁ := .f32) (φ₂ := .f32) D none x w (constant (F := Ideal) ⟨2, ![m, n]⟩ .f32 0x00000000#32))
      (broadcastTo ⟨2, ![m, n]⟩ b hb) = dense x w b := by
  funext i
  obtain ⟨p, q, rfl⟩ : ∃ (p : Fin m) (q : Fin n), i = ix2 p q := ⟨i 0, i 1, eq_ix2 i⟩
  rw [addf_apply, Cert.LibPlainDot.matmul_zero_apply D hD none x w p q, broadcastTo_1b_ab_apply]
  rfl

/-- The maximum with the repeated zero word is the rectifier. -/
theorem relu_of_max {s : Shape} (a : Arr s) :
    maximumf (F := Ideal) (φ := .f32) a (broadcast s (Scalar.ofBits (F := Ideal) .f32 0x00000000#32)) = relu a := by
  funext i
  rw [maximumf_apply, broadcast_apply, zero_word]
  rfl

/-- The product with a repeated scalar column scales the rows. -/
theorem scale_of_mul {m n : ℕ} (x : Arr ⟨2, ![m, n]⟩) (d : Arr ⟨2, ![m, 1]⟩) (h : (⟨2, ![m, 1]⟩ : Shape).Broadcasts ⟨2, ![m, n]⟩) :
    mulf (F := Ideal) (φ := .f32) x (broadcastTo ⟨2, ![m, n]⟩ d h) = scaleRows x d := by
  funext i
  obtain ⟨p, q, rfl⟩ : ∃ (p : Fin m) (q : Fin n), i = ix2 p q := ⟨i 0, i 1, eq_ix2 i⟩
  rw [mulf_apply, broadcastTo_a1_ab_apply]
  rfl

/-- The difference with a row-scaled array is the residual. -/
theorem lap_of_sub {m n : ℕ} (f g : Arr ⟨2, ![m, n]⟩) (d : Arr ⟨2, ![m, 1]⟩) :
    subf (F := Ideal) (φ := .f32) f (scaleRows g d) = lapRes f g d := rfl

/-- Three products into zero accumulators, summed left to right, plus a repeated bias row. -/
theorem head3_of_matmuls {m k n : ℕ} (D : DotDims ⟨2, ![m, k]⟩ ⟨2, ![k, n]⟩ ⟨2, ![m, n]⟩) (hD : D = DotDims.plain m k n)
    (h f g : Arr ⟨2, ![m, k]⟩) (a0 a1 a2 : Arr ⟨2, ![k, n]⟩) (b : Arr ⟨2, ![1, n]⟩) (hb : (⟨2, ![1, n]⟩ : Shape).Broadcasts ⟨2, ![m, n]⟩) :
    addf (F := Ideal) (φ := .f32) (addf (F := Ideal) (φ := .f32) (addf (F := Ideal) (φ := .f32)
        (matmul (F := Ideal) (φ₁ := .f32) (φ₂ := .f32) D none h a0 (constant (F := Ideal) ⟨2, ![m, n]⟩ .f32 0x00000000#32))
        (matmul (F := Ideal) (φ₁ := .f32) (φ₂ := .f32) D none f a1 (constant (F := Ideal) ⟨2, ![m, n]⟩ .f32 0x00000000#32)))
        (matmul (F := Ideal) (φ₁ := .f32) (φ₂ := .f32) D none g a2 (constant (F := Ideal) ⟨2, ![m, n]⟩ .f32 0x00000000#32)))
      (broadcastTo ⟨2, ![m, n]⟩ b hb) = head3 h f g a0 a1 a2 b := by
  funext i
  obtain ⟨p, q, rfl⟩ : ∃ (p : Fin m) (q : Fin n), i = ix2 p q := ⟨i 0, i 1, eq_ix2 i⟩
  rw [addf_apply, addf_apply, addf_apply, Cert.LibPlainDot.matmul_zero_apply D hD none h a0 p q,
    Cert.LibPlainDot.matmul_zero_apply D hD none f a1 p q, Cert.LibPlainDot.matmul_zero_apply D hD none g a2 p q,
    broadcastTo_1b_ab_apply]
  rfl

theorem pay1 (x0 x1 : Vec Ideal S1000x64 .f32) (x2 : Vec Ideal S1000x1 .f32) :
    k1_pay1 (F := Ideal) x0 x1 x2 = lapRes x0 x1 x2 := by
  unfold k1_pay1
  simp only [shapeCast_self]
  rw [scale_of_mul x1 x2]
  rfl

theorem pay2 (x0 x1 : Vec Ideal S1000x64 .f32) (x2 : Vec Ideal S1000x1 .f32) :
    k2_pay1 (F := Ideal) x0 x1 x2 = lapRes x0 x1 x2 := by
  unfold k2_pay1
  simp only [shapeCast_self]
  rw [scale_of_mul x1 x2]
  rfl

theorem pay0 (x0 : Vec Ideal S1000x128 .f32) (x1 : Vec Ideal S128x64 .f32) (x2 : Vec Ideal S1x64 .f32)
    (x3 : Vec Ideal S64x64 .f32) (x4 : Vec Ideal S1x64 .f32) :
    k0_pay1 (F := Ideal) x0 x1 x2 x3 x4 = relu (dense (relu (dense x0 x1 x2)) x3 x4) := by
  unfold k0_pay1
  simp only [shapeCast_self]
  rw [dense_of_matmul dot_S1000x128_S128x64_S1000x64_1_0_0_1_n_n rfl x0 x1 x2, relu_of_max,
    dense_of_matmul dot_S1000x64_S64x64_S1000x64_1_0_0_1_n_n rfl _ x3 x4, relu_of_max]

theorem pay4 (x0 : Vec Ideal S1000x128 .f32) (x1 : Vec Ideal S1000x1 .f32) (x2 : Vec Ideal S128x64 .f32) (x3 : Vec Ideal S1x64 .f32) :
    k4_pay1 (F := Ideal) x0 x1 x2 x3 = relu (dense (scaleRows x0 x1) x2 x3) := by
  unfold k4_pay1
  simp only [shapeCast_self]
  rw [scale_of_mul x0 x1, dense_of_matmul dot_S1000x128_S128x64_S1000x64_1_0_0_1_n_n rfl _ x2 x3, relu_of_max]

theorem pay5 (x0 : Vec Ideal S1000x64 .f32) (x1 : Vec Ideal S1000x1 .f32) (x2 : Vec Ideal S64x128 .f32) (x3 : Vec Ideal S1x128 .f32) :
    k5_pay1 (F := Ideal) x0 x1 x2 x3 = dense (scaleRows x0 x1) x2 x3 := by
  unfold k5_pay1
  simp only [shapeCast_self]
  rw [scale_of_mul x0 x1, dense_of_matmul dot_S1000x64_S64x128_S1000x128_1_0_0_1_n_n rfl _ x2 x3]

/-- The head's body: arguments in the order the body loads them (h, A₀, f₁, A₁, f₂, A₂, b₃, W₄, b₄). -/
theorem pay3 (h : Vec Ideal S1000x64 .f32) (a0 : Vec Ideal S64x64 .f32) (f1 : Vec Ideal S1000x64 .f32) (a1 : Vec Ideal S64x64 .f32)
    (f2 : Vec Ideal S1000x64 .f32) (a2 : Vec Ideal S64x64 .f32) (b3 : Vec Ideal S1x64 .f32) (w4 : Vec Ideal S64x2 .f32) (b4 : Vec Ideal S1x2 .f32) :
    k3_pay1 (F := Ideal) h a0 f1 a1 f2 a2 b3 w4 b4 = dense (relu (head3 h f1 f2 a0 a1 a2 b3)) w4 b4 := by
  unfold k3_pay1
  simp only [shapeCast_self]
  rw [head3_of_matmuls dot_S1000x64_S64x64_S1000x64_1_0_0_1_n_n rfl h f1 f2 a0 a1 a2 b3, relu_of_max,
    dense_of_matmul dot_S1000x64_S64x2_S1000x2_1_0_0_1_n_n rfl _ w4 b4]

end Cert.KernelIdeal.Pay

end
-- ==== Proof.Region0.lean ====
/-
  What the two-layer call leaves in its output array: relu (relu (x · W₁ + b₁) · W₂ + b₂) of the whole arrays it was given.
  Point t of the 50 stages rows 1000·t … 1000·t + 999 of x; the weights and biases are staged whole at every point.

  Both layers are row-local: row n of the hidden layer relu (x · W₁ + b₁) depends on row n of x and on all of W₁, b₁,
  and row n of the result on row n of the hidden layer and on all of W₂, b₂. So block t of the result is the two layers
  applied to block t of x, and the 50 blocks cover the 50000 rows.
-/
import proofs.«403152_j77584289235637_3_alg».proof.Proof.Gen.KernelIdeal.Frame
import proofs.«403152_j77584289235637_3_alg».proof.Proof.Pay
import Idealize.ShloMosaic.Lib.Pipeline.Value

set_option maxRecDepth 16384

noncomputable section

namespace Cert.KernelIdeal.Region0

open Idealize.ShloMosaic Idealize.ShloMosaic.ValueIdx Idealize.ShloMosaic.TcCoe Idealize.SL.Sem
open Idealize.ShloMosaic.Pipeline (Dat)
open Cert.KernelIdeal Cert.KernelIdeal.Gen Cert.Whole

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: x and the result sit at block row t, block column 0; the two weights and
    the two bias rows sit at block (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 50 :=
  (by decide +kernel : ∀ t : Fin grid0.N, _)

/-- Row p of block t is row 1000·t + p of the array. -/
def row (t : Fin cfg0.N) (p : Fin 1000) : Fin 50000 := ⟨t.val * 1000 + p.val, by
  have := (idx_facts t).2.2.2.2.2.2.2.2.2.2.2.2; have := p.isLt; omega⟩

theorem emb0 (t : Fin cfg0.N) (p : Fin 1000) (q : Fin 128) : ((cfg0.win 0).blk t).view.emb (ix2 p q) = ix2 (row t p) q := by
  obtain ⟨e0, e1, -⟩ := idx_facts t
  funext a; apply Fin.ext
  match a with
  | ⟨0, _⟩ => show win0_0.index t (0 : Fin 2) * 1000 + 1 * p.val = t.val * 1000 + p.val; omega
  | ⟨1, _⟩ => show win0_0.index t (1 : Fin 2) * 128 + 1 * q.val = q.val; omega
theorem emb1 (t : Fin cfg0.N) (p : Fin 128) (q : Fin 64) : ((cfg0.win 1).blk t).view.emb (ix2 p q) = ix2 p q := by
  obtain ⟨-, -, e0, e1, -⟩ := idx_facts t
  funext a; apply Fin.ext
  match a with
  | ⟨0, _⟩ => show win0_1.index t (0 : Fin 2) * 128 + 1 * p.val = p.val; omega
  | ⟨1, _⟩ => show win0_1.index t (1 : Fin 2) * 64 + 1 * q.val = q.val; omega
theorem emb2 (t : Fin cfg0.N) (p : Fin 1) (q : Fin 64) : ((cfg0.win 2).blk t).view.emb (ix2 p q) = ix2 p q := by
  obtain ⟨-, -, -, -, e0, e1, -⟩ := idx_facts t
  funext a; apply Fin.ext
  match a with
  | ⟨0, _⟩ => show win0_2.index t (0 : Fin 2) * 1 + 1 * p.val = p.val; omega
  | ⟨1, _⟩ => show win0_2.index t (1 : Fin 2) * 64 + 1 * q.val = q.val; omega
theorem emb3 (t : Fin cfg0.N) (p : Fin 64) (q : Fin 64) : ((cfg0.win 3).blk t).view.emb (ix2 p q) = ix2 p q := by
  obtain ⟨-, -, -, -, -, -, e0, e1, -⟩ := idx_facts t
  funext a; apply Fin.ext
  match a with
  | ⟨0, _⟩ => show win0_3.index t (0 : Fin 2) * 64 + 1 * p.val = p.val; omega
  | ⟨1, _⟩ => show win0_3.index t (1 : Fin 2) * 64 + 1 * q.val = q.val; omega
theorem emb4 (t : Fin cfg0.N) (p : Fin 1) (q : Fin 64) : ((cfg0.win 4).blk t).view.emb (ix2 p q) = ix2 p q := by
  obtain ⟨-, -, -, -, -, -, -, -, e0, e1, -⟩ := idx_facts t
  funext a; apply Fin.ext
  match a with
  | ⟨0, _⟩ => show win0_4.index t (0 : Fin 2) * 1 + 1 * p.val = p.val; omega
  | ⟨1, _⟩ => show win0_4.index t (1 : Fin 2) * 64 + 1 * q.val = q.val; omega
theorem emb5 (t : Fin cfg0.N) (p : Fin 1000) (q : Fin 64) : ((cfg0.win 5).blk t).view.emb (ix2 p q) = ix2 (row t p) q := by
  obtain ⟨-, -, -, -, -, -, -, -, -, -, e0, e1, -⟩ := idx_facts t
  funext a; apply Fin.ext
  match a with
  | ⟨0, _⟩ => show win0_5.index t (0 : Fin 2) * 1000 + 1 * p.val = t.val * 1000 + p.val; omega
  | ⟨1, _⟩ => show win0_5.index t (1 : Fin 2) * 64 + 1 * q.val = q.val; omega

/-- The operands as the call finds them, at their literal types. -/
abbrev xarr (c : Dev nD) : Arr S50000x128 := V c (Pipeline.arrRef spec0 0)
abbrev w1arr (c : Dev nD) : Arr S128x64 := V c (Pipeline.arrRef spec0 1)
abbrev b1arr (c : Dev nD) : Arr S1x64 := V c (Pipeline.arrRef spec0 2)
abbrev w2arr (c : Dev nD) : Arr S64x64 := V c (Pipeline.arrRef spec0 3)
abbrev b2arr (c : Dev nD) : Arr S1x64 := V c (Pipeline.arrRef spec0 4)

/-- Their blocks at point t, at their literal types. -/
abbrev xblk (c : Dev nD) (t : Fin cfg0.N) : Arr S1000x128 := iblk0 V c 0 t
abbrev w1blk (c : Dev nD) (t : Fin cfg0.N) : Arr S128x64 := iblk0 V c 1 t
abbrev b1blk (c : Dev nD) (t : Fin cfg0.N) : Arr S1x64 := iblk0 V c 2 t
abbrev w2blk (c : Dev nD) (t : Fin cfg0.N) : Arr S64x64 := iblk0 V c 3 t
abbrev b2blk (c : Dev nD) (t : Fin cfg0.N) : Arr S1x64 := iblk0 V c 4 t

theorem xblk_apply (c : Dev nD) (t : Fin cfg0.N) (p : Fin 1000) (q : Fin 128) : xblk V c t (ix2 p q) = xarr V c (ix2 (row t p) q) := by
  show V c (Pipeline.arrRef spec0 0) (((cfg0.win 0).blk t).view.emb (ix2 p q)) = _
  rw [emb0]
theorem w1blk_apply (c : Dev nD) (t : Fin cfg0.N) (p : Fin 128) (q : Fin 64) : w1blk V c t (ix2 p q) = w1arr V c (ix2 p q) := by
  show V c (Pipeline.arrRef spec0 1) (((cfg0.win 1).blk t).view.emb (ix2 p q)) = _
  rw [emb1]
theorem b1blk_apply (c : Dev nD) (t : Fin cfg0.N) (p : Fin 1) (q : Fin 64) : b1blk V c t (ix2 p q) = b1arr V c (ix2 p q) := by
  show V c (Pipeline.arrRef spec0 2) (((cfg0.win 2).blk t).view.emb (ix2 p q)) = _
  rw [emb2]
theorem w2blk_apply (c : Dev nD) (t : Fin cfg0.N) (p : Fin 64) (q : Fin 64) : w2blk V c t (ix2 p q) = w2arr V c (ix2 p q) := by
  show V c (Pipeline.arrRef spec0 3) (((cfg0.win 3).blk t).view.emb (ix2 p q)) = _
  rw [emb3]
theorem b2blk_apply (c : Dev nD) (t : Fin cfg0.N) (p : Fin 1) (q : Fin 64) : b2blk V c t (ix2 p q) = b2arr V c (ix2 p q) := by
  show V c (Pipeline.arrRef spec0 4) (((cfg0.win 4).blk t).view.emb (ix2 p q)) = _
  rw [emb4]

/-- Entry (p, k) of the first product on block t is entry (1000·t + p, k) of the first product on the whole arrays:
    the two sums over the contracted coordinate agree term by term. -/
theorem mm1_blk (c : Dev nD) (t : Fin cfg0.N) (p : Fin 1000) (k : Fin 64) :
    mmAt (xblk V c t) (w1blk V c t) p k = mmAt (xarr V c) (w1arr V c) (row t p) k := by
  unfold mmAt
  exact Finset.sum_congr rfl fun l _ => by rw [xblk_apply, w1blk_apply]

/-- The hidden layer of block t is rows 1000·t … 1000·t + 999 of the hidden layer of the whole arrays. -/
theorem inner (c : Dev nD) (t : Fin cfg0.N) (p : Fin 1000) (k : Fin 64) :
    relu (dense (xblk V c t) (w1blk V c t) (b1blk V c t)) (ix2 p k)
      = relu (dense (xarr V c) (w1arr V c) (b1arr V c)) (ix2 (row t p) k) := by
  rw [relu_apply, relu_apply, dense_apply, dense_apply, mm1_blk, b1blk_apply]

/-- Entry (p, q) of the second product on block t's hidden layer is entry (1000·t + p, q) of the second product on the
    whole hidden layer. -/
theorem mm2_blk (c : Dev nD) (t : Fin cfg0.N) (p : Fin 1000) (q : Fin 64) :
    mmAt (relu (dense (xblk V c t) (w1blk V c t) (b1blk V c t))) (w2blk V c t) p q
      = mmAt (relu (dense (xarr V c) (w1arr V c) (b1arr V c))) (w2arr V c) (row t p) q := by
  unfold mmAt
  exact Finset.sum_congr rfl fun k _ => by rw [inner, w2blk_apply]

/-- What point t writes back is block t of the two layers of the whole arrays. -/
theorem flushed_eq (c : Dev nD) (t : Fin cfg0.N) :
    (dat0 V c).flushed 5 t = ((cfg0.win 5).blk t).view.read (Elt Ideal)
      (relu (dense (relu (dense (xarr V c) (w1arr V c) (b1arr V c))) (w2arr V c) (b2arr V c))) := by
  show (cfg0.win 5).cut (grid0.coords t) ((dat0 V c).after 5 t) = _
  rw [after0_5]
  unfold out0_5
  rw [View.canon_unit_zero hz]
  simp only [View.ld_unit_zero (S := S1000x128) hz, View.ld_unit_zero (S := S128x64) hz,
    View.ld_unit_zero (S := S1x64) hz, View.ld_unit_zero (S := S64x64) hz]
  rw [Pay.pay0]
  funext j
  obtain ⟨p, q, rfl⟩ : ∃ (p : Fin 1000) (q : Fin 64), j = ix2 p q := ⟨j 0, j 1, eq_ix2 j⟩
  show relu (dense (relu (dense (xblk V c t) (w1blk V c t) (b1blk V c t))) (w2blk V c t) (b2blk V c t)) (ix2 p q)
    = relu (dense (relu (dense (xarr V c) (w1arr V c) (b1arr V c))) (w2arr V c) (b2arr V c))
        (((cfg0.win 5).blk t).view.emb (ix2 p q))
  rw [emb5, relu_apply, relu_apply, dense_apply, dense_apply, mm2_blk, b2blk_apply]

/-- Membership in point t's block, axis by axis. -/
theorem mem_blk (t : Fin cfg0.N) (i : S50000x64.Idx) :
    i ∈ ((cfg0.win 5).blk t).view.set ↔ ∀ a : Fin 2, win0_5.index t a * S1000x64.size a ≤ (i a).val ∧ (i a).val < win0_5.index t a * S1000x64.size a + S1000x64.size a := by
  show i ∈ ((View.whole main_v17).slice (win0_5.rect t)).set ↔ _
  rw [View.set_slice_whole, Rect.mem_set_unit]
  exact Iff.rfl

/-- The 50 blocks cover the array: row r lies in block r / 1000. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  refine ⟨⟨(i 0).val / 1000, by rw [show cfg0.N = 50 from N_0]; omega⟩, flush0_5 _, ?_⟩
  rw [mem_blk]
  obtain ⟨-, -, -, -, -, -, -, -, -, -, e0, e1, -⟩ := idx_facts ⟨(i 0).val / 1000, by rw [show cfg0.N = 50 from N_0]; omega⟩
  intro a
  match a with
  | ⟨0, _⟩ =>
    show win0_5.index _ (0 : Fin 2) * 1000 ≤ (i 0).val ∧ (i 0).val < win0_5.index _ (0 : Fin 2) * 1000 + 1000
    rw [e0]; show (i 0).val / 1000 * 1000 ≤ (i 0).val ∧ (i 0).val < (i 0).val / 1000 * 1000 + 1000; omega
  | ⟨1, _⟩ =>
    show win0_5.index _ (1 : Fin 2) * 64 ≤ (i 1).val ∧ (i 1).val < win0_5.index _ (1 : Fin 2) * 64 + 64
    rw [e1]; omega

/-- The output array after the call. -/
theorem arr (c : Dev nD) : (dat0 V c).arrAt 5 cfg0.N = relu (dense (relu (dense (xarr V c) (w1arr V c) (b1arr V c))) (w2arr V c) (b2arr V c)) :=
  (dat0 V c).arrAt_eq_of_cover 5 _ (fun t _ => flushed_eq V c t) (cover)

end Cert.KernelIdeal.Region0

end
-- ==== Proof.Region1.lean ====
/-
  What the first residual call leaves in its output array: the residual f - g · d of the whole arrays it was given.

  The grid has 50 points; point t stages rows 1000·t … 1000·t + 999 of the three row-indexed operands and writes
  back the same rows of the result. The stage is row-local, so block t of the result is the stage of block t of
  the operands, and the 50 blocks cover the 50000 rows.
-/
import proofs.«403152_j77584289235637_3_alg».proof.Proof.Gen.KernelIdeal.Frame
import proofs.«403152_j77584289235637_3_alg».proof.Proof.Pay
import Idealize.ShloMosaic.Lib.Pipeline.Value

set_option maxRecDepth 16384

noncomputable section

namespace Cert.KernelIdeal.Region1

open Idealize.ShloMosaic Idealize.ShloMosaic.ValueIdx Idealize.ShloMosaic.TcCoe Idealize.SL.Sem
open Idealize.ShloMosaic.Pipeline (Dat)
open Cert.KernelIdeal Cert.KernelIdeal.Gen Cert.Whole

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every row-indexed window sits at block row t, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 ∧ t.val < 50 :=
  (by decide +kernel : ∀ t : Fin grid1.N, _)

/-- Row p of block t is row 1000·t + p of the array. -/
def row (t : Fin cfg1.N) (p : Fin 1000) : Fin 50000 := ⟨t.val * 1000 + p.val, by
  have := (idx_facts t).2.2.2.2.2.2.2.2; have := p.isLt; omega⟩

theorem emb0 (t : Fin cfg1.N) (p : Fin 1000) (q : Fin 64) : ((cfg1.win 0).blk t).view.emb (ix2 p q) = ix2 (row t p) q := by
  obtain ⟨e0, e1, -⟩ := idx_facts t
  funext a; apply Fin.ext
  match a with
  | ⟨0, _⟩ => show win1_0.index t (0 : Fin 2) * 1000 + 1 * p.val = t.val * 1000 + p.val; omega
  | ⟨1, _⟩ => show win1_0.index t (1 : Fin 2) * 64 + 1 * q.val = q.val; omega
theorem emb1 (t : Fin cfg1.N) (p : Fin 1000) (q : Fin 64) : ((cfg1.win 1).blk t).view.emb (ix2 p q) = ix2 (row t p) q := by
  obtain ⟨-, -, e0, e1, -⟩ := idx_facts t
  funext a; apply Fin.ext
  match a with
  | ⟨0, _⟩ => show win1_1.index t (0 : Fin 2) * 1000 + 1 * p.val = t.val * 1000 + p.val; omega
  | ⟨1, _⟩ => show win1_1.index t (1 : Fin 2) * 64 + 1 * q.val = q.val; omega
theorem emb2 (t : Fin cfg1.N) (p : Fin 1000) (q : Fin 1) : ((cfg1.win 2).blk t).view.emb (ix2 p q) = ix2 (row t p) (0 : Fin 1) := by
  obtain ⟨-, -, -, -, e0, e1, -⟩ := idx_facts t
  funext a; apply Fin.ext
  match a with
  | ⟨0, _⟩ => show win1_2.index t (0 : Fin 2) * 1000 + 1 * p.val = t.val * 1000 + p.val; omega
  | ⟨1, _⟩ => show win1_2.index t (1 : Fin 2) * 1 + 1 * q.val = 0; have := q.isLt; omega
theorem emb3 (t : Fin cfg1.N) (p : Fin 1000) (q : Fin 64) : ((cfg1.win 3).blk t).view.emb (ix2 p q) = ix2 (row t p) q := by
  obtain ⟨-, -, -, -, -, -, e0, e1, -⟩ := idx_facts t
  funext a; apply Fin.ext
  match a with
  | ⟨0, _⟩ => show win1_3.index t (0 : Fin 2) * 1000 + 1 * p.val = t.val * 1000 + p.val; omega
  | ⟨1, _⟩ => show win1_3.index t (1 : Fin 2) * 64 + 1 * q.val = q.val; omega

/-- The operands as the call finds them, and their blocks at point t, at their literal types. -/
abbrev farr (c : Dev nD) : Arr S50000x64 := V c (Pipeline.arrRef spec1 0)
abbrev garr (c : Dev nD) : Arr S50000x64 := V c (Pipeline.arrRef spec1 1)
abbrev darr (c : Dev nD) : Arr S50000x1 := V c (Pipeline.arrRef spec1 2)
abbrev fblk (c : Dev nD) (t : Fin cfg1.N) : Arr S1000x64 := iblk1 V c 0 t
abbrev gblk (c : Dev nD) (t : Fin cfg1.N) : Arr S1000x64 := iblk1 V c 1 t
abbrev dblk (c : Dev nD) (t : Fin cfg1.N) : Arr S1000x1 := iblk1 V c 2 t

theorem fblk_apply (c : Dev nD) (t : Fin cfg1.N) (p : Fin 1000) (q : Fin 64) : fblk V c t (ix2 p q) = farr V c (ix2 (row t p) q) := by
  show V c (Pipeline.arrRef spec1 0) (((cfg1.win 0).blk t).view.emb (ix2 p q)) = _
  rw [emb0]
theorem gblk_apply (c : Dev nD) (t : Fin cfg1.N) (p : Fin 1000) (q : Fin 64) : gblk V c t (ix2 p q) = garr V c (ix2 (row t p) q) := by
  show V c (Pipeline.arrRef spec1 1) (((cfg1.win 1).blk t).view.emb (ix2 p q)) = _
  rw [emb1]
theorem dblk_apply (c : Dev nD) (t : Fin cfg1.N) (p : Fin 1000) (q : Fin 1) : dblk V c t (ix2 p q) = darr V c (ix2 (row t p) (0 : Fin 1)) := by
  show V c (Pipeline.arrRef spec1 2) (((cfg1.win 2).blk t).view.emb (ix2 p q)) = _
  rw [emb2]

/-- What point t writes back is block t of the residual of the whole arrays. -/
theorem flushed_eq (c : Dev nD) (t : Fin cfg1.N) :
    (dat1 V c).flushed 3 t = ((cfg1.win 3).blk t).view.read (Elt Ideal) (lapRes (farr V c) (garr V c) (darr V c)) := by
  show (cfg1.win 3).cut (grid1.coords t) ((dat1 V c).after 3 t) = _
  rw [after1_3]
  unfold out1_3
  rw [View.canon_unit_zero hz]
  simp only [View.ld_unit_zero (S := S1000x64) hz, View.ld_unit_zero (S := S1000x1) hz]
  rw [Pay.pay1]
  funext j
  obtain ⟨p, q, rfl⟩ : ∃ (p : Fin 1000) (q : Fin 64), j = ix2 p q := ⟨j 0, j 1, eq_ix2 j⟩
  show lapRes (fblk V c t) (gblk V c t) (dblk V c t) (ix2 p q)
    = lapRes (farr V c) (garr V c) (darr V c) (((cfg1.win 3).blk t).view.emb (ix2 p q))
  rw [emb3, lapRes_apply, lapRes_apply, fblk_apply, gblk_apply, dblk_apply]

/-- Membership in point t's block, axis by axis. -/
theorem mem_blk (t : Fin cfg1.N) (i : S50000x64.Idx) :
    i ∈ ((cfg1.win 3).blk t).view.set ↔ ∀ a : Fin 2, win1_3.index t a * S1000x64.size a ≤ (i a).val ∧ (i a).val < win1_3.index t a * S1000x64.size a + S1000x64.size a := by
  show i ∈ ((View.whole main_v30).slice (win1_3.rect t)).set ↔ _
  rw [View.set_slice_whole, Rect.mem_set_unit]
  exact Iff.rfl

/-- The 50 blocks cover the array: row r lies in block r / 1000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  refine ⟨⟨(i 0).val / 1000, by rw [show cfg1.N = 50 from N_1]; omega⟩, flush1_3 _, ?_⟩
  rw [mem_blk]
  obtain ⟨-, -, -, -, -, -, e0, e1, -⟩ := idx_facts ⟨(i 0).val / 1000, by rw [show cfg1.N = 50 from N_1]; omega⟩
  intro a
  match a with
  | ⟨0, _⟩ =>
    show win1_3.index _ (0 : Fin 2) * 1000 ≤ (i 0).val ∧ (i 0).val < win1_3.index _ (0 : Fin 2) * 1000 + 1000
    rw [e0]; show (i 0).val / 1000 * 1000 ≤ (i 0).val ∧ (i 0).val < (i 0).val / 1000 * 1000 + 1000; omega
  | ⟨1, _⟩ =>
    show win1_3.index _ (1 : Fin 2) * 64 ≤ (i 1).val ∧ (i 1).val < win1_3.index _ (1 : Fin 2) * 64 + 64
    rw [e1]; omega

/-- The output array after the call. -/
theorem arr (c : Dev nD) : (dat1 V c).arrAt 3 cfg1.N = lapRes (farr V c) (garr V c) (darr V c) :=
  (dat1 V c).arrAt_eq_of_cover 3 _ (fun t _ => flushed_eq V c t) (cover)

end Cert.KernelIdeal.Region1

end
-- ==== Proof.Region2.lean ====
/-
  What the second residual call leaves in its output array: the residual f - g · d of the whole arrays it was given.

  The grid has 50 points; point t stages rows 1000·t … 1000·t + 999 of the three row-indexed operands and writes
  back the same rows of the result. The stage is row-local, so block t of the result is the stage of block t of
  the operands, and the 50 blocks cover the 50000 rows.
-/
import proofs.«403152_j77584289235637_3_alg».proof.Proof.Gen.KernelIdeal.Frame
import proofs.«403152_j77584289235637_3_alg».proof.Proof.Pay
import Idealize.ShloMosaic.Lib.Pipeline.Value

set_option maxRecDepth 16384

noncomputable section

namespace Cert.KernelIdeal.Region2

open Idealize.ShloMosaic Idealize.ShloMosaic.ValueIdx Idealize.ShloMosaic.TcCoe Idealize.SL.Sem
open Idealize.ShloMosaic.Pipeline (Dat)
open Cert.KernelIdeal Cert.KernelIdeal.Gen Cert.Whole

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every row-indexed window sits at block row t, block column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 50 :=
  (by decide +kernel : ∀ t : Fin grid2.N, _)

/-- Row p of block t is row 1000·t + p of the array. -/
def row (t : Fin cfg2.N) (p : Fin 1000) : Fin 50000 := ⟨t.val * 1000 + p.val, by
  have := (idx_facts t).2.2.2.2.2.2.2.2; have := p.isLt; omega⟩

theorem emb0 (t : Fin cfg2.N) (p : Fin 1000) (q : Fin 64) : ((cfg2.win 0).blk t).view.emb (ix2 p q) = ix2 (row t p) q := by
  obtain ⟨e0, e1, -⟩ := idx_facts t
  funext a; apply Fin.ext
  match a with
  | ⟨0, _⟩ => show win2_0.index t (0 : Fin 2) * 1000 + 1 * p.val = t.val * 1000 + p.val; omega
  | ⟨1, _⟩ => show win2_0.index t (1 : Fin 2) * 64 + 1 * q.val = q.val; omega
theorem emb1 (t : Fin cfg2.N) (p : Fin 1000) (q : Fin 64) : ((cfg2.win 1).blk t).view.emb (ix2 p q) = ix2 (row t p) q := by
  obtain ⟨-, -, e0, e1, -⟩ := idx_facts t
  funext a; apply Fin.ext
  match a with
  | ⟨0, _⟩ => show win2_1.index t (0 : Fin 2) * 1000 + 1 * p.val = t.val * 1000 + p.val; omega
  | ⟨1, _⟩ => show win2_1.index t (1 : Fin 2) * 64 + 1 * q.val = q.val; omega
theorem emb2 (t : Fin cfg2.N) (p : Fin 1000) (q : Fin 1) : ((cfg2.win 2).blk t).view.emb (ix2 p q) = ix2 (row t p) (0 : Fin 1) := by
  obtain ⟨-, -, -, -, e0, e1, -⟩ := idx_facts t
  funext a; apply Fin.ext
  match a with
  | ⟨0, _⟩ => show win2_2.index t (0 : Fin 2) * 1000 + 1 * p.val = t.val * 1000 + p.val; omega
  | ⟨1, _⟩ => show win2_2.index t (1 : Fin 2) * 1 + 1 * q.val = 0; have := q.isLt; omega
theorem emb3 (t : Fin cfg2.N) (p : Fin 1000) (q : Fin 64) : ((cfg2.win 3).blk t).view.emb (ix2 p q) = ix2 (row t p) q := by
  obtain ⟨-, -, -, -, -, -, e0, e1, -⟩ := idx_facts t
  funext a; apply Fin.ext
  match a with
  | ⟨0, _⟩ => show win2_3.index t (0 : Fin 2) * 1000 + 1 * p.val = t.val * 1000 + p.val; omega
  | ⟨1, _⟩ => show win2_3.index t (1 : Fin 2) * 64 + 1 * q.val = q.val; omega

/-- The operands as the call finds them, and their blocks at point t, at their literal types. -/
abbrev farr (c : Dev nD) : Arr S50000x64 := V c (Pipeline.arrRef spec2 0)
abbrev garr (c : Dev nD) : Arr S50000x64 := V c (Pipeline.arrRef spec2 1)
abbrev darr (c : Dev nD) : Arr S50000x1 := V c (Pipeline.arrRef spec2 2)
abbrev fblk (c : Dev nD) (t : Fin cfg2.N) : Arr S1000x64 := iblk2 V c 0 t
abbrev gblk (c : Dev nD) (t : Fin cfg2.N) : Arr S1000x64 := iblk2 V c 1 t
abbrev dblk (c : Dev nD) (t : Fin cfg2.N) : Arr S1000x1 := iblk2 V c 2 t

theorem fblk_apply (c : Dev nD) (t : Fin cfg2.N) (p : Fin 1000) (q : Fin 64) : fblk V c t (ix2 p q) = farr V c (ix2 (row t p) q) := by
  show V c (Pipeline.arrRef spec2 0) (((cfg2.win 0).blk t).view.emb (ix2 p q)) = _
  rw [emb0]
theorem gblk_apply (c : Dev nD) (t : Fin cfg2.N) (p : Fin 1000) (q : Fin 64) : gblk V c t (ix2 p q) = garr V c (ix2 (row t p) q) := by
  show V c (Pipeline.arrRef spec2 1) (((cfg2.win 1).blk t).view.emb (ix2 p q)) = _
  rw [emb1]
theorem dblk_apply (c : Dev nD) (t : Fin cfg2.N) (p : Fin 1000) (q : Fin 1) : dblk V c t (ix2 p q) = darr V c (ix2 (row t p) (0 : Fin 1)) := by
  show V c (Pipeline.arrRef spec2 2) (((cfg2.win 2).blk t).view.emb (ix2 p q)) = _
  rw [emb2]

/-- What point t writes back is block t of the residual of the whole arrays. -/
theorem flushed_eq (c : Dev nD) (t : Fin cfg2.N) :
    (dat2 V c).flushed 3 t = ((cfg2.win 3).blk t).view.read (Elt Ideal) (lapRes (farr V c) (garr V c) (darr V c)) := by
  show (cfg2.win 3).cut (grid2.coords t) ((dat2 V c).after 3 t) = _
  rw [after2_3]
  unfold out2_3
  rw [View.canon_unit_zero hz]
  simp only [View.ld_unit_zero (S := S1000x64) hz, View.ld_unit_zero (S := S1000x1) hz]
  rw [Pay.pay2]
  funext j
  obtain ⟨p, q, rfl⟩ : ∃ (p : Fin 1000) (q : Fin 64), j = ix2 p q := ⟨j 0, j 1, eq_ix2 j⟩
  show lapRes (fblk V c t) (gblk V c t) (dblk V c t) (ix2 p q)
    = lapRes (farr V c) (garr V c) (darr V c) (((cfg2.win 3).blk t).view.emb (ix2 p q))
  rw [emb3, lapRes_apply, lapRes_apply, fblk_apply, gblk_apply, dblk_apply]

/-- Membership in point t's block, axis by axis. -/
theorem mem_blk (t : Fin cfg2.N) (i : S50000x64.Idx) :
    i ∈ ((cfg2.win 3).blk t).view.set ↔ ∀ a : Fin 2, win2_3.index t a * S1000x64.size a ≤ (i a).val ∧ (i a).val < win2_3.index t a * S1000x64.size a + S1000x64.size a := by
  show i ∈ ((View.whole main_v43).slice (win2_3.rect t)).set ↔ _
  rw [View.set_slice_whole, Rect.mem_set_unit]
  exact Iff.rfl

/-- The 50 blocks cover the array: row r lies in block r / 1000. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  refine ⟨⟨(i 0).val / 1000, by rw [show cfg2.N = 50 from N_2]; omega⟩, flush2_3 _, ?_⟩
  rw [mem_blk]
  obtain ⟨-, -, -, -, -, -, e0, e1, -⟩ := idx_facts ⟨(i 0).val / 1000, by rw [show cfg2.N = 50 from N_2]; omega⟩
  intro a
  match a with
  | ⟨0, _⟩ =>
    show win2_3.index _ (0 : Fin 2) * 1000 ≤ (i 0).val ∧ (i 0).val < win2_3.index _ (0 : Fin 2) * 1000 + 1000
    rw [e0]; show (i 0).val / 1000 * 1000 ≤ (i 0).val ∧ (i 0).val < (i 0).val / 1000 * 1000 + 1000; omega
  | ⟨1, _⟩ =>
    show win2_3.index _ (1 : Fin 2) * 64 ≤ (i 1).val ∧ (i 1).val < win2_3.index _ (1 : Fin 2) * 64 + 64
    rw [e1]; omega

/-- The output array after the call. -/
theorem arr (c : Dev nD) : (dat2 V c).arrAt 3 cfg2.N = lapRes (farr V c) (garr V c) (darr V c) :=
  (dat2 V c).arrAt_eq_of_cover 3 _ (fun t _ => flushed_eq V c t) (cover)

end Cert.KernelIdeal.Region2

end
-- ==== Proof.Region3.lean ====
/-
  What the head call leaves in its output array: relu (h·A₀ + f₁·A₁ + f₂·A₂ + b₃) · W₄ + b₄ of the whole arrays it was given.
  Point t of the 50 stages rows 1000·t … 1000·t + 999 of h, f₁, f₂; the six small operands are staged whole at every point.

  The stage is row-local: row n of the result is a function of row n of h, f₁, f₂ and of the whole of the six small
  operands. So block t of the result is the stage of block t of the three row-indexed operands and of the small
  operands themselves, and the 50 blocks of 1000 rows cover the 50000 rows.
-/
import proofs.«403152_j77584289235637_3_alg».proof.Proof.Gen.KernelIdeal.Frame
import proofs.«403152_j77584289235637_3_alg».proof.Proof.Pay
import Idealize.ShloMosaic.Lib.Pipeline.Value

set_option maxRecDepth 16384

noncomputable section

namespace Cert.KernelIdeal.Region3

open Idealize.ShloMosaic Idealize.ShloMosaic.ValueIdx Idealize.ShloMosaic.TcCoe Idealize.SL.Sem
open Idealize.ShloMosaic.Pipeline (Dat)
open Cert.KernelIdeal Cert.KernelIdeal.Gen Cert.Whole

variable (V : (c : Dev nD) → (b : Ref sig .tc) → Buf (Elt Ideal) ((c : Thread nD τ).loc b))

/-- The operands as the call finds them, at their literal types. -/
abbrev harr (c : Dev nD) : Arr S50000x64 := V c (Pipeline.arrRef spec3 0)
abbrev f1arr (c : Dev nD) : Arr S50000x64 := V c (Pipeline.arrRef spec3 1)
abbrev f2arr (c : Dev nD) : Arr S50000x64 := V c (Pipeline.arrRef spec3 2)
abbrev a0arr (c : Dev nD) : Arr S64x64 := V c (Pipeline.arrRef spec3 3)
abbrev a1arr (c : Dev nD) : Arr S64x64 := V c (Pipeline.arrRef spec3 4)
abbrev a2arr (c : Dev nD) : Arr S64x64 := V c (Pipeline.arrRef spec3 5)
abbrev b3arr (c : Dev nD) : Arr S1x64 := V c (Pipeline.arrRef spec3 6)
abbrev w4arr (c : Dev nD) : Arr S64x2 := V c (Pipeline.arrRef spec3 7)
abbrev b4arr (c : Dev nD) : Arr S1x2 := V c (Pipeline.arrRef spec3 8)

theorem hz : (![0, 0] : Fin 2 → Nat) = fun _ => 0 := funext fun a => by fin_cases a <;> rfl

/-- The printed index maps over the grid: every row-indexed window (h, f₁, f₂ and the result) sits at block row t,
    block column 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_9.index t (0 : Fin 2) = t.val ∧ win3_9.index t (1 : Fin 2) = 0 ∧ t.val < 50 :=
  (by decide +kernel : ∀ t : Fin grid3.N, _)

/-- The six small operands sit at block (0, 0) at every point, and their block is the whole array. -/
theorem idx_whole : ∀ t : Fin cfg3.N, win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

/-- Row p of block t is row 1000·t + p of the array. -/
def row (t : Fin cfg3.N) (p : Fin 1000) : Fin 50000 := ⟨t.val * 1000 + p.val, by
  have := (idx_facts t).2.2.2.2.2.2.2.2; have := p.isLt; omega⟩

/-! A block's coordinate along an axis is the block index times the block size plus the coordinate inside the block. -/

theorem emb0 (t : Fin cfg3.N) (p : Fin 1000) (q : Fin 64) : ((cfg3.win 0).blk t).view.emb (ix2 p q) = ix2 (row t p) q := by
  obtain ⟨e0, e1, -⟩ := idx_facts t
  funext a; apply Fin.ext
  match a with
  | ⟨0, _⟩ => show win3_0.index t (0 : Fin 2) * 1000 + 1 * p.val = t.val * 1000 + p.val; omega
  | ⟨1, _⟩ => show win3_0.index t (1 : Fin 2) * 64 + 1 * q.val = q.val; omega
theorem emb1 (t : Fin cfg3.N) (p : Fin 1000) (q : Fin 64) : ((cfg3.win 1).blk t).view.emb (ix2 p q) = ix2 (row t p) q := by
  obtain ⟨-, -, e0, e1, -⟩ := idx_facts t
  funext a; apply Fin.ext
  match a with
  | ⟨0, _⟩ => show win3_1.index t (0 : Fin 2) * 1000 + 1 * p.val = t.val * 1000 + p.val; omega
  | ⟨1, _⟩ => show win3_1.index t (1 : Fin 2) * 64 + 1 * q.val = q.val; omega
theorem emb2 (t : Fin cfg3.N) (p : Fin 1000) (q : Fin 64) : ((cfg3.win 2).blk t).view.emb (ix2 p q) = ix2 (row t p) q := by
  obtain ⟨-, -, -, -, e0, e1, -⟩ := idx_facts t
  funext a; apply Fin.ext
  match a with
  | ⟨0, _⟩ => show win3_2.index t (0 : Fin 2) * 1000 + 1 * p.val = t.val * 1000 + p.val; omega
  | ⟨1, _⟩ => show win3_2.index t (1 : Fin 2) * 64 + 1 * q.val = q.val; omega
theorem emb3 (t : Fin cfg3.N) (a b : Fin 64) : ((cfg3.win 3).blk t).view.emb (ix2 a b) = ix2 a b := by
  obtain ⟨e0, e1, -⟩ := idx_whole t
  funext x; apply Fin.ext
  match x with
  | ⟨0, _⟩ => show win3_3.index t (0 : Fin 2) * 64 + 1 * a.val = a.val; omega
  | ⟨1, _⟩ => show win3_3.index t (1 : Fin 2) * 64 + 1 * b.val = b.val; omega
theorem emb4 (t : Fin cfg3.N) (a b : Fin 64) : ((cfg3.win 4).blk t).view.emb (ix2 a b) = ix2 a b := by
  obtain ⟨-, -, e0, e1, -⟩ := idx_whole t
  funext x; apply Fin.ext
  match x with
  | ⟨0, _⟩ => show win3_4.index t (0 : Fin 2) * 64 + 1 * a.val = a.val; omega
  | ⟨1, _⟩ => show win3_4.index t (1 : Fin 2) * 64 + 1 * b.val = b.val; omega
theorem emb5 (t : Fin cfg3.N) (a b : Fin 64) : ((cfg3.win 5).blk t).view.emb (ix2 a b) = ix2 a b := by
  obtain ⟨-, -, -, -, e0, e1, -⟩ := idx_whole t
  funext x; apply Fin.ext
  match x with
  | ⟨0, _⟩ => show win3_5.index t (0 : Fin 2) * 64 + 1 * a.val = a.val; omega
  | ⟨1, _⟩ => show win3_5.index t (1 : Fin 2) * 64 + 1 * b.val = b.val; omega
theorem emb6 (t : Fin cfg3.N) (a : Fin 1) (b : Fin 64) : ((cfg3.win 6).blk t).view.emb (ix2 a b) = ix2 a b := by
  obtain ⟨-, -, -, -, -, -, e0, e1, -⟩ := idx_whole t
  funext x; apply Fin.ext
  match x with
  | ⟨0, _⟩ => show win3_6.index t (0 : Fin 2) * 1 + 1 * a.val = a.val; omega
  | ⟨1, _⟩ => show win3_6.index t (1 : Fin 2) * 64 + 1 * b.val = b.val; omega
theorem emb7 (t : Fin cfg3.N) (a : Fin 64) (b : Fin 2) : ((cfg3.win 7).blk t).view.emb (ix2 a b) = ix2 a b := by
  obtain ⟨-, -, -, -, -, -, -, -, e0, e1, -⟩ := idx_whole t
  funext x; apply Fin.ext
  match x with
  | ⟨0, _⟩ => show win3_7.index t (0 : Fin 2) * 64 + 1 * a.val = a.val; omega
  | ⟨1, _⟩ => show win3_7.index t (1 : Fin 2) * 2 + 1 * b.val = b.val; omega
theorem emb8 (t : Fin cfg3.N) (a : Fin 1) (b : Fin 2) : ((cfg3.win 8).blk t).view.emb (ix2 a b) = ix2 a b := by
  obtain ⟨-, -, -, -, -, -, -, -, -, -, e0, e1⟩ := idx_whole t
  funext x; apply Fin.ext
  match x with
  | ⟨0, _⟩ => show win3_8.index t (0 : Fin 2) * 1 + 1 * a.val = a.val; omega
  | ⟨1, _⟩ => show win3_8.index t (1 : Fin 2) * 2 + 1 * b.val = b.val; omega
theorem emb9 (t : Fin cfg3.N) (p : Fin 1000) (q : Fin 2) : ((cfg3.win 9).blk t).view.emb (ix2 p q) = ix2 (row t p) q := by
  obtain ⟨-, -, -, -, -, -, e0, e1, -⟩ := idx_facts t
  funext a; apply Fin.ext
  match a with
  | ⟨0, _⟩ => show win3_9.index t (0 : Fin 2) * 1000 + 1 * p.val = t.val * 1000 + p.val; omega
  | ⟨1, _⟩ => show win3_9.index t (1 : Fin 2) * 2 + 1 * q.val = q.val; omega

/-- The operands' blocks at point t, at their literal types. -/
abbrev hblk (c : Dev nD) (t : Fin cfg3.N) : Arr S1000x64 := iblk3 V c 0 t
abbrev f1blk (c : Dev nD) (t : Fin cfg3.N) : Arr S1000x64 := iblk3 V c 1 t
abbrev f2blk (c : Dev nD) (t : Fin cfg3.N) : Arr S1000x64 := iblk3 V c 2 t
abbrev a0blk (c : Dev nD) (t : Fin cfg3.N) : Arr S64x64 := iblk3 V c 3 t
abbrev a1blk (c : Dev nD) (t : Fin cfg3.N) : Arr S64x64 := iblk3 V c 4 t
abbrev a2blk (c : Dev nD) (t : Fin cfg3.N) : Arr S64x64 := iblk3 V c 5 t
abbrev b3blk (c : Dev nD) (t : Fin cfg3.N) : Arr S1x64 := iblk3 V c 6 t
abbrev w4blk (c : Dev nD) (t : Fin cfg3.N) : Arr S64x2 := iblk3 V c 7 t
abbrev b4blk (c : Dev nD) (t : Fin cfg3.N) : Arr S1x2 := iblk3 V c 8 t

theorem hblk_apply (c : Dev nD) (t : Fin cfg3.N) (p : Fin 1000) (q : Fin 64) : hblk V c t (ix2 p q) = harr V c (ix2 (row t p) q) := by
  show V c (Pipeline.arrRef spec3 0) (((cfg3.win 0).blk t).view.emb (ix2 p q)) = _
  rw [emb0]
theorem f1blk_apply (c : Dev nD) (t : Fin cfg3.N) (p : Fin 1000) (q : Fin 64) : f1blk V c t (ix2 p q) = f1arr V c (ix2 (row t p) q) := by
  show V c (Pipeline.arrRef spec3 1) (((cfg3.win 1).blk t).view.emb (ix2 p q)) = _
  rw [emb1]
theorem f2blk_apply (c : Dev nD) (t : Fin cfg3.N) (p : Fin 1000) (q : Fin 64) : f2blk V c t (ix2 p q) = f2arr V c (ix2 (row t p) q) := by
  show V c (Pipeline.arrRef spec3 2) (((cfg3.win 2).blk t).view.emb (ix2 p q)) = _
  rw [emb2]
theorem a0blk_apply (c : Dev nD) (t : Fin cfg3.N) (a b : Fin 64) : a0blk V c t (ix2 a b) = a0arr V c (ix2 a b) := by
  show V c (Pipeline.arrRef spec3 3) (((cfg3.win 3).blk t).view.emb (ix2 a b)) = _
  rw [emb3]
theorem a1blk_apply (c : Dev nD) (t : Fin cfg3.N) (a b : Fin 64) : a1blk V c t (ix2 a b) = a1arr V c (ix2 a b) := by
  show V c (Pipeline.arrRef spec3 4) (((cfg3.win 4).blk t).view.emb (ix2 a b)) = _
  rw [emb4]
theorem a2blk_apply (c : Dev nD) (t : Fin cfg3.N) (a b : Fin 64) : a2blk V c t (ix2 a b) = a2arr V c (ix2 a b) := by
  show V c (Pipeline.arrRef spec3 5) (((cfg3.win 5).blk t).view.emb (ix2 a b)) = _
  rw [emb5]
theorem b3blk_apply (c : Dev nD) (t : Fin cfg3.N) (a : Fin 1) (b : Fin 64) : b3blk V c t (ix2 a b) = b3arr V c (ix2 a b) := by
  show V c (Pipeline.arrRef spec3 6) (((cfg3.win 6).blk t).view.emb (ix2 a b)) = _
  rw [emb6]
theorem w4blk_apply (c : Dev nD) (t : Fin cfg3.N) (a : Fin 64) (b : Fin 2) : w4blk V c t (ix2 a b) = w4arr V c (ix2 a b) := by
  show V c (Pipeline.arrRef spec3 7) (((cfg3.win 7).blk t).view.emb (ix2 a b)) = _
  rw [emb7]
theorem b4blk_apply (c : Dev nD) (t : Fin cfg3.N) (a : Fin 1) (b : Fin 2) : b4blk V c t (ix2 a b) = b4arr V c (ix2 a b) := by
  show V c (Pipeline.arrRef spec3 8) (((cfg3.win 8).blk t).view.emb (ix2 a b)) = _
  rw [emb8]

/-- An entry of a product depends only on one row of the left factor and one column of the right factor: if row n of x
    is row n' of x' and column j of w is column j of w', the entries (n, j) and (n', j) of the two products agree. -/
theorem mmAt_congr {M M' K N : ℕ} (x : Arr ⟨2, ![M, K]⟩) (x' : Arr ⟨2, ![M', K]⟩) (w w' : Arr ⟨2, ![K, N]⟩)
    (n : Fin M) (n' : Fin M') (j : Fin N)
    (hx : ∀ k : Fin K, x (ix2 n k) = x' (ix2 n' k)) (hw : ∀ k : Fin K, w (ix2 k j) = w' (ix2 k j)) :
    mmAt x w n j = mmAt x' w' n' j := by
  unfold mmAt
  exact Finset.sum_congr rfl fun k _ => by rw [hx k, hw k]

/-- The hidden layer, row by row: row p of the rectified three-term layer of the blocks at point t is row 1000·t + p of
    the rectified three-term layer of the whole arrays. -/
theorem hidden_apply (c : Dev nD) (t : Fin cfg3.N) (p : Fin 1000) (k : Fin 64) :
    relu (head3 (hblk V c t) (f1blk V c t) (f2blk V c t) (a0blk V c t) (a1blk V c t) (a2blk V c t) (b3blk V c t)) (ix2 p k)
      = relu (head3 (harr V c) (f1arr V c) (f2arr V c) (a0arr V c) (a1arr V c) (a2arr V c) (b3arr V c)) (ix2 (row t p) k) := by
  rw [relu_apply, relu_apply, head3_apply, head3_apply,
    mmAt_congr (hblk V c t) (harr V c) (a0blk V c t) (a0arr V c) p (row t p) k
      (fun k' => hblk_apply V c t p k') (fun k' => a0blk_apply V c t k' k),
    mmAt_congr (f1blk V c t) (f1arr V c) (a1blk V c t) (a1arr V c) p (row t p) k
      (fun k' => f1blk_apply V c t p k') (fun k' => a1blk_apply V c t k' k),
    mmAt_congr (f2blk V c t) (f2arr V c) (a2blk V c t) (a2arr V c) p (row t p) k
      (fun k' => f2blk_apply V c t p k') (fun k' => a2blk_apply V c t k' k),
    b3blk_apply]

/-- What point t writes back is block t of the head of the whole arrays. -/
theorem flushed_eq (c : Dev nD) (t : Fin cfg3.N) :
    (dat3 V c).flushed 9 t = ((cfg3.win 9).blk t).view.read (Elt Ideal)
      (dense (relu (head3 (harr V c) (f1arr V c) (f2arr V c) (a0arr V c) (a1arr V c) (a2arr V c) (b3arr V c))) (w4arr V c) (b4arr V c)) := by
  show (cfg3.win 9).cut (grid3.coords t) ((dat3 V c).after 9 t) = _
  rw [after3_9]
  unfold out3_9
  rw [View.canon_unit_zero hz]
  simp only [View.ld_unit_zero (S := S1000x64) hz, View.ld_unit_zero (S := S64x64) hz, View.ld_unit_zero (S := S1x64) hz,
    View.ld_unit_zero (S := S64x2) hz, View.ld_unit_zero (S := S1x2) hz]
  rw [Pay.pay3]
  funext j
  obtain ⟨p, q, rfl⟩ : ∃ (p : Fin 1000) (q : Fin 2), j = ix2 p q := ⟨j 0, j 1, eq_ix2 j⟩
  show dense (relu (head3 (hblk V c t) (f1blk V c t) (f2blk V c t) (a0blk V c t) (a1blk V c t) (a2blk V c t) (b3blk V c t)))
        (w4blk V c t) (b4blk V c t) (ix2 p q)
    = dense (relu (head3 (harr V c) (f1arr V c) (f2arr V c) (a0arr V c) (a1arr V c) (a2arr V c) (b3arr V c)))
        (w4arr V c) (b4arr V c) (((cfg3.win 9).blk t).view.emb (ix2 p q))
  rw [emb9, dense_apply, dense_apply,
    mmAt_congr _ (relu (head3 (harr V c) (f1arr V c) (f2arr V c) (a0arr V c) (a1arr V c) (a2arr V c) (b3arr V c)))
      (w4blk V c t) (w4arr V c) p (row t p) q (fun k => hidden_apply V c t p k) (fun k => w4blk_apply V c t k q),
    b4blk_apply]

/-- Membership in point t's block, axis by axis. -/
theorem mem_blk (t : Fin cfg3.N) (i : S50000x2.Idx) :
    i ∈ ((cfg3.win 9).blk t).view.set ↔ ∀ a : Fin 2, win3_9.index t a * S1000x2.size a ≤ (i a).val ∧ (i a).val < win3_9.index t a * S1000x2.size a + S1000x2.size a := by
  show i ∈ ((View.whole main_v77).slice (win3_9.rect t)).set ↔ _
  rw [View.set_slice_whole, Rect.mem_set_unit]
  exact Iff.rfl

/-- The 50 blocks cover the array: row r lies in block r / 1000. -/
theorem cover (i : S50000x2.Idx) : ∃ t : Fin cfg3.N, (cfg3.win 9).flush t = true ∧ i ∈ ((cfg3.win 9).blk t).view.set := by
  have hi0 : (i 0).val < 50000 := (i 0).isLt
  have hi1 : (i 1).val < 2 := (i 1).isLt
  refine ⟨⟨(i 0).val / 1000, by rw [show cfg3.N = 50 from N_3]; omega⟩, flush3_9 _, ?_⟩
  rw [mem_blk]
  obtain ⟨-, -, -, -, -, -, e0, e1, -⟩ := idx_facts ⟨(i 0).val / 1000, by rw [show cfg3.N = 50 from N_3]; omega⟩
  intro a
  match a with
  | ⟨0, _⟩ =>
    show win3_9.index _ (0 : Fin 2) * 1000 ≤ (i 0).val ∧ (i 0).val < win3_9.index _ (0 : Fin 2) * 1000 + 1000
    rw [e0]; show (i 0).val / 1000 * 1000 ≤ (i 0).val ∧ (i 0).val < (i 0).val / 1000 * 1000 + 1000; omega
  | ⟨1, _⟩ =>
    show win3_9.index _ (1 : Fin 2) * 2 ≤ (i 1).val ∧ (i 1).val < win3_9.index _ (1 : Fin 2) * 2 + 2
    rw [e1]; omega

/-- The output array after the call. -/
theorem arr (c : Dev nD) : (dat3 V c).arrAt 9 cfg3.N = dense (relu (head3 (harr V c) (f1arr V c) (f2arr V c) (a0arr V c) (a1arr V c) (a2arr V c) (b3arr V c))) (w4arr V c) (b4arr V c) :=
  (dat3 V c).arrAt_eq_of_cover 9 _ (fun t _ => flushed_eq V c t) (cover)

end Cert.KernelIdeal.Region3

end
-- ==== Proof.Region4.lean ====
/-
  What the first scale-and-project call leaves in its output array: relu ((g scaled by rows) · W + b) of the whole arrays it was given.

  The grid has 50 points; point t stages rows 1000·t … 1000·t + 999 of g and of the column d of row scalars, the
  whole weight W and the whole bias row b, and writes back the same rows of the result. The stage is row-local: row n
  of the result depends on row n of g and d and on all of W and b. So block t of the result is the stage of block t of
  g and d with W and b, and the 50 blocks cover the 50000 rows.
-/
import proofs.«403152_j77584289235637_3_alg».proof.Proof.Gen.KernelIdeal.Frame
import proofs.«403152_j77584289235637_3_alg».proof.Proof.Pay
import Idealize.ShloMosaic.Lib.Pipeline.Value

set_option maxRecDepth 16384

noncomputable section

namespace Cert.KernelIdeal.Region4

open Idealize.ShloMosaic Idealize.ShloMosaic.ValueIdx Idealize.ShloMosaic.TcCoe Idealize.SL.Sem
open Idealize.ShloMosaic.Pipeline (Dat)
open Cert.KernelIdeal Cert.KernelIdeal.Gen Cert.Whole

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows (g, d and the result) sit at block row t, block
    column 0; the weight and the bias row sit at block (0, 0) at every point. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 ∧ t.val < 50 :=
  (by decide +kernel : ∀ t : Fin grid4.N, _)

/-- Row p of block t is row 1000·t + p of the array. -/
def row (t : Fin cfg4.N) (p : Fin 1000) : Fin 50000 := ⟨t.val * 1000 + p.val, by
  have := (idx_facts t).2.2.2.2.2.2.2.2.2.2; have := p.isLt; omega⟩

theorem emb0 (t : Fin cfg4.N) (p : Fin 1000) (q : Fin 128) : ((cfg4.win 0).blk t).view.emb (ix2 p q) = ix2 (row t p) q := by
  obtain ⟨e0, e1, -⟩ := idx_facts t
  funext a; apply Fin.ext
  match a with
  | ⟨0, _⟩ => show win4_0.index t (0 : Fin 2) * 1000 + 1 * p.val = t.val * 1000 + p.val; omega
  | ⟨1, _⟩ => show win4_0.index t (1 : Fin 2) * 128 + 1 * q.val = q.val; omega
theorem emb1 (t : Fin cfg4.N) (p : Fin 1000) (q : Fin 1) : ((cfg4.win 1).blk t).view.emb (ix2 p q) = ix2 (row t p) (0 : Fin 1) := by
  obtain ⟨-, -, e0, e1, -⟩ := idx_facts t
  funext a; apply Fin.ext
  match a with
  | ⟨0, _⟩ => show win4_1.index t (0 : Fin 2) * 1000 + 1 * p.val = t.val * 1000 + p.val; omega
  | ⟨1, _⟩ => show win4_1.index t (1 : Fin 2) * 1 + 1 * q.val = 0; have := q.isLt; omega
theorem emb2 (t : Fin cfg4.N) (p : Fin 128) (q : Fin 64) : ((cfg4.win 2).blk t).view.emb (ix2 p q) = ix2 p q := by
  obtain ⟨-, -, -, -, e0, e1, -⟩ := idx_facts t
  funext a; apply Fin.ext
  match a with
  | ⟨0, _⟩ => show win4_2.index t (0 : Fin 2) * 128 + 1 * p.val = p.val; omega
  | ⟨1, _⟩ => show win4_2.index t (1 : Fin 2) * 64 + 1 * q.val = q.val; omega
theorem emb3 (t : Fin cfg4.N) (p : Fin 1) (q : Fin 64) : ((cfg4.win 3).blk t).view.emb (ix2 p q) = ix2 p q := by
  obtain ⟨-, -, -, -, -, -, e0, e1, -⟩ := idx_facts t
  funext a; apply Fin.ext
  match a with
  | ⟨0, _⟩ => show win4_3.index t (0 : Fin 2) * 1 + 1 * p.val = p.val; omega
  | ⟨1, _⟩ => show win4_3.index t (1 : Fin 2) * 64 + 1 * q.val = q.val; omega
theorem emb4 (t : Fin cfg4.N) (p : Fin 1000) (q : Fin 64) : ((cfg4.win 4).blk t).view.emb (ix2 p q) = ix2 (row t p) q := by
  obtain ⟨-, -, -, -, -, -, -, -, e0, e1, -⟩ := idx_facts t
  funext a; apply Fin.ext
  match a with
  | ⟨0, _⟩ => show win4_4.index t (0 : Fin 2) * 1000 + 1 * p.val = t.val * 1000 + p.val; omega
  | ⟨1, _⟩ => show win4_4.index t (1 : Fin 2) * 64 + 1 * q.val = q.val; omega

/-- The operands as the call finds them, at their literal types. -/
abbrev garr (c : Dev nD) : Arr S50000x128 := V c (Pipeline.arrRef spec4 0)
abbrev darr (c : Dev nD) : Arr S50000x1 := V c (Pipeline.arrRef spec4 1)
abbrev warr (c : Dev nD) : Arr S128x64 := V c (Pipeline.arrRef spec4 2)
abbrev barr (c : Dev nD) : Arr S1x64 := V c (Pipeline.arrRef spec4 3)

/-- Their blocks at point t, at their literal types. -/
abbrev gblk (c : Dev nD) (t : Fin cfg4.N) : Arr S1000x128 := iblk4 V c 0 t
abbrev dblk (c : Dev nD) (t : Fin cfg4.N) : Arr S1000x1 := iblk4 V c 1 t
abbrev wblk (c : Dev nD) (t : Fin cfg4.N) : Arr S128x64 := iblk4 V c 2 t
abbrev bblk (c : Dev nD) (t : Fin cfg4.N) : Arr S1x64 := iblk4 V c 3 t

theorem gblk_apply (c : Dev nD) (t : Fin cfg4.N) (p : Fin 1000) (q : Fin 128) : gblk V c t (ix2 p q) = garr V c (ix2 (row t p) q) := by
  show V c (Pipeline.arrRef spec4 0) (((cfg4.win 0).blk t).view.emb (ix2 p q)) = _
  rw [emb0]
theorem dblk_apply (c : Dev nD) (t : Fin cfg4.N) (p : Fin 1000) (q : Fin 1) : dblk V c t (ix2 p q) = darr V c (ix2 (row t p) (0 : Fin 1)) := by
  show V c (Pipeline.arrRef spec4 1) (((cfg4.win 1).blk t).view.emb (ix2 p q)) = _
  rw [emb1]
theorem wblk_apply (c : Dev nD) (t : Fin cfg4.N) (p : Fin 128) (q : Fin 64) : wblk V c t (ix2 p q) = warr V c (ix2 p q) := by
  show V c (Pipeline.arrRef spec4 2) (((cfg4.win 2).blk t).view.emb (ix2 p q)) = _
  rw [emb2]
theorem bblk_apply (c : Dev nD) (t : Fin cfg4.N) (p : Fin 1) (q : Fin 64) : bblk V c t (ix2 p q) = barr V c (ix2 p q) := by
  show V c (Pipeline.arrRef spec4 3) (((cfg4.win 3).blk t).view.emb (ix2 p q)) = _
  rw [emb3]

/-- Entry (p, q) of the product on block t is entry (1000·t + p, q) of the product on the whole arrays: the two sums
    over the contracted coordinate agree term by term. -/
theorem mm_blk (c : Dev nD) (t : Fin cfg4.N) (p : Fin 1000) (q : Fin 64) :
    mmAt (scaleRows (gblk V c t) (dblk V c t)) (wblk V c t) p q
      = mmAt (scaleRows (garr V c) (darr V c)) (warr V c) (row t p) q := by
  unfold mmAt
  exact Finset.sum_congr rfl fun k _ => by
    rw [scaleRows_apply, scaleRows_apply, gblk_apply, dblk_apply, wblk_apply]

/-- What point t writes back is block t of the stage of the whole arrays. -/
theorem flushed_eq (c : Dev nD) (t : Fin cfg4.N) :
    (dat4 V c).flushed 4 t = ((cfg4.win 4).blk t).view.read (Elt Ideal)
      (relu (dense (scaleRows (garr V c) (darr V c)) (warr V c) (barr V c))) := by
  show (cfg4.win 4).cut (grid4.coords t) ((dat4 V c).after 4 t) = _
  rw [after4_4]
  unfold out4_4
  rw [View.canon_unit_zero hz]
  simp only [View.ld_unit_zero (S := S1000x128) hz, View.ld_unit_zero (S := S1000x1) hz,
    View.ld_unit_zero (S := S128x64) hz, View.ld_unit_zero (S := S1x64) hz]
  rw [Pay.pay4]
  funext j
  obtain ⟨p, q, rfl⟩ : ∃ (p : Fin 1000) (q : Fin 64), j = ix2 p q := ⟨j 0, j 1, eq_ix2 j⟩
  show relu (dense (scaleRows (gblk V c t) (dblk V c t)) (wblk V c t) (bblk V c t)) (ix2 p q)
    = relu (dense (scaleRows (garr V c) (darr V c)) (warr V c) (barr V c)) (((cfg4.win 4).blk t).view.emb (ix2 p q))
  rw [emb4, relu_apply, relu_apply, dense_apply, dense_apply, mm_blk, bblk_apply]

/-- Membership in point t's block, axis by axis. -/
theorem mem_blk (t : Fin cfg4.N) (i : S50000x64.Idx) :
    i ∈ ((cfg4.win 4).blk t).view.set ↔ ∀ a : Fin 2, win4_4.index t a * S1000x64.size a ≤ (i a).val ∧ (i a).val < win4_4.index t a * S1000x64.size a + S1000x64.size a := by
  show i ∈ ((View.whole main_v91).slice (win4_4.rect t)).set ↔ _
  rw [View.set_slice_whole, Rect.mem_set_unit]
  exact Iff.rfl

/-- The 50 blocks cover the array: row r lies in block r / 1000. -/
theorem cover (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  refine ⟨⟨(i 0).val / 1000, by rw [show cfg4.N = 50 from N_4]; omega⟩, flush4_4 _, ?_⟩
  rw [mem_blk]
  obtain ⟨-, -, -, -, -, -, -, -, e0, e1, -⟩ := idx_facts ⟨(i 0).val / 1000, by rw [show cfg4.N = 50 from N_4]; omega⟩
  intro a
  match a with
  | ⟨0, _⟩ =>
    show win4_4.index _ (0 : Fin 2) * 1000 ≤ (i 0).val ∧ (i 0).val < win4_4.index _ (0 : Fin 2) * 1000 + 1000
    rw [e0]; show (i 0).val / 1000 * 1000 ≤ (i 0).val ∧ (i 0).val < (i 0).val / 1000 * 1000 + 1000; omega
  | ⟨1, _⟩ =>
    show win4_4.index _ (1 : Fin 2) * 64 ≤ (i 1).val ∧ (i 1).val < win4_4.index _ (1 : Fin 2) * 64 + 64
    rw [e1]; omega

/-- The output array after the call. -/
theorem arr (c : Dev nD) : (dat4 V c).arrAt 4 cfg4.N = relu (dense (scaleRows (garr V c) (darr V c)) (warr V c) (barr V c)) :=
  (dat4 V c).arrAt_eq_of_cover 4 _ (fun t _ => flushed_eq V c t) (cover)

end Cert.KernelIdeal.Region4

end
-- ==== Proof.Region5.lean ====
/-
  What the second scale-and-project call leaves in its output array: (g scaled by rows) · W + b of the whole arrays it was given.

  The grid has 50 points; point t stages rows 1000·t … 1000·t + 999 of the two row-indexed operands, the whole of
  the weights and of the bias row, and writes back the same rows of the result. The stage is row-local, so block t
  of the result is the stage of block t of the row-indexed operands and of the whole small operands, and the 50
  blocks cover the 50000 rows.
-/
import proofs.«403152_j77584289235637_3_alg».proof.Proof.Gen.KernelIdeal.Frame
import proofs.«403152_j77584289235637_3_alg».proof.Proof.Pay
import Idealize.ShloMosaic.Lib.Pipeline.Value

set_option maxRecDepth 16384

noncomputable section

namespace Cert.KernelIdeal.Region5

open Idealize.ShloMosaic Idealize.ShloMosaic.ValueIdx Idealize.ShloMosaic.TcCoe Idealize.SL.Sem
open Idealize.ShloMosaic.Pipeline (Dat)
open Cert.KernelIdeal Cert.KernelIdeal.Gen Cert.Whole

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every row-indexed window sits at block row t, block column 0; the weights
    and the bias row sit at block (0, 0), the whole array, at every point. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 ∧ t.val < 50 :=
  (by decide +kernel : ∀ t : Fin grid5.N, _)

/-- Row p of block t is row 1000·t + p of the array. -/
def row (t : Fin cfg5.N) (p : Fin 1000) : Fin 50000 := ⟨t.val * 1000 + p.val, by
  have := (idx_facts t).2.2.2.2.2.2.2.2.2.2; have := p.isLt; omega⟩

theorem emb0 (t : Fin cfg5.N) (p : Fin 1000) (q : Fin 64) : ((cfg5.win 0).blk t).view.emb (ix2 p q) = ix2 (row t p) q := by
  obtain ⟨e0, e1, -⟩ := idx_facts t
  funext a; apply Fin.ext
  match a with
  | ⟨0, _⟩ => show win5_0.index t (0 : Fin 2) * 1000 + 1 * p.val = t.val * 1000 + p.val; omega
  | ⟨1, _⟩ => show win5_0.index t (1 : Fin 2) * 64 + 1 * q.val = q.val; omega
theorem emb1 (t : Fin cfg5.N) (p : Fin 1000) (q : Fin 1) : ((cfg5.win 1).blk t).view.emb (ix2 p q) = ix2 (row t p) (0 : Fin 1) := by
  obtain ⟨-, -, e0, e1, -⟩ := idx_facts t
  funext a; apply Fin.ext
  match a with
  | ⟨0, _⟩ => show win5_1.index t (0 : Fin 2) * 1000 + 1 * p.val = t.val * 1000 + p.val; omega
  | ⟨1, _⟩ => show win5_1.index t (1 : Fin 2) * 1 + 1 * q.val = 0; have := q.isLt; omega
theorem emb2 (t : Fin cfg5.N) (a : Fin 64) (b : Fin 128) : ((cfg5.win 2).blk t).view.emb (ix2 a b) = ix2 a b := by
  obtain ⟨-, -, -, -, e0, e1, -⟩ := idx_facts t
  funext x; apply Fin.ext
  match x with
  | ⟨0, _⟩ => show win5_2.index t (0 : Fin 2) * 64 + 1 * a.val = a.val; omega
  | ⟨1, _⟩ => show win5_2.index t (1 : Fin 2) * 128 + 1 * b.val = b.val; omega
theorem emb3 (t : Fin cfg5.N) (a : Fin 1) (b : Fin 128) : ((cfg5.win 3).blk t).view.emb (ix2 a b) = ix2 a b := by
  obtain ⟨-, -, -, -, -, -, e0, e1, -⟩ := idx_facts t
  funext x; apply Fin.ext
  match x with
  | ⟨0, _⟩ => show win5_3.index t (0 : Fin 2) * 1 + 1 * a.val = a.val; omega
  | ⟨1, _⟩ => show win5_3.index t (1 : Fin 2) * 128 + 1 * b.val = b.val; omega
theorem emb4 (t : Fin cfg5.N) (p : Fin 1000) (q : Fin 128) : ((cfg5.win 4).blk t).view.emb (ix2 p q) = ix2 (row t p) q := by
  obtain ⟨-, -, -, -, -, -, -, -, e0, e1, -⟩ := idx_facts t
  funext a; apply Fin.ext
  match a with
  | ⟨0, _⟩ => show win5_4.index t (0 : Fin 2) * 1000 + 1 * p.val = t.val * 1000 + p.val; omega
  | ⟨1, _⟩ => show win5_4.index t (1 : Fin 2) * 128 + 1 * q.val = q.val; omega

/-- The operands as the call finds them, at their literal types. -/
abbrev garr (c : Dev nD) : Arr S50000x64 := V c (Pipeline.arrRef spec5 0)
abbrev darr (c : Dev nD) : Arr S50000x1 := V c (Pipeline.arrRef spec5 1)
abbrev warr (c : Dev nD) : Arr S64x128 := V c (Pipeline.arrRef spec5 2)
abbrev barr (c : Dev nD) : Arr S1x128 := V c (Pipeline.arrRef spec5 3)
/-- Their blocks at point t, at their literal types. -/
abbrev gblk (c : Dev nD) (t : Fin cfg5.N) : Arr S1000x64 := iblk5 V c 0 t
abbrev dblk (c : Dev nD) (t : Fin cfg5.N) : Arr S1000x1 := iblk5 V c 1 t
abbrev wblk (c : Dev nD) (t : Fin cfg5.N) : Arr S64x128 := iblk5 V c 2 t
abbrev bblk (c : Dev nD) (t : Fin cfg5.N) : Arr S1x128 := iblk5 V c 3 t

theorem gblk_apply (c : Dev nD) (t : Fin cfg5.N) (p : Fin 1000) (q : Fin 64) : gblk V c t (ix2 p q) = garr V c (ix2 (row t p) q) := by
  show V c (Pipeline.arrRef spec5 0) (((cfg5.win 0).blk t).view.emb (ix2 p q)) = _
  rw [emb0]
theorem dblk_apply (c : Dev nD) (t : Fin cfg5.N) (p : Fin 1000) (q : Fin 1) : dblk V c t (ix2 p q) = darr V c (ix2 (row t p) (0 : Fin 1)) := by
  show V c (Pipeline.arrRef spec5 1) (((cfg5.win 1).blk t).view.emb (ix2 p q)) = _
  rw [emb1]
/-- The weights' block is the weights. -/
theorem wblk_apply (c : Dev nD) (t : Fin cfg5.N) (a : Fin 64) (b : Fin 128) : wblk V c t (ix2 a b) = warr V c (ix2 a b) := by
  show V c (Pipeline.arrRef spec5 2) (((cfg5.win 2).blk t).view.emb (ix2 a b)) = _
  rw [emb2]
/-- The bias row's block is the bias row. -/
theorem bblk_apply (c : Dev nD) (t : Fin cfg5.N) (a : Fin 1) (b : Fin 128) : bblk V c t (ix2 a b) = barr V c (ix2 a b) := by
  show V c (Pipeline.arrRef spec5 3) (((cfg5.win 3).blk t).view.emb (ix2 a b)) = _
  rw [emb3]

/-- Entry (p, q) of the product at point t is entry (1000·t + p, q) of the product of the whole arrays: term by term
    in the sum over the contracted coordinate. -/
theorem mm_blk (c : Dev nD) (t : Fin cfg5.N) (p : Fin 1000) (q : Fin 128) :
    mmAt (scaleRows (gblk V c t) (dblk V c t)) (wblk V c t) p q
      = mmAt (scaleRows (garr V c) (darr V c)) (warr V c) (row t p) q := by
  unfold mmAt
  exact Finset.sum_congr rfl fun k _ => by
    rw [scaleRows_apply, scaleRows_apply, gblk_apply, dblk_apply, wblk_apply]

/-- What point t writes back is block t of the stage of the whole arrays. -/
theorem flushed_eq (c : Dev nD) (t : Fin cfg5.N) :
    (dat5 V c).flushed 4 t = ((cfg5.win 4).blk t).view.read (Elt Ideal) (dense (scaleRows (garr V c) (darr V c)) (warr V c) (barr V c)) := by
  show (cfg5.win 4).cut (grid5.coords t) ((dat5 V c).after 4 t) = _
  rw [after5_4]
  unfold out5_4
  rw [View.canon_unit_zero hz]
  simp only [View.ld_unit_zero (S := S1000x64) hz, View.ld_unit_zero (S := S1000x1) hz,
    View.ld_unit_zero (S := S64x128) hz, View.ld_unit_zero (S := S1x128) hz]
  rw [Pay.pay5]
  funext j
  obtain ⟨p, q, rfl⟩ : ∃ (p : Fin 1000) (q : Fin 128), j = ix2 p q := ⟨j 0, j 1, eq_ix2 j⟩
  show dense (scaleRows (gblk V c t) (dblk V c t)) (wblk V c t) (bblk V c t) (ix2 p q)
    = dense (scaleRows (garr V c) (darr V c)) (warr V c) (barr V c) (((cfg5.win 4).blk t).view.emb (ix2 p q))
  rw [emb4, dense_apply, dense_apply, mm_blk, bblk_apply]

/-- Membership in point t's block, axis by axis. -/
theorem mem_blk (t : Fin cfg5.N) (i : S50000x128.Idx) :
    i ∈ ((cfg5.win 4).blk t).view.set ↔ ∀ a : Fin 2, win5_4.index t a * S1000x128.size a ≤ (i a).val ∧ (i a).val < win5_4.index t a * S1000x128.size a + S1000x128.size a := by
  show i ∈ ((View.whole main_v105).slice (win5_4.rect t)).set ↔ _
  rw [View.set_slice_whole, Rect.mem_set_unit]
  exact Iff.rfl

/-- The 50 blocks cover the array: row r lies in block r / 1000. -/
theorem cover (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  refine ⟨⟨(i 0).val / 1000, by rw [show cfg5.N = 50 from N_5]; omega⟩, flush5_4 _, ?_⟩
  rw [mem_blk]
  obtain ⟨-, -, -, -, -, -, -, -, e0, e1, -⟩ := idx_facts ⟨(i 0).val / 1000, by rw [show cfg5.N = 50 from N_5]; omega⟩
  intro a
  match a with
  | ⟨0, _⟩ =>
    show win5_4.index _ (0 : Fin 2) * 1000 ≤ (i 0).val ∧ (i 0).val < win5_4.index _ (0 : Fin 2) * 1000 + 1000
    rw [e0]; show (i 0).val / 1000 * 1000 ≤ (i 0).val ∧ (i 0).val < (i 0).val / 1000 * 1000 + 1000; omega
  | ⟨1, _⟩ =>
    show win5_4.index _ (1 : Fin 2) * 128 ≤ (i 1).val ∧ (i 1).val < win5_4.index _ (1 : Fin 2) * 128 + 128
    rw [e1]; omega

/-- The output array after the call. -/
theorem arr (c : Dev nD) : (dat5 V c).arrAt 4 cfg5.N = dense (scaleRows (garr V c) (darr V c)) (warr V c) (barr V c) :=
  (dat5 V c).arrAt_eq_of_cover 4 _ (fun t _ => flushed_eq V c t) (cover)

end Cert.KernelIdeal.Region5

end
-- ==== Proof.Net.lean ====
/-
  The host-side pieces of the network, as functions of whole arrays at the ideal values.

    * `dinv e`        : the column d with d[v] = max(1, #{edges whose endpoint word in `e` is v})^(-1/2)
    * `wrap s`        : the gather's start indices: a negative word has the node count added, then a unit axis
    * `spmm y s t`    : for each node v the sum of the rows y[wrap s[e]] over the edges e with t[e] = v
                         (a clamped row gather followed by an accumulating scatter into zeros)
    * `agg y d s t`   : spmm of the rows of y scaled by the column d
    * `rowOf b`       : a vector as a one-row matrix
    * `fold0/1/2 w`   : the three 64 × 64 matrices the head multiplies by: fixed linear combinations of W₃'s five
                         64-row blocks
  and the two results of the whole program as compositions of these and of the row-local stages of `Cert.Whole`.
-/
import proofs.«403152_j77584289235637_3_alg».proof.Proof.Gen.KernelIdeal
import proofs.«403152_j77584289235637_3_alg».proof.Proof.Whole
import Idealize.ShloMosaic.Lib.Pipeline.Value
import Idealize.ShloMosaic.Lib.ValueLayout

noncomputable section

namespace Cert.Net

open Idealize.ShloMosaic Idealize.ShloMosaic.ValueIdx Cert.KernelIdeal Cert.KernelIdeal.Facts₀ Cert.Whole

/-- Per node, the number of edges whose endpoint word is that node, as a sum of ones into zeros. -/
def deg (e : IVec S800000 32) : Arr S50000 :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 e)
    (broadcastInDim S800000 ![] bcast_S_S800000 (constant (F := Ideal) S_ .f32 0x3F800000#32))

/-- max(1, deg)^(-1/2) as a column. -/
def dinv (e : IVec S800000 32) : Arr S50000x1 :=
  broadcastInDim S50000x1 ![0] bcast_S50000_S50000x1_0
    (Host.powf (F := Ideal) (φ := .f32)
      (maximumf (F := Ideal) (φ := .f32) (broadcastInDim S50000 ![] bcast_S_S50000 (id (constant (F := Ideal) S_ .f32 0x3F800000#32))) (deg e))
      (broadcastInDim S50000 ![] bcast_S_S50000 (constant (F := Ideal) S_ .f32 0xBF000000#32)))

/-- The gather's start indices. -/
def wrap (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Gather the source rows, add them up per destination node: 64 columns. -/
def spmm64 (y : Arr S50000x64) (s t : IVec S800000 32) : Arr S50000x64 :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0 t)
    (Host.gather gather_S50000x64_S800000x1_S800000x64_1_0_n_n_0_1_164 y (wrap s))

/-- The same with 128 columns. -/
def spmm128 (y : Arr S50000x128) (s t : IVec S800000 32) : Arr S50000x128 :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 t)
    (Host.gather gather_S50000x128_S800000x1_S800000x128_1_0_n_n_0_1_1128 y (wrap s))

/-- Rows scaled by a column, then aggregated. -/
def agg64 (y : Arr S50000x64) (d : Arr S50000x1) (s t : IVec S800000 32) : Arr S50000x64 :=
  spmm64 (mulf (F := Ideal) (φ := .f32) y (broadcastInDim S50000x64 ![0, 1] bcast_S50000x1_S50000x64_0_1 d)) s t
def agg128 (y : Arr S50000x128) (d : Arr S50000x1) (s t : IVec S800000 32) : Arr S50000x128 :=
  spmm128 (mulf (F := Ideal) (φ := .f32) y (broadcastInDim S50000x128 ![0, 1] bcast_S50000x1_S50000x128_0_1 d)) s t

/-- A vector as a one-row matrix. -/
def rowOf64 (b : Arr S64) : Arr S1x64 := shapeCast S1x64 b shapeCasts_S64_S1x64
def rowOf2 (b : Arr S2) : Arr S1x2 := shapeCast S1x2 b shapeCasts_S2_S1x2
def rowOf128 (b : Arr S128) : Arr S1x128 := shapeCast S1x128 b shapeCasts_S128_S1x128

theorem rowOf64_apply (b : Arr S64) (k : Fin 64) : rowOf64 b (ix2 (0 : Fin 1) k) = b (ix1 k) := shapeCast_a_1a_apply b _ 0 k
theorem rowOf2_apply (b : Arr S2) (k : Fin 2) : rowOf2 b (ix2 (0 : Fin 1) k) = b (ix1 k) := shapeCast_a_1a_apply b _ 0 k
theorem rowOf128_apply (b : Arr S128) (k : Fin 128) : rowOf128 b (ix2 (0 : Fin 1) k) = b (ix1 k) := shapeCast_a_1a_apply b _ 0 k

/-- A 64 × 64 matrix filled with one float word. -/
def fill (w : BitVec 32) : Arr S64x64 := broadcastInDim S64x64 ![] bcast_S_S64x64 (constant (F := Ideal) S_ .f32 w)

theorem fill_apply (w : BitVec 32) (i : S64x64.Idx) : fill w i = Ideal.ofBits .f32 w := by
  unfold fill
  exact (broadcastInDim_apply _ bcast_S_S64x64 _ i (fun a => a.elim0) (fun a => a.elim0)).trans rfl

/-- W₃'s five 64-row blocks. -/
def blk0 (w : Arr S320x64) : Arr S64x64 := extractStridedSlice S64x64 ![0, 0] w slices_S320x64_S64x64_0_0
def blk1 (w : Arr S320x64) : Arr S64x64 := extractStridedSlice S64x64 ![64, 0] w slices_S320x64_S64x64_64_0
def blk2 (w : Arr S320x64) : Arr S64x64 := extractStridedSlice S64x64 ![128, 0] w slices_S320x64_S64x64_128_0
def blk3 (w : Arr S320x64) : Arr S64x64 := extractStridedSlice S64x64 ![192, 0] w slices_S320x64_S64x64_192_0
def blk4 (w : Arr S320x64) : Arr S64x64 := extractStridedSlice S64x64 ![256, 0] w slices_S320x64_S64x64_256_0

theorem blk0_apply (w : Arr S320x64) (k j : Fin 64) : blk0 w (ix2 k j) = w (ix2 (⟨k.val, by omega⟩ : Fin 320) j) :=
  slice2_axis0_apply 0 w _ k j _ (by simp)
theorem blk1_apply (w : Arr S320x64) (k j : Fin 64) : blk1 w (ix2 k j) = w (ix2 (⟨64 + k.val, by omega⟩ : Fin 320) j) :=
  slice2_axis0_apply 64 w _ k j _ rfl
theorem blk2_apply (w : Arr S320x64) (k j : Fin 64) : blk2 w (ix2 k j) = w (ix2 (⟨128 + k.val, by omega⟩ : Fin 320) j) :=
  slice2_axis0_apply 128 w _ k j _ rfl
theorem blk3_apply (w : Arr S320x64) (k j : Fin 64) : blk3 w (ix2 k j) = w (ix2 (⟨192 + k.val, by omega⟩ : Fin 320) j) :=
  slice2_axis0_apply 192 w _ k j _ rfl
theorem blk4_apply (w : Arr S320x64) (k j : Fin 64) : blk4 w (ix2 k j) = w (ix2 (⟨256 + k.val, by omega⟩ : Fin 320) j) :=
  slice2_axis0_apply 256 w _ k j _ rfl

/-- The three matrices the head multiplies by: the coefficients of h, f₁, f₂ folded into W₃'s blocks. -/
def fold0 (w : Arr S320x64) : Arr S64x64 :=
  addf (F := Ideal) (φ := .f32) (addf (F := Ideal) (φ := .f32) (mulf (F := Ideal) (φ := .f32) (fill 0x40400000#32) (blk0 w))
    (mulf (F := Ideal) (φ := .f32) (fill 0x00000000#32) (blk1 w))) (mulf (F := Ideal) (φ := .f32) (fill 0x00000000#32) (blk2 w))
def fold1 (w : Arr S320x64) : Arr S64x64 :=
  addf (F := Ideal) (φ := .f32) (addf (F := Ideal) (φ := .f32) (addf (F := Ideal) (φ := .f32) (mulf (F := Ideal) (φ := .f32) (fill 0xC0400000#32) (blk0 w))
    (mulf (F := Ideal) (φ := .f32) (fill 0x40400000#32) (blk1 w))) (mulf (F := Ideal) (φ := .f32) (fill 0x00000000#32) (blk2 w))) (blk3 w)
def fold2 (w : Arr S320x64) : Arr S64x64 :=
  addf (F := Ideal) (φ := .f32) (addf (F := Ideal) (φ := .f32) (addf (F := Ideal) (φ := .f32) (mulf (F := Ideal) (φ := .f32) (fill 0x3F400000#32) (blk0 w))
    (mulf (F := Ideal) (φ := .f32) (fill 0xBFC00000#32) (blk1 w))) (mulf (F := Ideal) (φ := .f32) (fill 0x3F400000#32) (blk2 w))) (blk4 w)

theorem fold0_apply (w : Arr S320x64) (k j : Fin 64) : fold0 w (ix2 k j)
    = (Ideal.ofBits .f32 0x40400000#32 * w (ix2 (⟨k.val, by omega⟩ : Fin 320) j) + Ideal.ofBits .f32 0x00000000#32 * w (ix2 (⟨64 + k.val, by omega⟩ : Fin 320) j))
      + Ideal.ofBits .f32 0x00000000#32 * w (ix2 (⟨128 + k.val, by omega⟩ : Fin 320) j) := by
  unfold fold0
  rw [addf_apply, addf_apply, mulf_apply, mulf_apply, mulf_apply, fill_apply, fill_apply, blk0_apply, blk1_apply, blk2_apply]
theorem fold1_apply (w : Arr S320x64) (k j : Fin 64) : fold1 w (ix2 k j)
    = ((Ideal.ofBits .f32 0xC0400000#32 * w (ix2 (⟨k.val, by omega⟩ : Fin 320) j) + Ideal.ofBits .f32 0x40400000#32 * w (ix2 (⟨64 + k.val, by omega⟩ : Fin 320) j))
      + Ideal.ofBits .f32 0x00000000#32 * w (ix2 (⟨128 + k.val, by omega⟩ : Fin 320) j)) + w (ix2 (⟨192 + k.val, by omega⟩ : Fin 320) j) := by
  unfold fold1
  rw [addf_apply, addf_apply, addf_apply, mulf_apply, mulf_apply, mulf_apply, fill_apply, fill_apply, fill_apply, blk0_apply, blk1_apply, blk2_apply, blk3_apply]
theorem fold2_apply (w : Arr S320x64) (k j : Fin 64) : fold2 w (ix2 k j)
    = ((Ideal.ofBits .f32 0x3F400000#32 * w (ix2 (⟨k.val, by omega⟩ : Fin 320) j) + Ideal.ofBits .f32 0xBFC00000#32 * w (ix2 (⟨64 + k.val, by omega⟩ : Fin 320) j))
      + Ideal.ofBits .f32 0x3F400000#32 * w (ix2 (⟨128 + k.val, by omega⟩ : Fin 320) j)) + w (ix2 (⟨256 + k.val, by omega⟩ : Fin 320) j) := by
  unfold fold2
  rw [addf_apply, addf_apply, addf_apply, mulf_apply, mulf_apply, mulf_apply, fill_apply, fill_apply, blk0_apply, blk1_apply, blk2_apply, blk4_apply]

/-- The hidden features: two dense layers with rectifiers. -/
def hid (x0 : Arr S50000x128) (x3 : Arr S128x64) (x4 : Arr S64) (x5 : Arr S64x64) (x6 : Arr S64) : Arr S50000x64 :=
  relu (dense (relu (dense x0 x3 (rowOf64 x4))) x5 (rowOf64 x6))

/-- One step of the normalized graph operator: f - D (A (D f)), D the column `dinv t`. -/
def lap (f : Arr S50000x64) (s t : IVec S800000 32) : Arr S50000x64 :=
  lapRes f (agg64 f (dinv t) s t) (dinv t)

/-- The first result: the head on h, L h, L (L h). -/
def outK (x0 : Arr S50000x128) (x1 x2 : IVec S800000 32) (x3 : Arr S128x64) (x4 : Arr S64) (x5 : Arr S64x64) (x6 : Arr S64)
    (x7 : Arr S320x64) (x8 : Arr S64) (x9 : Arr S64x2) (x10 : Arr S2) : Arr S50000x2 :=
  dense (relu (head3 (hid x0 x3 x4 x5 x6) (lap (hid x0 x3 x4 x5 x6) x1 x2) (lap (lap (hid x0 x3 x4 x5 x6) x1 x2) x1 x2)
    (fold0 x7) (fold1 x7) (fold2 x7) (rowOf64 x8))) x9 (rowOf2 x10)

/-- The first graph-convolution layer. -/
def emb1 (x0 : Arr S50000x128) (x1 x2 : IVec S800000 32) (x11 : Arr S128x64) (x12 : Arr S64) : Arr S50000x64 :=
  relu (dense (scaleRows (agg128 x0 (dinv x1) x1 x2) (dinv x2)) x11 (rowOf64 x12))

/-- The second result: two graph-convolution layers. -/
def embK (x0 : Arr S50000x128) (x1 x2 : IVec S800000 32) (x11 : Arr S128x64) (x12 : Arr S64) (x13 : Arr S64x128) (x14 : Arr S128) : Arr S50000x128 :=
  dense (scaleRows (agg64 (emb1 x0 x1 x2 x11 x12) (dinv x1) x1 x2) (dinv x2)) x13 (rowOf128 x14)

end Cert.Net

end
-- ==== Proof.KChain.lean ====
/-
  The kernel program's two results as functions of its arguments.

  @main alternates stretches of host operations with six calls. Walking the buffer contents from the launch to the
  return: a buffer no later operation writes keeps its contents; a host operation's result is its function of its
  operands' contents; a call's output array is its row-local stage of its operand arrays (the six region modules).
-/
import proofs.«403152_j77584289235637_3_alg».proof.Proof.Gen.KernelIdeal.Frame
import proofs.«403152_j77584289235637_3_alg».proof.Proof.Region0
import proofs.«403152_j77584289235637_3_alg».proof.Proof.Region1
import proofs.«403152_j77584289235637_3_alg».proof.Proof.Region2
import proofs.«403152_j77584289235637_3_alg».proof.Proof.Region3
import proofs.«403152_j77584289235637_3_alg».proof.Proof.Region4
import proofs.«403152_j77584289235637_3_alg».proof.Proof.Region5
import proofs.«403152_j77584289235637_3_alg».proof.Proof.Net
import proofs.«403152_j77584289235637_3_alg».proof.Proof.RunAll
import Idealize.ShloMosaic.Lib.StableHlo.Run

set_option maxRecDepth 16384

noncomputable section

namespace Cert.KernelIdeal.Chain

open Idealize.ShloMosaic Idealize.ShloMosaic.ValueIdx Idealize.ShloMosaic.TcCoe Idealize.SL.Sem Idealize.ShloMosaic.StableHlo
open Cert.KernelIdeal Cert.KernelIdeal.Gen Cert.Whole Cert.Net

variable (m : (ℓ : Loc nD τ sig) → Buf (Elt Ideal) ℓ) (ρ : Dev nD → PrngReg) (c : Dev nD)

/-- The arguments' launch contents at their literal types. -/
abbrev x0 : Arr S50000x128 := m ((c : Thread nD τ).loc main_arg0)
abbrev x1 : IVec S800000 32 := m ((c : Thread nD τ).loc main_arg1)
abbrev x2 : IVec S800000 32 := m ((c : Thread nD τ).loc main_arg2)
abbrev x3 : Arr S128x64 := m ((c : Thread nD τ).loc main_arg3)
abbrev x4 : Arr S64 := m ((c : Thread nD τ).loc main_arg4)
abbrev x5 : Arr S64x64 := m ((c : Thread nD τ).loc main_arg5)
abbrev x6 : Arr S64 := m ((c : Thread nD τ).loc main_arg6)
abbrev x7 : Arr S320x64 := m ((c : Thread nD τ).loc main_arg7)
abbrev x8 : Arr S64 := m ((c : Thread nD τ).loc main_arg8)
abbrev x9 : Arr S64x2 := m ((c : Thread nD τ).loc main_arg9)
abbrev x10 : Arr S2 := m ((c : Thread nD τ).loc main_arg10)
abbrev x11 : Arr S128x64 := m ((c : Thread nD τ).loc main_arg11)
abbrev x12 : Arr S64 := m ((c : Thread nD τ).loc main_arg12)
abbrev x13 : Arr S64x128 := m ((c : Thread nD τ).loc main_arg13)
abbrev x14 : Arr S128 := m ((c : Thread nD τ).loc main_arg14)

/-! ## Walking a buffer back through the boundaries where nothing writes it -/

/-- A stretch of host operations at one buffer: unfold the stretch, read each operation's result. -/
macro "host_step" : tactic => `(tactic| (
  dsimp only [hostOps0, hostOps0_1, hostOps0_2, hostOps0_3, hostOps0_4, hostOps1, hostOps2, hostOps3, hostOps4, hostOps5]
  after_results))

theorem hk1 (b : Ref sig .tc) (h : StableHlo.after hostOps0 (W0 m ρ c) (Proc.devRef .tc b) = W0 m ρ c (Proc.devRef .tc b)) :
    W1 m ρ c (Proc.devRef .tc b) = W0 m ρ c (Proc.devRef .tc b) := h
theorem hk2 (b : Ref sig .tc) (h : StableHlo.after hostOps0_1 (W1 m ρ c) (Proc.devRef .tc b) = W1 m ρ c (Proc.devRef .tc b)) :
    W2 m ρ c (Proc.devRef .tc b) = W1 m ρ c (Proc.devRef .tc b) := h
theorem hk3 (b : Ref sig .tc) (h : StableHlo.after hostOps0_2 (W2 m ρ c) (Proc.devRef .tc b) = W2 m ρ c (Proc.devRef .tc b)) :
    W3 m ρ c (Proc.devRef .tc b) = W2 m ρ c (Proc.devRef .tc b) := h
theorem hk4 (b : Ref sig .tc) (h : StableHlo.after hostOps0_3 (W3 m ρ c) (Proc.devRef .tc b) = W3 m ρ c (Proc.devRef .tc b)) :
    W4 m ρ c (Proc.devRef .tc b) = W3 m ρ c (Proc.devRef .tc b) := h
theorem hk5 (b : Ref sig .tc) (h : StableHlo.after hostOps0_4 (W4 m ρ c) (Proc.devRef .tc b) = W4 m ρ c (Proc.devRef .tc b)) :
    W5 m ρ c (Proc.devRef .tc b) = W4 m ρ c (Proc.devRef .tc b) := h
theorem hk7 (b : Ref sig .tc) (h : StableHlo.after hostOps1 (W6 m ρ c) (Proc.devRef .tc b) = W6 m ρ c (Proc.devRef .tc b)) :
    W7 m ρ c (Proc.devRef .tc b) = W6 m ρ c (Proc.devRef .tc b) := h
theorem hk9 (b : Ref sig .tc) (h : StableHlo.after hostOps2 (W8 m ρ c) (Proc.devRef .tc b) = W8 m ρ c (Proc.devRef .tc b)) :
    W9 m ρ c (Proc.devRef .tc b) = W8 m ρ c (Proc.devRef .tc b) := h
theorem hk11 (b : Ref sig .tc) (h : StableHlo.after hostOps3 (W10 m ρ c) (Proc.devRef .tc b) = W10 m ρ c (Proc.devRef .tc b)) :
    W11 m ρ c (Proc.devRef .tc b) = W10 m ρ c (Proc.devRef .tc b) := h
theorem hk13 (b : Ref sig .tc) (h : StableHlo.after hostOps4 (W12 m ρ c) (Proc.devRef .tc b) = W12 m ρ c (Proc.devRef .tc b)) :
    W13 m ρ c (Proc.devRef .tc b) = W12 m ρ c (Proc.devRef .tc b) := h
theorem hk15 (b : Ref sig .tc) (h : StableHlo.after hostOps5 (W14 m ρ c) (Proc.devRef .tc b) = W14 m ρ c (Proc.devRef .tc b)) :
    W15 m ρ c (Proc.devRef .tc b) = W14 m ρ c (Proc.devRef .tc b) := h

/-- A buffer nothing writes before the first call keeps its launch contents. -/
theorem p0_5 (b : Ref sig .tc)
    (h1 : StableHlo.after hostOps0 (W0 m ρ c) (Proc.devRef .tc b) = W0 m ρ c (Proc.devRef .tc b) := by host_step)
    (h2 : StableHlo.after hostOps0_1 (W1 m ρ c) (Proc.devRef .tc b) = W1 m ρ c (Proc.devRef .tc b) := by host_step)
    (h3 : StableHlo.after hostOps0_2 (W2 m ρ c) (Proc.devRef .tc b) = W2 m ρ c (Proc.devRef .tc b) := by host_step)
    (h4 : StableHlo.after hostOps0_3 (W3 m ρ c) (Proc.devRef .tc b) = W3 m ρ c (Proc.devRef .tc b) := by host_step)
    (h5 : StableHlo.after hostOps0_4 (W4 m ρ c) (Proc.devRef .tc b) = W4 m ρ c (Proc.devRef .tc b) := by host_step) :
    W5 m ρ c (Proc.devRef .tc b) = W0 m ρ c (Proc.devRef .tc b) :=
  (hk5 m ρ c b h5).trans ((hk4 m ρ c b h4).trans ((hk3 m ρ c b h3).trans ((hk2 m ρ c b h2).trans (hk1 m ρ c b h1))))
/-- Through a call that does not have the buffer among its arrays and the stretch after it. -/
theorem p5_7 (b : Ref sig .tc) (hne : ∀ w, Pipeline.arrRef spec0 w ≠ b := by decide)
    (hh : StableHlo.after hostOps1 (W6 m ρ c) (Proc.devRef .tc b) = W6 m ρ c (Proc.devRef .tc b) := by host_step) :
    W7 m ρ c (Proc.devRef .tc b) = W5 m ρ c (Proc.devRef .tc b) := (hk7 m ρ c b hh).trans (W6_of_ne m ρ c b hne)
theorem p7_9 (b : Ref sig .tc) (hne : ∀ w, Pipeline.arrRef spec1 w ≠ b := by decide)
    (hh : StableHlo.after hostOps2 (W8 m ρ c) (Proc.devRef .tc b) = W8 m ρ c (Proc.devRef .tc b) := by host_step) :
    W9 m ρ c (Proc.devRef .tc b) = W7 m ρ c (Proc.devRef .tc b) := (hk9 m ρ c b hh).trans (W8_of_ne m ρ c b hne)
theorem p9_11 (b : Ref sig .tc) (hne : ∀ w, Pipeline.arrRef spec2 w ≠ b := by decide)
    (hh : StableHlo.after hostOps3 (W10 m ρ c) (Proc.devRef .tc b) = W10 m ρ c (Proc.devRef .tc b) := by host_step) :
    W11 m ρ c (Proc.devRef .tc b) = W9 m ρ c (Proc.devRef .tc b) := (hk11 m ρ c b hh).trans (W10_of_ne m ρ c b hne)
theorem p11_13 (b : Ref sig .tc) (hne : ∀ w, Pipeline.arrRef spec3 w ≠ b := by decide)
    (hh : StableHlo.after hostOps4 (W12 m ρ c) (Proc.devRef .tc b) = W12 m ρ c (Proc.devRef .tc b) := by host_step) :
    W13 m ρ c (Proc.devRef .tc b) = W11 m ρ c (Proc.devRef .tc b) := (hk13 m ρ c b hh).trans (W12_of_ne m ρ c b hne)
theorem p13_15 (b : Ref sig .tc) (hne : ∀ w, Pipeline.arrRef spec4 w ≠ b := by decide)
    (hh : StableHlo.after hostOps5 (W14 m ρ c) (Proc.devRef .tc b) = W14 m ρ c (Proc.devRef .tc b) := by host_step) :
    W15 m ρ c (Proc.devRef .tc b) = W13 m ρ c (Proc.devRef .tc b) := (hk15 m ρ c b hh).trans (W14_of_ne m ρ c b hne)

/-- A buffer nothing writes after the first call's entry keeps, at every later boundary, what it held there. -/
theorem from5 (b : Ref sig .tc)
    (r0 : W6 m ρ c (Proc.devRef .tc b) = W5 m ρ c (Proc.devRef .tc b) := by exact W6_of_ne _ _ _ _ (by decide))
    (g1 : StableHlo.after hostOps1 (W6 m ρ c) (Proc.devRef .tc b) = W6 m ρ c (Proc.devRef .tc b) := by host_step)
    (r1 : W8 m ρ c (Proc.devRef .tc b) = W7 m ρ c (Proc.devRef .tc b) := by exact W8_of_ne _ _ _ _ (by decide))
    (g2 : StableHlo.after hostOps2 (W8 m ρ c) (Proc.devRef .tc b) = W8 m ρ c (Proc.devRef .tc b) := by host_step)
    (r2 : W10 m ρ c (Proc.devRef .tc b) = W9 m ρ c (Proc.devRef .tc b) := by exact W10_of_ne _ _ _ _ (by decide))
    (g3 : StableHlo.after hostOps3 (W10 m ρ c) (Proc.devRef .tc b) = W10 m ρ c (Proc.devRef .tc b) := by host_step)
    (r3 : W12 m ρ c (Proc.devRef .tc b) = W11 m ρ c (Proc.devRef .tc b) := by exact W12_of_ne _ _ _ _ (by decide))
    (g4 : StableHlo.after hostOps4 (W12 m ρ c) (Proc.devRef .tc b) = W12 m ρ c (Proc.devRef .tc b) := by host_step)
    (r4 : W14 m ρ c (Proc.devRef .tc b) = W13 m ρ c (Proc.devRef .tc b) := by exact W14_of_ne _ _ _ _ (by decide))
    (g5 : StableHlo.after hostOps5 (W14 m ρ c) (Proc.devRef .tc b) = W14 m ρ c (Proc.devRef .tc b) := by host_step) :
    W6 m ρ c (Proc.devRef .tc b) = W5 m ρ c (Proc.devRef .tc b)
    ∧ W7 m ρ c (Proc.devRef .tc b) = W5 m ρ c (Proc.devRef .tc b)
    ∧ W8 m ρ c (Proc.devRef .tc b) = W5 m ρ c (Proc.devRef .tc b)
    ∧ W9 m ρ c (Proc.devRef .tc b) = W5 m ρ c (Proc.devRef .tc b)
    ∧ W10 m ρ c (Proc.devRef .tc b) = W5 m ρ c (Proc.devRef .tc b)
    ∧ W11 m ρ c (Proc.devRef .tc b) = W5 m ρ c (Proc.devRef .tc b)
    ∧ W12 m ρ c (Proc.devRef .tc b) = W5 m ρ c (Proc.devRef .tc b)
    ∧ W13 m ρ c (Proc.devRef .tc b) = W5 m ρ c (Proc.devRef .tc b)
    ∧ W14 m ρ c (Proc.devRef .tc b) = W5 m ρ c (Proc.devRef .tc b)
    ∧ W15 m ρ c (Proc.devRef .tc b) = W5 m ρ c (Proc.devRef .tc b) := by
  have e6 := r0
  have e7 := (hk7 m ρ c b g1).trans e6
  have e8 := r1.trans e7
  have e9 := (hk9 m ρ c b g2).trans e8
  have e10 := r2.trans e9
  have e11 := (hk11 m ρ c b g3).trans e10
  have e12 := r3.trans e11
  have e13 := (hk13 m ρ c b g4).trans e12
  have e14 := r4.trans e13
  have e15 := (hk15 m ρ c b g5).trans e14
  exact ⟨e6, e7, e8, e9, e10, e11, e12, e13, e14, e15⟩

/-! ## Region 0's entry -/

section Stretches
variable (V : Valuation τ sig (Elt Ideal))

theorem s0_v3 : StableHlo.after (hostOps0 (F := Ideal)) V (Proc.devRef .tc main_v3) = deg (V (Proc.devRef .tc main_arg2)) := by
  host_step
  rfl
theorem s0_v0 : StableHlo.after (hostOps0 (F := Ideal)) V (Proc.devRef .tc main_v0)
    = broadcastInDim S800000 ![] Facts₀.bcast_S_S800000 (constant (F := Ideal) S_ .f32 0x3F800000#32) := by
  host_step
theorem s0_c1 : StableHlo.after (hostOps0 (F := Ideal)) V (Proc.devRef .tc main_cst_1) = constant (F := Ideal) S_ .f32 0x3F800000#32 := by
  host_step
theorem s01_v4 : StableHlo.after (hostOps0_1 (F := Ideal)) V (Proc.devRef .tc main_v4)
    = maximumf (F := Ideal) (φ := .f32) (broadcastInDim S50000 ![] Facts₀.bcast_S_S50000 (id (V (Proc.devRef .tc main_cst_1)))) (V (Proc.devRef .tc main_v3)) := by
  host_step
  rfl
theorem s02_v7 : StableHlo.after (hostOps0_2 (F := Ideal)) V (Proc.devRef .tc main_v7)
    = Host.scatterAdd (F := Ideal) (φ := .f32) scatter_S50000_S800000x1_S800000_n_0_0_1
        (broadcastInDim S50000 ![] Facts₀.bcast_S_S50000 (constant (F := Ideal) S_ .f32 0x00000000#32))
        (broadcastInDim S800000x1 ![0] Facts₀.bcast_S800000_S800000x1_0 (V (Proc.devRef .tc main_arg1)))
        (V (Proc.devRef .tc main_v0)) := by
  host_step
theorem s02_c3 : StableHlo.after (hostOps0_2 (F := Ideal)) V (Proc.devRef .tc main_cst_3) = constant (F := Ideal) S_ .f32 0x3F800000#32 := by
  host_step
theorem s03_v8 : StableHlo.after (hostOps0_3 (F := Ideal)) V (Proc.devRef .tc main_v8)
    = maximumf (F := Ideal) (φ := .f32) (broadcastInDim S50000 ![] Facts₀.bcast_S_S50000 (id (V (Proc.devRef .tc main_cst_3)))) (V (Proc.devRef .tc main_v7)) := by
  host_step
  rfl
theorem s04_v11 : StableHlo.after (hostOps0_4 (F := Ideal)) V (Proc.devRef .tc main_v11)
    = broadcastInDim S50000x1 ![0] Facts₀.bcast_S50000_S50000x1_0 (Host.powf (F := Ideal) (φ := .f32) (V (Proc.devRef .tc main_v4))
        (broadcastInDim S50000 ![] Facts₀.bcast_S_S50000 (constant (F := Ideal) S_ .f32 0xBF000000#32))) := by
  host_step
theorem s04_v14 : StableHlo.after (hostOps0_4 (F := Ideal)) V (Proc.devRef .tc main_v14)
    = broadcastInDim S50000x1 ![0] Facts₀.bcast_S50000_S50000x1_0 (Host.powf (F := Ideal) (φ := .f32) (V (Proc.devRef .tc main_v8))
        (broadcastInDim S50000 ![] Facts₀.bcast_S_S50000 (constant (F := Ideal) S_ .f32 0xBF000000#32))) := by
  host_step
theorem s04_v15 : StableHlo.after (hostOps0_4 (F := Ideal)) V (Proc.devRef .tc main_v15) = rowOf64 (V (Proc.devRef .tc main_arg4)) := by
  host_step
  rfl
theorem s04_v16 : StableHlo.after (hostOps0_4 (F := Ideal)) V (Proc.devRef .tc main_v16) = rowOf64 (V (Proc.devRef .tc main_arg6)) := by
  host_step
  rfl

end Stretches

/-- The arguments, read at the launch: nothing ever writes one. -/
theorem at0 (b : Ref sig .tc) : W0 m ρ c (Proc.devRef .tc b) = m ((c : Thread nD τ).loc b) := rfl

theorem arg0_5 : W5 m ρ c (Proc.devRef .tc main_arg0) = x0 m c := p0_5 m ρ c main_arg0
theorem arg1_5 : W5 m ρ c (Proc.devRef .tc main_arg1) = x1 m c := p0_5 m ρ c main_arg1
theorem arg2_5 : W5 m ρ c (Proc.devRef .tc main_arg2) = x2 m c := p0_5 m ρ c main_arg2
theorem arg3_5 : W5 m ρ c (Proc.devRef .tc main_arg3) = x3 m c := p0_5 m ρ c main_arg3
theorem arg5_5 : W5 m ρ c (Proc.devRef .tc main_arg5) = x5 m c := p0_5 m ρ c main_arg5

theorem din5 : W5 m ρ c (Proc.devRef .tc main_v11) = dinv (x2 m c) := by
  refine (s04_v11 (W4 m ρ c)).trans ?_
  have h4 : W4 m ρ c (Proc.devRef .tc main_v4) = maximumf (F := Ideal) (φ := .f32)
      (broadcastInDim S50000 ![] Facts₀.bcast_S_S50000 (id (constant (F := Ideal) S_ .f32 0x3F800000#32))) (deg (x2 m c)) := by
    refine (hk4 m ρ c main_v4 (by host_step)).trans ((hk3 m ρ c main_v4 (by host_step)).trans ?_)
    refine (s01_v4 (W1 m ρ c)).trans ?_
    rw [show W1 m ρ c (Proc.devRef .tc main_cst_1) = _ from s0_c1 (W0 m ρ c), show W1 m ρ c (Proc.devRef .tc main_v3) = _ from s0_v3 (W0 m ρ c)]
  rw [h4]
  rfl

theorem dout5 : W5 m ρ c (Proc.devRef .tc main_v14) = dinv (x1 m c) := by
  refine (s04_v14 (W4 m ρ c)).trans ?_
  have h8 : W4 m ρ c (Proc.devRef .tc main_v8) = maximumf (F := Ideal) (φ := .f32)
      (broadcastInDim S50000 ![] Facts₀.bcast_S_S50000 (id (constant (F := Ideal) S_ .f32 0x3F800000#32))) (deg (x1 m c)) := by
    refine (s03_v8 (W3 m ρ c)).trans ?_
    rw [show W3 m ρ c (Proc.devRef .tc main_cst_3) = _ from s02_c3 (W2 m ρ c), show W3 m ρ c (Proc.devRef .tc main_v7) = _ from s02_v7 (W2 m ρ c),
      show W2 m ρ c (Proc.devRef .tc main_arg1) = x1 m c from (hk2 m ρ c main_arg1 (by host_step)).trans (hk1 m ρ c main_arg1 (by host_step)),
      show W2 m ρ c (Proc.devRef .tc main_v0) = _ from (hk2 m ρ c main_v0 (by host_step)).trans (s0_v0 (W0 m ρ c))]
    rfl
  rw [h8]
  rfl

theorem b1r5 : W5 m ρ c (Proc.devRef .tc main_v15) = rowOf64 (x4 m c) := by
  refine (s04_v15 (W4 m ρ c)).trans ?_
  rw [show W4 m ρ c (Proc.devRef .tc main_arg4) = x4 m c from (hk4 m ρ c main_arg4 (by host_step)).trans ((hk3 m ρ c main_arg4 (by host_step)).trans
    ((hk2 m ρ c main_arg4 (by host_step)).trans (hk1 m ρ c main_arg4 (by host_step))))]
theorem b2r5 : W5 m ρ c (Proc.devRef .tc main_v16) = rowOf64 (x6 m c) := by
  refine (s04_v16 (W4 m ρ c)).trans ?_
  rw [show W4 m ρ c (Proc.devRef .tc main_arg6) = x6 m c from (hk4 m ρ c main_arg6 (by host_step)).trans ((hk3 m ρ c main_arg6 (by host_step)).trans
    ((hk2 m ρ c main_arg6 (by host_step)).trans (hk1 m ρ c main_arg6 (by host_step))))]

/-- The edge lists and the two degree scalings at every later boundary. -/
def src_all := from5 m ρ c main_arg1
def dst_all := from5 m ρ c main_arg2
/-- The in-degree scaling is an operand (never an output) of four of the calls: each leaves it as it found it. -/
def din_all := from5 m ρ c main_v11
  (r1 := (W8_arr m ρ c 2).trans (((dat1 (V7 m ρ) c).arrAt_in 2 rfl _).trans (A_eq1 (V7 m ρ) c 2)))
  (r2 := (W10_arr m ρ c 2).trans (((dat2 (V9 m ρ) c).arrAt_in 2 rfl _).trans (A_eq2 (V9 m ρ) c 2)))
  (r4 := (W14_arr m ρ c 1).trans (((dat4 (V13 m ρ) c).arrAt_in 1 rfl _).trans (A_eq4 (V13 m ρ) c 1)))
def dout_all := from5 m ρ c main_v14

/-! ## The first call: the hidden features -/

theorem h6 : W6 m ρ c (Proc.devRef .tc main_v17) = hid (x0 m c) (x3 m c) (x4 m c) (x5 m c) (x6 m c) := by
  refine (W6_arr m ρ c 5).trans ((Region0.arr (V5 m ρ) c).trans ?_)
  show relu (dense (relu (dense (W5 m ρ c (Proc.devRef .tc main_arg0)) (W5 m ρ c (Proc.devRef .tc main_arg3)) (W5 m ρ c (Proc.devRef .tc main_v15))))
    (W5 m ρ c (Proc.devRef .tc main_arg5)) (W5 m ρ c (Proc.devRef .tc main_v16))) = _
  rw [arg0_5, arg3_5, b1r5, arg5_5, b2r5]
  rfl

/-! ## The two residual calls: L h and L (L h) -/

theorem s1_v29 (V : Valuation τ sig (Elt Ideal)) : StableHlo.after (hostOps1 (F := Ideal)) V (Proc.devRef .tc main_v29)
    = agg64 (V (Proc.devRef .tc main_v17)) (V (Proc.devRef .tc main_v11)) (V (Proc.devRef .tc main_arg1)) (V (Proc.devRef .tc main_arg2)) := by
  host_step
  rfl

theorem f1_8 : W8 m ρ c (Proc.devRef .tc main_v30) = lap (hid (x0 m c) (x3 m c) (x4 m c) (x5 m c) (x6 m c)) (x1 m c) (x2 m c) := by
  refine (W8_arr m ρ c 3).trans ((Region1.arr (V7 m ρ) c).trans ?_)
  show lapRes (W7 m ρ c (Proc.devRef .tc main_v17)) (W7 m ρ c (Proc.devRef .tc main_v29)) (W7 m ρ c (Proc.devRef .tc main_v11)) = _
  rw [show W7 m ρ c (Proc.devRef .tc main_v17) = _ from (hk7 m ρ c main_v17 (by host_step)).trans (h6 m ρ c),
    show W7 m ρ c (Proc.devRef .tc main_v29) = _ from s1_v29 (W6 m ρ c), h6,
    (din_all m ρ c).1, (din_all m ρ c).2.1, (src_all m ρ c).1, (dst_all m ρ c).1, din5, arg1_5, arg2_5]
  rfl

theorem s2_v42 (V : Valuation τ sig (Elt Ideal)) : StableHlo.after (hostOps2 (F := Ideal)) V (Proc.devRef .tc main_v42)
    = agg64 (V (Proc.devRef .tc main_v30)) (V (Proc.devRef .tc main_v11)) (V (Proc.devRef .tc main_arg1)) (V (Proc.devRef .tc main_arg2)) := by
  host_step
  rfl

theorem f2_10 : W10 m ρ c (Proc.devRef .tc main_v43)
    = lap (lap (hid (x0 m c) (x3 m c) (x4 m c) (x5 m c) (x6 m c)) (x1 m c) (x2 m c)) (x1 m c) (x2 m c) := by
  refine (W10_arr m ρ c 3).trans ((Region2.arr (V9 m ρ) c).trans ?_)
  show lapRes (W9 m ρ c (Proc.devRef .tc main_v30)) (W9 m ρ c (Proc.devRef .tc main_v42)) (W9 m ρ c (Proc.devRef .tc main_v11)) = _
  rw [show W9 m ρ c (Proc.devRef .tc main_v30) = _ from (hk9 m ρ c main_v30 (by host_step)).trans (f1_8 m ρ c),
    show W9 m ρ c (Proc.devRef .tc main_v42) = _ from s2_v42 (W8 m ρ c), f1_8,
    (din_all m ρ c).2.2.1, (din_all m ρ c).2.2.2.1, (src_all m ρ c).2.2.1, (dst_all m ρ c).2.2.1, din5, arg1_5, arg2_5]
  rfl

/-! ## The head -/

theorem s3_v56 (V : Valuation τ sig (Elt Ideal)) : StableHlo.after (hostOps3 (F := Ideal)) V (Proc.devRef .tc main_v56) = fold0 (V (Proc.devRef .tc main_arg7)) := by
  host_step
  rfl
set_option maxHeartbeats 4000000 in
theorem s3_v65 (V : Valuation τ sig (Elt Ideal)) : StableHlo.after (hostOps3 (F := Ideal)) V (Proc.devRef .tc main_v65) = fold1 (V (Proc.devRef .tc main_arg7)) := by
  host_step
  rfl
set_option maxHeartbeats 4000000 in
theorem s3_v74 (V : Valuation τ sig (Elt Ideal)) : StableHlo.after (hostOps3 (F := Ideal)) V (Proc.devRef .tc main_v74) = fold2 (V (Proc.devRef .tc main_arg7)) := by
  host_step
  rfl
theorem s3_v75 (V : Valuation τ sig (Elt Ideal)) : StableHlo.after (hostOps3 (F := Ideal)) V (Proc.devRef .tc main_v75) = rowOf64 (V (Proc.devRef .tc main_arg8)) := by
  host_step
  rfl
theorem s3_v76 (V : Valuation τ sig (Elt Ideal)) : StableHlo.after (hostOps3 (F := Ideal)) V (Proc.devRef .tc main_v76) = rowOf2 (V (Proc.devRef .tc main_arg10)) := by
  host_step
  rfl

/-- The hidden features are an operand of the first residual call, L h of the second: each leaves it as it found it. -/
theorem h11 : (W11 m ρ c (Proc.devRef .tc main_v17)) = (hid (x0 m c) (x3 m c) (x4 m c) (x5 m c) (x6 m c)) :=
  (p9_11 m ρ c main_v17).trans ((hk9 m ρ c main_v17 (by host_step)).trans
    (((W8_arr m ρ c 0).trans (((dat1 (V7 m ρ) c).arrAt_in 0 rfl _).trans (A_eq1 (V7 m ρ) c 0))).trans
      ((hk7 m ρ c main_v17 (by host_step)).trans (h6 m ρ c))))
theorem f1_11 : (W11 m ρ c (Proc.devRef .tc main_v30)) = (lap (hid (x0 m c) (x3 m c) (x4 m c) (x5 m c) (x6 m c)) (x1 m c) (x2 m c)) :=
  (hk11 m ρ c main_v30 (by host_step)).trans
    (((W10_arr m ρ c 0).trans (((dat2 (V9 m ρ) c).arrAt_in 0 rfl _).trans (A_eq2 (V9 m ρ) c 0))).trans
      ((hk9 m ρ c main_v30 (by host_step)).trans (f1_8 m ρ c)))
theorem f2_11 : (W11 m ρ c (Proc.devRef .tc main_v43)) = (lap (lap (hid (x0 m c) (x3 m c) (x4 m c) (x5 m c) (x6 m c)) (x1 m c) (x2 m c)) (x1 m c) (x2 m c)) :=
  (hk11 m ρ c main_v43 (by host_step)).trans (f2_10 m ρ c)

theorem a7_10 : (W10 m ρ c (Proc.devRef .tc main_arg7)) = (x7 m c) := ((from5 m ρ c main_arg7).2.2.2.2.1).trans (p0_5 m ρ c main_arg7)
theorem a8_10 : (W10 m ρ c (Proc.devRef .tc main_arg8)) = (x8 m c) := ((from5 m ρ c main_arg8).2.2.2.2.1).trans (p0_5 m ρ c main_arg8)
theorem a10_10 : (W10 m ρ c (Proc.devRef .tc main_arg10)) = (x10 m c) := ((from5 m ρ c main_arg10).2.2.2.2.1).trans (p0_5 m ρ c main_arg10)
theorem a9_11 : (W11 m ρ c (Proc.devRef .tc main_arg9)) = (x9 m c) :=
  (p9_11 m ρ c main_arg9).trans ((p7_9 m ρ c main_arg9).trans ((p5_7 m ρ c main_arg9).trans (p0_5 m ρ c main_arg9)))

theorem out12 : (W12 m ρ c (Proc.devRef .tc main_v77)) = outK (x0 m c) (x1 m c) (x2 m c) (x3 m c) (x4 m c) (x5 m c) (x6 m c) (x7 m c) (x8 m c) (x9 m c) (x10 m c) := by
  refine (W12_arr m ρ c 9).trans ((Region3.arr (V11 m ρ) c).trans ?_)
  show dense (relu (head3 (W11 m ρ c (Proc.devRef .tc main_v17)) (W11 m ρ c (Proc.devRef .tc main_v30)) (W11 m ρ c (Proc.devRef .tc main_v43)) (W11 m ρ c (Proc.devRef .tc main_v56)) (W11 m ρ c (Proc.devRef .tc main_v65)) (W11 m ρ c (Proc.devRef .tc main_v74))
    (W11 m ρ c (Proc.devRef .tc main_v75)))) (W11 m ρ c (Proc.devRef .tc main_arg9)) (W11 m ρ c (Proc.devRef .tc main_v76)) = _
  rw [h11, f1_11, f2_11, show (W11 m ρ c (Proc.devRef .tc main_v56)) = _ from s3_v56 (W10 m ρ c), show (W11 m ρ c (Proc.devRef .tc main_v65)) = _ from s3_v65 (W10 m ρ c),
    show (W11 m ρ c (Proc.devRef .tc main_v74)) = _ from s3_v74 (W10 m ρ c), show (W11 m ρ c (Proc.devRef .tc main_v75)) = _ from s3_v75 (W10 m ρ c),
    show (W11 m ρ c (Proc.devRef .tc main_v76)) = _ from s3_v76 (W10 m ρ c), a7_10, a8_10, a10_10, a9_11]
  rfl

/-- Nothing after the head writes its result. -/
theorem out16 : (W16 m ρ c (Proc.devRef .tc main_v77)) = outK (x0 m c) (x1 m c) (x2 m c) (x3 m c) (x4 m c) (x5 m c) (x6 m c) (x7 m c) (x8 m c) (x9 m c) (x10 m c) :=
  (W16_of_ne m ρ c main_v77 (by decide)).trans ((hk15 m ρ c main_v77 (by host_step)).trans
    ((W14_of_ne m ρ c main_v77 (by decide)).trans ((hk13 m ρ c main_v77 (by host_step)).trans (out12 m ρ c))))

/-! ## The two graph-convolution calls -/

theorem s4_v89 (V : Valuation τ sig (Elt Ideal)) : StableHlo.after (hostOps4 (F := Ideal)) V (Proc.devRef .tc main_v89)
    = agg128 (V (Proc.devRef .tc main_arg0)) (V (Proc.devRef .tc main_v14)) (V (Proc.devRef .tc main_arg1)) (V (Proc.devRef .tc main_arg2)) := by
  host_step
  rfl
theorem s4_v90 (V : Valuation τ sig (Elt Ideal)) : StableHlo.after (hostOps4 (F := Ideal)) V (Proc.devRef .tc main_v90) = rowOf64 (V (Proc.devRef .tc main_arg12)) := by
  host_step
  rfl

/-- The features are an operand of the first call only. -/
theorem a0_12 : (W12 m ρ c (Proc.devRef .tc main_arg0)) = (x0 m c) :=
  (W12_of_ne m ρ c main_arg0 (by decide)).trans ((p9_11 m ρ c main_arg0).trans ((p7_9 m ρ c main_arg0).trans
    ((hk7 m ρ c main_arg0 (by host_step)).trans
      (((W6_arr m ρ c 0).trans (((dat0 (V5 m ρ) c).arrAt_in 0 rfl _).trans (A_eq0 (V5 m ρ) c 0))).trans (arg0_5 m ρ c)))))
theorem a12_12 : (W12 m ρ c (Proc.devRef .tc main_arg12)) = (x12 m c) := ((from5 m ρ c main_arg12).2.2.2.2.2.2.1).trans (p0_5 m ρ c main_arg12)
theorem a11_13 : (W13 m ρ c (Proc.devRef .tc main_arg11)) = (x11 m c) :=
  (p11_13 m ρ c main_arg11).trans ((p9_11 m ρ c main_arg11).trans ((p7_9 m ρ c main_arg11).trans ((p5_7 m ρ c main_arg11).trans (p0_5 m ρ c main_arg11))))

theorem e1_14 : (W14 m ρ c (Proc.devRef .tc main_v91)) = emb1 (x0 m c) (x1 m c) (x2 m c) (x11 m c) (x12 m c) := by
  refine (W14_arr m ρ c 4).trans ((Region4.arr (V13 m ρ) c).trans ?_)
  show relu (dense (scaleRows (W13 m ρ c (Proc.devRef .tc main_v89)) (W13 m ρ c (Proc.devRef .tc main_v11))) (W13 m ρ c (Proc.devRef .tc main_arg11)) (W13 m ρ c (Proc.devRef .tc main_v90))) = _
  rw [show (W13 m ρ c (Proc.devRef .tc main_v89)) = _ from s4_v89 (W12 m ρ c), show (W13 m ρ c (Proc.devRef .tc main_v90)) = _ from s4_v90 (W12 m ρ c),
    (din_all m ρ c).2.2.2.2.2.2.2.1, a11_13, a0_12, a12_12, (dout_all m ρ c).2.2.2.2.2.2.1, (src_all m ρ c).2.2.2.2.2.2.1, (dst_all m ρ c).2.2.2.2.2.2.1,
    din5, dout5, arg1_5, arg2_5]
  rfl

theorem s5_v103 (V : Valuation τ sig (Elt Ideal)) : StableHlo.after (hostOps5 (F := Ideal)) V (Proc.devRef .tc main_v103)
    = agg64 (V (Proc.devRef .tc main_v91)) (V (Proc.devRef .tc main_v14)) (V (Proc.devRef .tc main_arg1)) (V (Proc.devRef .tc main_arg2)) := by
  host_step
  rfl
theorem s5_v104 (V : Valuation τ sig (Elt Ideal)) : StableHlo.after (hostOps5 (F := Ideal)) V (Proc.devRef .tc main_v104) = rowOf128 (V (Proc.devRef .tc main_arg14)) := by
  host_step
  rfl

theorem a14_14 : (W14 m ρ c (Proc.devRef .tc main_arg14)) = (x14 m c) := ((from5 m ρ c main_arg14).2.2.2.2.2.2.2.2.1).trans (p0_5 m ρ c main_arg14)
theorem a13_15 : (W15 m ρ c (Proc.devRef .tc main_arg13)) = (x13 m c) :=
  (p13_15 m ρ c main_arg13).trans ((p11_13 m ρ c main_arg13).trans ((p9_11 m ρ c main_arg13).trans ((p7_9 m ρ c main_arg13).trans
    ((p5_7 m ρ c main_arg13).trans (p0_5 m ρ c main_arg13)))))

theorem emb16 : (W16 m ρ c (Proc.devRef .tc main_v105)) = embK (x0 m c) (x1 m c) (x2 m c) (x11 m c) (x12 m c) (x13 m c) (x14 m c) := by
  refine (W16_arr m ρ c 4).trans ((Region5.arr (V15 m ρ) c).trans ?_)
  show dense (scaleRows (W15 m ρ c (Proc.devRef .tc main_v103)) (W15 m ρ c (Proc.devRef .tc main_v11))) (W15 m ρ c (Proc.devRef .tc main_arg13)) (W15 m ρ c (Proc.devRef .tc main_v104)) = _
  rw [show (W15 m ρ c (Proc.devRef .tc main_v103)) = _ from s5_v103 (W14 m ρ c), show (W15 m ρ c (Proc.devRef .tc main_v104)) = _ from s5_v104 (W14 m ρ c),
    (din_all m ρ c).2.2.2.2.2.2.2.2.2, a13_15, e1_14, a14_14, (dout_all m ρ c).2.2.2.2.2.2.2.2.1, (src_all m ρ c).2.2.2.2.2.2.2.2.1, (dst_all m ρ c).2.2.2.2.2.2.2.2.1,
    din5, dout5, arg1_5, arg2_5]
  rfl

/-! ## The run -/

/-- Every weakly fair execution of the kernel program ends with its two results at the network's two outputs of the
    arguments, the arguments unchanged. -/
theorem run : θ_run defs (onTc (τ := τ) (main (F := Ideal))) ⟨m, fun _ => 0, ρ⟩ (fun r => ∀ c : Dev nD,
      r.2.mem ((c.tc : Thread nD τ).loc main_v77) = outK (x0 m c) (x1 m c) (x2 m c) (x3 m c) (x4 m c) (x5 m c) (x6 m c) (x7 m c) (x8 m c) (x9 m c) (x10 m c)
      ∧ r.2.mem ((c.tc : Thread nD τ).loc main_v105) = embK (x0 m c) (x1 m c) (x2 m c) (x11 m c) (x12 m c) (x13 m c) (x14 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (out16 m ρ c), (h c).2.1.trans (emb16 m ρ c), (h c).2.2⟩) (run_all m ρ)

end Cert.KernelIdeal.Chain

end
-- ==== Proof.RefNetA.lean ====
/-
  The reference's stages are the network's pieces.

  The reference program computes the same hidden features, the same degree scalings, the same aggregation and the
  same normalized graph operator as the kernel program, by the same host operations or by a whole-array product
  where the kernel multiplies block by block; at the ideal values each reference stage IS the corresponding piece
  of `Cert.Net`, and the reference's repeated evaluations of L h and L (L h) are all the same arrays.
-/
import proofs.«403152_j77584289235637_3_alg».proof.Proof.Gen.ReferenceIdeal.Read
import proofs.«403152_j77584289235637_3_alg».proof.Proof.Net
import proofs.«403152_j77584289235637_3_alg».proof.Proof.LibPlainDot
import Idealize.ShloMosaic.Lib.Pipeline.Value
import Idealize.ShloMosaic.Lib.ValueLayout

noncomputable section

namespace Cert.RefNet

open Idealize.ShloMosaic Idealize.ShloMosaic.ValueIdx Cert.ReferenceIdeal Cert.ReferenceIdeal.Read Cert.Whole Cert.Net

variable (x0 : Arr S50000x128) (x1 x2 : IVec S800000 32) (x3 : Arr S128x64) (x4 : Arr S64) (x5 : Arr S64x64) (x6 : Arr S64)
  (x7 : Arr S320x64) (x8 : Arr S64) (x9 : Arr S64x2) (x10 : Arr S2) (x11 : Arr S128x64) (x12 : Arr S64) (x13 : Arr S64x128) (x14 : Arr S128)

/-- A rectifier written as a maximum with a broadcast zero word. -/
theorem ref_relu {s : Shape} (h : S_.BroadcastsInDim s (![] : Fin 0 → Fin s.rank)) (a : Arr s) :
    maximumf (F := Ideal) (φ := .f32) a (broadcastInDim s ![] h (constant (F := Ideal) S_ .f32 0x00000000#32)) = relu a := by
  funext i
  rw [maximumf_apply, relu_apply, broadcastInDim_apply _ h _ i (fun a => a.elim0) (fun a => a.elim0), constant_apply,
    Ideal.ofBits_zero_f32]

/-- A whole-array product plus a bias vector broadcast to one row and then to every row is the dense layer. -/
theorem ref_dense {M K N : ℕ} (D : DotDims ⟨2, ![M, K]⟩ ⟨2, ![K, N]⟩ ⟨2, ![M, N]⟩) (hD : D = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩)
    (x : Arr ⟨2, ![M, K]⟩) (w : Arr ⟨2, ![K, N]⟩) (b : Arr ⟨1, ![N]⟩) :
    addf (F := Ideal) (φ := .f32) (Host.dotGeneral (F := Ideal) (φ₁ := .f32) (φ₂ := .f32) D none x w)
      (broadcastInDim ⟨2, ![M, N]⟩ ![0, 1] h2 (broadcastInDim ⟨2, ![1, N]⟩ ![1] h1 b))
    = dense x w (shapeCast ⟨2, ![1, N]⟩ b hc) := by
  funext i
  obtain ⟨n, j, rfl⟩ : ∃ (n : Fin M) (j : Fin N), i = ix2 n j := ⟨i 0, i 1, eq_ix2 i⟩
  rw [addf_apply, dense_apply, Cert.LibPlainDot.dotGeneral_apply D hD none x w n j, shapeCast_a_1a_apply,
    broadcastInDim_apply _ h2 _ (ix2 n j) (ix2 0 j) (fun a => by
      match a with
      | ⟨0, _⟩ => exact (if_pos rfl).symm
      | ⟨1, _⟩ =>
        show j.val = if N = 1 then 0 else j.val
        split
        · omega
        · rfl),
    broadcastInDim_apply _ h1 _ (ix2 0 j) (ix1 j) (fun a => by
      match a with
      | ⟨0, _⟩ =>
        show j.val = if N = 1 then 0 else j.val
        split
        · omega
        · rfl)]
  rfl

/-- An array times a column broadcast along its rows is the array with its rows scaled. -/
theorem ref_scaleRows {M N : ℕ} (hb : (⟨2, ![M, 1]⟩ : Shape).BroadcastsInDim ⟨2, ![M, N]⟩ (![0, 1] : Fin 2 → Fin 2))
    (g : Arr ⟨2, ![M, N]⟩) (d : Arr ⟨2, ![M, 1]⟩) :
    mulf (F := Ideal) (φ := .f32) g (broadcastInDim ⟨2, ![M, N]⟩ ![0, 1] hb d) = scaleRows g d := by
  funext i
  obtain ⟨n, j, rfl⟩ : ∃ (n : Fin M) (j : Fin N), i = ix2 n j := ⟨i 0, i 1, eq_ix2 i⟩
  rw [mulf_apply, scaleRows_apply, broadcastInDim_apply _ hb _ (ix2 n j) (ix2 n 0) (fun a => by
      match a with
      | ⟨0, _⟩ =>
        show n.val = if M = 1 then 0 else n.val
        split
        · omega
        · rfl
      | ⟨1, _⟩ => exact (if_pos rfl).symm)]

/-- The residual layer f - g · d with the column broadcast along the rows. -/
theorem ref_lapRes {M N : ℕ} (hb : (⟨2, ![M, 1]⟩ : Shape).BroadcastsInDim ⟨2, ![M, N]⟩ (![0, 1] : Fin 2 → Fin 2))
    (f g : Arr ⟨2, ![M, N]⟩) (d : Arr ⟨2, ![M, 1]⟩) :
    subf (F := Ideal) (φ := .f32) f (mulf (F := Ideal) (φ := .f32) g (broadcastInDim ⟨2, ![M, N]⟩ ![0, 1] hb d)) = lapRes f g d := by
  rw [ref_scaleRows]
  rfl

/-- The degree scalings. -/
theorem dinv_in : val_main_v11 (F := Ideal) x2 = dinv x2 := rfl
theorem dinv_out : val_main_v14 (F := Ideal) x1 = dinv x1 := rfl

/-- The hidden features. -/
theorem hid_eq : val_main_v24 (F := Ideal) x0 x3 x4 x5 x6 = hid x0 x3 x4 x5 x6 := by
  unfold hid val_main_v24 val_main_call3_v0 val_main_call3_cst val_main_v23 val_main_v22 val_main_v21 val_main_v20
    val_main_v19 val_main_call2_v0 val_main_call2_cst val_main_v18 val_main_v17 val_main_v16 val_main_v15
  rw [ref_relu, ref_dense dot_S50000x64_S64x64_S50000x64_1_0_0_1_n_n rfl, ref_relu,
    ref_dense dot_S50000x128_S128x64_S50000x64_1_0_0_1_n_n rfl]
  rfl

/-- The reference's first aggregation is the network's, of the hidden features scaled by the degree column. -/
theorem agg1_eq : val_main_v38 (F := Ideal) x0 x1 x2 x3 x4 x5 x6
    = agg64 (val_main_v24 (F := Ideal) x0 x3 x4 x5 x6) (val_main_v11 (F := Ideal) x2) x1 x2 := rfl

/-- L h, in each of the four places the reference evaluates it. -/
theorem f1_eq : val_main_v41 (F := Ideal) x0 x1 x2 x3 x4 x5 x6 = lap (hid x0 x3 x4 x5 x6) x1 x2 := by
  unfold val_main_v41 val_main_v40 val_main_v39 lap
  rw [agg1_eq, hid_eq, dinv_in, ref_lapRes]
theorem f1_eq_b : val_main_v79 (F := Ideal) x0 x1 x2 x3 x4 x5 x6 = lap (hid x0 x3 x4 x5 x6) x1 x2 :=
  (rfl : val_main_v79 (F := Ideal) x0 x1 x2 x3 x4 x5 x6 = val_main_v41 (F := Ideal) x0 x1 x2 x3 x4 x5 x6).trans
    (f1_eq x0 x1 x2 x3 x4 x5 x6)
theorem f1_eq_c : val_main_v117 (F := Ideal) x0 x1 x2 x3 x4 x5 x6 = lap (hid x0 x3 x4 x5 x6) x1 x2 :=
  (rfl : val_main_v117 (F := Ideal) x0 x1 x2 x3 x4 x5 x6 = val_main_v41 (F := Ideal) x0 x1 x2 x3 x4 x5 x6).trans
    (f1_eq x0 x1 x2 x3 x4 x5 x6)
theorem f1_eq_d : val_main_v153 (F := Ideal) x0 x1 x2 x3 x4 x5 x6 = lap (hid x0 x3 x4 x5 x6) x1 x2 :=
  (rfl : val_main_v153 (F := Ideal) x0 x1 x2 x3 x4 x5 x6 = val_main_v41 (F := Ideal) x0 x1 x2 x3 x4 x5 x6).trans
    (f1_eq x0 x1 x2 x3 x4 x5 x6)

/-- The reference's second aggregation is the network's, of L h scaled by the degree column. -/
theorem agg2_eq : val_main_v56 (F := Ideal) x0 x1 x2 x3 x4 x5 x6
    = agg64 (val_main_v41 (F := Ideal) x0 x1 x2 x3 x4 x5 x6) (val_main_v11 (F := Ideal) x2) x1 x2 := rfl

/-- L (L h), in each of the four places. -/
theorem f2_eq : val_main_v59 (F := Ideal) x0 x1 x2 x3 x4 x5 x6 = lap (lap (hid x0 x3 x4 x5 x6) x1 x2) x1 x2 := by
  unfold val_main_v59 val_main_v58 val_main_v57
  rw [agg2_eq, f1_eq, dinv_in, ref_lapRes]
  rfl
theorem f2_eq_b : val_main_v97 (F := Ideal) x0 x1 x2 x3 x4 x5 x6 = lap (lap (hid x0 x3 x4 x5 x6) x1 x2) x1 x2 :=
  (rfl : val_main_v97 (F := Ideal) x0 x1 x2 x3 x4 x5 x6 = val_main_v59 (F := Ideal) x0 x1 x2 x3 x4 x5 x6).trans
    (f2_eq x0 x1 x2 x3 x4 x5 x6)
theorem f2_eq_c : val_main_v135 (F := Ideal) x0 x1 x2 x3 x4 x5 x6 = lap (lap (hid x0 x3 x4 x5 x6) x1 x2) x1 x2 :=
  (rfl : val_main_v135 (F := Ideal) x0 x1 x2 x3 x4 x5 x6 = val_main_v59 (F := Ideal) x0 x1 x2 x3 x4 x5 x6).trans
    (f2_eq x0 x1 x2 x3 x4 x5 x6)
theorem f2_eq_d : val_main_v168 (F := Ideal) x0 x1 x2 x3 x4 x5 x6 = lap (lap (hid x0 x3 x4 x5 x6) x1 x2) x1 x2 :=
  (rfl : val_main_v168 (F := Ideal) x0 x1 x2 x3 x4 x5 x6 = val_main_v59 (F := Ideal) x0 x1 x2 x3 x4 x5 x6).trans
    (f2_eq x0 x1 x2 x3 x4 x5 x6)

/-- The aggregations inside the two graph-convolution layers. -/
theorem agg3_eq : val_main_v190 (F := Ideal) x0 x1 x2 = agg128 x0 (val_main_v14 (F := Ideal) x1) x1 x2 := rfl
theorem agg4_eq : val_main_v209 (F := Ideal) x0 x1 x2 x11 x12
    = agg64 (val_main_v197 (F := Ideal) x0 x1 x2 x11 x12) (val_main_v14 (F := Ideal) x1) x1 x2 := rfl

/-- The two graph-convolution layers. -/
theorem emb1_eq : val_main_v197 (F := Ideal) x0 x1 x2 x11 x12 = emb1 x0 x1 x2 x11 x12 := by
  unfold emb1 val_main_v197 val_main_call5_v0 val_main_call5_cst val_main_v196 val_main_v195 val_main_v194 val_main_v193
    val_main_v192 val_main_v191
  rw [ref_relu, ref_dense dot_S50000x128_S128x64_S50000x64_1_0_0_1_n_n rfl, agg3_eq, dinv_out, dinv_in, ref_scaleRows]
  rfl
theorem emb_eq : val_main_v215 (F := Ideal) x0 x1 x2 x11 x12 x13 x14 = embK x0 x1 x2 x11 x12 x13 x14 := by
  unfold embK val_main_v215 val_main_v214 val_main_v213 val_main_v212 val_main_v211 val_main_v210
  rw [ref_dense dot_S50000x64_S64x128_S50000x128_1_0_0_1_n_n rfl, agg4_eq, emb1_eq, dinv_out, dinv_in, ref_scaleRows]
  rfl

end Cert.RefNet

end
-- ==== Proof.LibScatterConst.lean ====
/-
  A scatter whose body keeps the update (a "set") and whose updates all carry one constant, read at an index; and when an
  update index lands on a given operand index.

  The scatter is a left fold over the update indices; each step overwrites the element its update lands on, when it
  lands inside the operand. With a constant update the order of the steps and repeated landings do not matter: the result at
  an index is the constant when some update lands there, and the operand's element otherwise.
-/
import Idealize.ShloMosaic.PureOps.ShapeOps

namespace Cert.LibScatterConst

open Idealize.ShloMosaic

/-- A left fold whose step, where `g n = some i`, sets the element at `i` to the constant `c` and keeps every other element,
    and where `g n = none` keeps the function: read at `i'`, it is `c` when some member of the list lands on `i'`, else
    the starting function's element. By induction over the list, for every starting function. -/
theorem foldl_set_const_apply {ι κ α : Type} (g : κ → Option ι) (c : α) (step : (ι → α) → κ → ι → α)
    (hsome : ∀ r n i, g n = some i → step r n i = c ∧ ∀ i', i' ≠ i → step r n i' = r i')
    (hnone : ∀ r n, g n = none → step r n = r) (i' : ι) :
    ∀ (L : List κ) (r : ι → α),
      ((∃ n ∈ L, g n = some i') → L.foldl step r i' = c) ∧ ((¬ ∃ n ∈ L, g n = some i') → L.foldl step r i' = r i') := by
  intro L
  induction L with
  | nil =>
    intro r
    exact ⟨fun ⟨n, hn, _⟩ => absurd hn List.not_mem_nil, fun _ => rfl⟩
  | cons a L ih =>
    intro r
    rw [List.foldl_cons]
    obtain ⟨ih1, ih2⟩ := ih (step r a)
    constructor
    · rintro ⟨n, hn, h⟩
      by_cases hL : ∃ n ∈ L, g n = some i'
      · exact ih1 hL
      · rw [ih2 hL]
        rcases List.mem_cons.1 hn with rfl | hn
        · exact (hsome r n i' h).1
        · exact absurd ⟨n, hn, h⟩ hL
    · intro hno
      have hL : ¬ ∃ n ∈ L, g n = some i' := fun ⟨n, hn, h⟩ => hno ⟨n, List.mem_cons_of_mem _ hn, h⟩
      rw [ih2 hL]
      cases hg : g a with
      | none => rw [hnone r a hg]
      | some i =>
        have hi : i' ≠ i := fun e => hno ⟨a, List.mem_cons_self, by rw [hg, e]⟩
        exact (hsome r a i hg).2 i' hi

/-- A scatter that sets (its body returns the update) with every update equal to `c`, read at `i'`: `c` when some update index
    lands on `i'`, else the operand's element there. -/
theorem scatter_set_const_apply {s si u : Shape} {α : Type} {w : Nat} (d : ScatterDims s si u) (x : s.Idx → α)
    (idx : IVec si w) (upd : u.Idx → α) (c : α) (hupd : ∀ j, upd j = c) (i' : s.Idx)
    [Decidable (∃ j : u.Idx, d.resultIdx? j idx = some i')] :
    Host.scatter d (fun _ v => v) x idx upd i' = if ∃ j : u.Idx, d.resultIdx? j idx = some i' then c else x i' := by
  obtain rfl : upd = fun _ => c := funext hupd
  unfold Host.scatter
  have key := foldl_set_const_apply (fun n => d.resultIdx? (u.rowMajor.symm n) idx) c
    (fun r n => match d.resultIdx? (u.rowMajor.symm n) idx with
      | some i => fun i' => if i' = i then (fun _ v => v) (r i) ((fun _ => c) (u.rowMajor.symm n)) else r i'
      | none => r)
    (fun r n i h => by
      refine ⟨?_, fun i' hi => ?_⟩
      · simp only [h]; exact if_pos trivial
      · simp only [h]; exact if_neg hi)
    (fun r n h => by simp only [h]) i' (List.finRange u.numel) x
  have hiff : (∃ n ∈ List.finRange u.numel, d.resultIdx? (u.rowMajor.symm n) idx = some i') ↔
      ∃ j : u.Idx, d.resultIdx? j idx = some i' := by
    constructor
    · rintro ⟨n, _, h⟩; exact ⟨_, h⟩
    · rintro ⟨j, h⟩
      exact ⟨u.rowMajor j, List.mem_finRange _, by rw [Equiv.symm_apply_apply]; exact h⟩
  by_cases h : ∃ j : u.Idx, d.resultIdx? j idx = some i'
  · rw [if_pos h]; exact key.1 (hiff.2 h)
  · rw [if_neg h]; exact key.2 (fun h' => h (hiff.1 h'))

/-- An update index lands on the operand index `i'` exactly when, on every axis, its start plus its window coordinate is
    `i'`'s coordinate. -/
theorem resultIdx?_eq_some_iff {s si u : Shape} {w : Nat} (d : ScatterDims s si u) (j : u.Idx) (idx : IVec si w)
    (i' : s.Idx) :
    d.resultIdx? j idx = some i' ↔ ∀ a, d.start j idx a + (d.window j a : Int) = ((i' a).val : Int) := by
  unfold ScatterDims.resultIdx?
  split
  · rename_i h
    constructor
    · intro e a
      have e1 : ((d.start j idx a + (d.window j a : Int)).toNat) = (i' a).val :=
        congrArg Fin.val (congrFun (Option.some.inj e) a)
      have ha := h a
      omega
    · intro e
      refine congrArg some (funext fun a => Fin.ext ?_)
      have ea := e a
      have ha := h a
      show (d.start j idx a + (d.window j a : Int)).toNat = (i' a).val
      omega
  · rename_i h
    constructor
    · intro e; exact absurd e (by simp)
    · intro e
      refine absurd (fun a => ?_) h
      have ea := e a
      have hlt := (i' a).isLt
      omega

end Cert.LibScatterConst
-- ==== Proof.LibScatterAdd.lean ====
/-
  An accumulating scatter read at an index, at the extended reals.

  The accumulating scatter of updates into an operand holds, at each operand index, the operand's element plus the
  sum of the updates that land there. An update lands, on every operand axis, at its start (the start index's component
  for that axis, read as a signed integer and not clamped; zero on an axis the start index does not address) plus its
  window coordinate (the update's coordinate on the window axis that goes to that operand axis; zero on an inserted
  axis); an update that lands outside the operand on some axis is dropped.

  Two shapes of it:
    * FLAT: a vector operand [N], a column of start indices [R, 1], one scalar update per start index [R]. The one operand
      axis is addressed by the start index and inserted, so update n lands on p exactly when idx[n, 0], read signed, is p:
      element p is the operand's plus the updates n whose start index is p.
    * ROWS: a matrix operand [S, T], a column of start indices [R, 1] naming ROWS, one row update [R, T] per start index.
      Operand axis 0 is addressed by the start index and inserted, operand axis 1 carries the update's window axis 1 from
      start zero, so update (n, t') lands on (o, t) exactly when idx[n, 0], read signed, is o and t' = t. The sum over
      the update indices that land on (o, t), split by coordinates, keeps in each row n at most the one term t' = t:
      element (o, t) is the operand's plus the updates (n, t) of the rows n whose start index is o.
-/
import Idealize.ShloMosaic.PureOps.Ideal
import Idealize.ShloMosaic.Lib.ValueIdx
import proofs.«403152_j77584289235637_3_alg».proof.Proof.LibScatterConst

noncomputable section

namespace Cert.LibScatterAdd

open Idealize.ShloMosaic Idealize.ShloMosaic.ValueIdx

/-- FLAT, one update: update `n` lands on `p` exactly when its start index, read signed, is `p`. The operand's one axis is
    the one the start index addresses, so the start there is the index word at `[n, 0]`; that axis is inserted, so the
    window coordinate is zero. -/
theorem flat_lands_iff {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1) (idx : IVec ⟨2, ![R, 1]⟩ 32) (n : (⟨1, ![R]⟩ : Shape).Idx) (p : Fin N) :
    d.resultIdx? n idx = some (ix1 p) ↔ (idx (ix2 (n 0) (0 : Fin 1))).toInt = (p.val : ℤ) := by
  rw [Cert.LibScatterConst.resultIdx?_eq_some_iff]
  obtain ⟨uw, iw, sd, iv, wf⟩ := d
  dsimp only at huw hiw hsd hiv
  subst huw hiw hsd hiv
  -- the start on the operand's axis: the index word at [n, 0]
  have hstart : ScatterDims.start (s := ⟨1, ![N]⟩) (si := ⟨2, ![R, 1]⟩) (u := ⟨1, ![R]⟩) ⟨[], [0], [0], 1, wf⟩ n idx 0
      = (idx (ix2 (n 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- the operand's axis is inserted: no window coordinate
  have hwin : ScatterDims.window (s := ⟨1, ![N]⟩) (si := ⟨2, ![R, 1]⟩) (u := ⟨1, ![R]⟩) ⟨[], [0], [0], 1, wf⟩ n 0 = 0 := by
    unfold ScatterDims.window
    exact dif_neg (show (0 : Fin 1) ∉ (List.finRange 1).filter (· ∉ ([0] : List (Fin 1))) by decide)
  constructor
  · intro h
    have h0 := h 0
    rw [hstart, hwin, Nat.cast_zero, add_zero] at h0
    exact h0
  · intro h a
    obtain rfl : a = 0 := Subsingleton.elim _ _
    rw [hstart, hwin, Nat.cast_zero, add_zero]
    exact h

/-- FLAT: element `p` is the operand's plus the sum of the updates whose start index, read signed, is `p`. -/
theorem scatterAdd_flat_apply {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![R, 1]⟩ 32) (upd : (⟨1, ![R]⟩ : Shape).Idx → EReal) (p : Fin N) :
    Ideal.hostScatterAdd d x idx upd (ix1 p)
      = x (ix1 p) + ∑ n ∈ Finset.univ.filter
          (fun n : (⟨1, ![R]⟩ : Shape).Idx => (idx (ix2 (n 0) (0 : Fin 1))).toInt = (p.val : ℤ)), upd n := by
  -- the two sums run over the same set of update indices
  unfold Ideal.hostScatterAdd
  congr 1
  refine Finset.sum_congr (Finset.filter_congr fun n _ => ?_) fun _ _ => rfl
  exact flat_lands_iff d huw hiw hsd hiv idx n p

/-- ROWS, one update: update `j = (n, t')` lands on `(o, t)` exactly when the start index of row `n`, read signed, is `o`
    and `t' = t`. On operand axis 0 the start is the index word at `[n, 0]` and the axis is inserted (window coordinate
    zero); operand axis 1 is not addressed by the start index (start zero) and carries the update's axis 1. -/
theorem rows_lands_iff {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1) (idx : IVec ⟨2, ![R, 1]⟩ 32) (j : (⟨2, ![R, T]⟩ : Shape).Idx) (o : Fin S) (t : Fin T) :
    d.resultIdx? j idx = some (ix2 o t) ↔ (idx (ix2 (j 0) (0 : Fin 1))).toInt = (o.val : ℤ) ∧ j 1 = t := by
  rw [Cert.LibScatterConst.resultIdx?_eq_some_iff]
  obtain ⟨uw, iw, sd, iv, wf⟩ := d
  dsimp only at huw hiw hsd hiv
  subst huw hiw hsd hiv
  -- operand axis 0: the start is the index word at [n, 0] …
  have hstart0 : ScatterDims.start (s := ⟨2, ![S, T]⟩) (si := ⟨2, ![R, 1]⟩) (u := ⟨2, ![R, T]⟩) ⟨[1], [0], [0], 1, wf⟩ j idx 0
      = (idx (ix2 (j 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- … operand axis 1 is not addressed by the start index
  have hstart1 : ScatterDims.start (s := ⟨2, ![S, T]⟩) (si := ⟨2, ![R, 1]⟩) (u := ⟨2, ![R, T]⟩) ⟨[1], [0], [0], 1, wf⟩ j idx 1
      = 0 := by
    unfold ScatterDims.start
    exact dif_neg (show (1 : Fin 2) ∉ ([0] : List (Fin 2)) by decide)
  -- operand axis 0 is inserted: no window coordinate …
  have hwin0 : ScatterDims.window (s := ⟨2, ![S, T]⟩) (si := ⟨2, ![R, 1]⟩) (u := ⟨2, ![R, T]⟩) ⟨[1], [0], [0], 1, wf⟩ j 0 = 0 := by
    unfold ScatterDims.window
    exact dif_neg (show (0 : Fin 2) ∉ (List.finRange 2).filter (· ∉ ([0] : List (Fin 2))) by decide)
  -- … operand axis 1 is the one kept axis: its window coordinate is the update's coordinate on its window axis 1
  have hwin1 : ScatterDims.window (s := ⟨2, ![S, T]⟩) (si := ⟨2, ![R, 1]⟩) (u := ⟨2, ![R, T]⟩) ⟨[1], [0], [0], 1, wf⟩ j 1
      = (j 1).val := by
    unfold ScatterDims.window
    exact (dif_pos (show (1 : Fin 2) ∈ (List.finRange 2).filter (· ∉ ([0] : List (Fin 2))) by decide)).trans rfl
  constructor
  · intro h
    have h0 := h 0
    have h1 := h 1
    rw [hstart0, hwin0, Nat.cast_zero, add_zero] at h0
    rw [hstart1, hwin1, zero_add] at h1
    exact ⟨h0, Fin.ext (by exact_mod_cast h1)⟩
  · rintro ⟨h0, h1⟩ a
    match a with
    | ⟨0, _⟩ =>
      show ScatterDims.start _ j idx 0 + (ScatterDims.window _ j 0 : ℤ) = _
      rw [hstart0, hwin0, Nat.cast_zero, add_zero]
      exact h0
    | ⟨1, _⟩ =>
      show ScatterDims.start _ j idx 1 + (ScatterDims.window _ j 1 : ℤ) = _
      rw [hstart1, hwin1, zero_add, h1]

/-- ROWS: element `(o, t)` is the operand's plus the sum over the rows `n` whose start index, read signed, is `o`, of
    update `(n, t)`. -/
theorem scatterAdd_rows_apply {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1)
    (x : (⟨2, ![S, T]⟩ : Shape).Idx → EReal) (idx : IVec ⟨2, ![R, 1]⟩ 32) (upd : (⟨2, ![R, T]⟩ : Shape).Idx → EReal)
    (o : Fin S) (t : Fin T) :
    Ideal.hostScatterAdd d x idx upd (ix2 o t)
      = x (ix2 o t) + ∑ n ∈ Finset.univ.filter
          (fun n : Fin R => (idx (ix2 n (0 : Fin 1))).toInt = (o.val : ℤ)), upd (ix2 n t) := by
  unfold Ideal.hostScatterAdd
  congr 1
  -- both sums as sums of guarded terms; the left one split by the update index's coordinates (n, t')
  rw [Finset.sum_filter, Finset.sum_filter, sum_idx2]
  refine Finset.sum_congr rfl fun n _ => ?_
  by_cases hP : (idx (ix2 n (0 : Fin 1))).toInt = (o.val : ℤ)
  · -- row n starts at o: of its terms only t' = t lands on (o, t)
    rw [if_pos hP, Finset.sum_eq_single t]
    · exact if_pos ((rows_lands_iff d huw hiw hsd hiv idx (ix2 n t) o t).mpr ⟨hP, rfl⟩)
    · intro b _ hb
      exact if_neg (fun h => hb ((rows_lands_iff d huw hiw hsd hiv idx (ix2 n b) o t).mp h).2)
    · intro h; exact absurd (Finset.mem_univ t) h
  · -- row n starts elsewhere: none of its terms lands on (o, t)
    rw [if_neg hP]
    refine Finset.sum_eq_zero fun b _ => ?_
    exact if_neg (fun h => hP ((rows_lands_iff d huw hiw hsd hiv idx (ix2 n b) o t).mp h).1)

end Cert.LibScatterAdd

end
-- ==== Proof.LibHostIdx2.lean ====
import Idealize.ShloMosaic.PureOps
import Idealize.ShloMosaic.Lib.ValueIdx

/-!
# A row gather and a one-axis scatter, read at an index

Two host operations on tables of rows, each read at one index of its result.

* The ROW GATHER `y[r, :] = x[idx[r], :]` of an operand `x : [N, C]` at a column of start
  indices `idx : [R, 1]`: result element `(r, q)` is `x` at row `idx[r, 0]`, that word read as a
  signed integer and clamped into `[0, N − 1]`, and column `q`.
* The SCATTER `y = x.at[idx].set(u)` of updates `u : [R]` into an operand `x : [N]` at a column
  of indices `idx : [R, 1]`.  The operation is a left fold over the updates in order: update `r`
  replaces the element at position `idx[r, 0]` (read signed, not clamped; dropped when outside
  `[0, N)`).  The value left at a position is that of the LAST update that lands there.  When
  the indices are the words of an injective map `p` into `[0, N)`, exactly one update lands at
  `p r`, namely update `r`, so no later step of the fold touches that position again and the
  order in which the fold visits the updates does not matter: the result at `p r` is `u r`, and
  a position no `p r` equals keeps the operand's element.
-/

namespace Idealize.ShloMosaic.HostIdx2

open Idealize.ShloMosaic Idealize.ShloMosaic.ValueIdx

/-! ## Words of small numbers -/

/-- The word of a number below half the word range reads back, signed, as that number. -/
theorem toInt_ofNat_of_lt {w k : Nat} (hk : 2 * k < 2 ^ w) : (BitVec.ofNat w k).toInt = (k : Int) := by
  rw [BitVec.toInt_eq_toNat_cond, BitVec.toNat_ofNat]
  have h1 : k % 2 ^ w = k := Nat.mod_eq_of_lt (by omega)
  rw [h1, if_pos hk]

/-! ## The row gather -/

/-- THE ROW GATHER READ AT `(r, q)`: the operand at row `idx[r, 0]`, read signed and clamped into
    `[0, N − 1]`, and column `q`. -/
theorem gather_rows_apply {α : Type} {N R C w : Nat} (hN : 0 < N)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (q : Fin C) :
    Host.gather d x idx (ix2 r q)
      = x (ix2 ⟨min (idx (ix2 r (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    show GatherDims.start _ (ix2 r q) idx 0 + GatherDims.batchCoord _ (ix2 r q) 0
      + GatherDims.offCoord _ (ix2 r q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![R, C]⟩)
        ⟨[1], [0], [], [], [0], 1, ![1, C], wf⟩ (ix2 r q)
        ⟨List.idxOf (0 : Fin 2) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl
  | ⟨1, _⟩ =>
    show GatherDims.start _ (ix2 r q) idx 1 + GatherDims.batchCoord _ (ix2 r q) 1
      + GatherDims.offCoord _ (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The row gather at a start index that is the word of a row number `k < N`: row `k`. -/
theorem gather_rows_apply_of_eq {α : Type} {N R C w : Nat}
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C]) (hNw : 2 * N ≤ 2 ^ w)
    (x : (⟨2, ![N, C]⟩ : Shape).Idx → α) (idx : IVec ⟨2, ![R, 1]⟩ w) (r : Fin R) (q : Fin C)
    (k : Nat) (hk : k < N) (hidx : idx (ix2 r (0 : Fin 1)) = BitVec.ofNat w k) :
    Host.gather d x idx (ix2 r q) = x (ix2 ⟨k, hk⟩ q) := by
  rw [gather_rows_apply (by omega) d hod hcd hob hsb hsim hiv hss]
  congr 2
  refine Fin.ext ?_
  show min (idx (ix2 r (0 : Fin 1))).toInt.toNat (N - 1) = k
  rw [hidx, toInt_ofNat_of_lt (by omega)]
  simp only [Int.toNat_natCast]
  omega

/-! ## The scatter -/

/-- A left fold of point writes: a position that holds `c`, and at which every writer in the list
    writes `c`, holds `c` after the fold. -/
theorem foldl_set_inv {ι κ α : Type} [DecidableEq κ] (g : ι → κ) (v : ι → α) (k : κ) (c : α) :
    ∀ (l : List ι) (r : κ → α), (∀ n ∈ l, g n = k → v n = c) → r k = c →
      (l.foldl (fun r n => fun i' => if i' = g n then v n else r i') r) k = c
  | [], _, _, h => h
  | a :: l, r, hl, h => by
    rw [List.foldl_cons]
    refine foldl_set_inv g v k c l _ (fun n hn => hl n (List.mem_cons_of_mem _ hn)) ?_
    show (if k = g a then v a else r k) = c
    by_cases hk : k = g a
    · rw [if_pos hk]; exact hl a List.mem_cons_self hk.symm
    · rw [if_neg hk]; exact h

/-- A left fold of point writes, read at the position of a writer `n₀` of the list, all of whose
    co-writers write the same value: that value. -/
theorem foldl_set_hit {ι κ α : Type} [DecidableEq κ] (g : ι → κ) (v : ι → α) (n₀ : ι) :
    ∀ (l : List ι) (r : κ → α), n₀ ∈ l → (∀ n ∈ l, g n = g n₀ → v n = v n₀) →
      (l.foldl (fun r n => fun i' => if i' = g n then v n else r i') r) (g n₀) = v n₀
  | [], _, hm, _ => nomatch hm
  | a :: l, r, hm, hl => by
    rw [List.foldl_cons]
    by_cases ha : g a = g n₀
    · refine foldl_set_inv g v (g n₀) (v n₀) l _ (fun n hn => hl n (List.mem_cons_of_mem _ hn)) ?_
      show (if g n₀ = g a then v a else r (g n₀)) = v n₀
      rw [if_pos ha.symm]; exact hl a List.mem_cons_self ha
    · have hm' : n₀ ∈ l := by
        rcases List.mem_cons.1 hm with h | h
        · exact absurd (by rw [h]) ha
        · exact h
      exact foldl_set_hit g v n₀ l _ hm' (fun n hn => hl n (List.mem_cons_of_mem _ hn))

/-- Where update `r` lands: position `p r`. -/
theorem resultIdx_eq {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (idx : IVec ⟨2, ![R, 1]⟩ w)
    (p : Fin R → Nat) (hp : ∀ r, p r < N) (hidx : ∀ r, idx (ix2 r (0 : Fin 1)) = BitVec.ofNat w (p r))
    (r : Fin R) :
    d.resultIdx? (ix1 r) idx = some (ix1 ⟨p r, hp r⟩) := by
  obtain ⟨uw, iw, sd, iv, wf⟩ := d
  dsimp only at huw hiw hsd hiv
  subst huw hiw hsd hiv
  have hst : ∀ a, ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) = (p r : Int) := by
    intro a
    obtain rfl : a = 0 := Subsingleton.elim _ _
    unfold ScatterDims.start ScatterDims.window
    have hnk : (0 : Fin 1) ∉ ScatterDims.sKept (s := ⟨1, ![N]⟩) (si := ⟨2, ![R, 1]⟩) (u := ⟨1, ![R]⟩)
        ⟨[], [0], [0], 1, wf⟩ := by
      simp [ScatterDims.sKept, Shape.kept]
    rw [dif_pos (List.mem_singleton.mpr rfl), dif_neg hnk]
    have hsi : ScatterDims.siIdx (s := ⟨1, ![N]⟩) (si := ⟨2, ![R, 1]⟩) (u := ⟨1, ![R]⟩)
        ⟨[], [0], [0], 1, wf⟩ (ix1 r)
        ⟨List.idxOf (0 : Fin 1) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi, hidx, toInt_ofNat_of_lt (by have := hp r; omega)]
    simp
  unfold ScatterDims.resultIdx?
  have hall : ∀ a, 0 ≤ ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) ∧
      ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) < ((⟨1, ![N]⟩ : Shape).size a : Int) := by
    intro a
    rw [hst a]
    obtain rfl : a = 0 := Subsingleton.elim _ _
    have := hp r
    show (0 : Int) ≤ (p r : Int) ∧ (p r : Int) < ((N : Nat) : Int)
    omega
  rw [dif_pos hall]
  congr 1
  funext a
  refine Fin.ext ?_
  obtain rfl : a = 0 := Subsingleton.elim _ _
  show (ScatterDims.start _ (ix1 r) idx 0 + (ScatterDims.window _ (ix1 r) 0 : Nat)).toNat = p r
  rw [hst 0]
  simp

/-- THE SCATTER READ AT A HIT: when the indices are the words of an injective map `p` into
    `[0, N)`, position `p r` holds update `r`. -/
theorem scatter_set_apply_of_inj {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (hinj : Function.Injective p) (r : Fin R) :
    Host.scatter d (fun _ b => b) x idx u (ix1 ⟨p r, hp r⟩) = u (ix1 r) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have hco : ∀ n ∈ List.finRange (⟨1, ![R]⟩ : Shape).numel,
      (ix1 ⟨p (((⟨1, ![R]⟩ : Shape).rowMajor.symm n) 0), hp _⟩ : (⟨1, ![N]⟩ : Shape).Idx)
        = ix1 ⟨p (((⟨1, ![R]⟩ : Shape).rowMajor.symm ((⟨1, ![R]⟩ : Shape).rowMajor (ix1 r))) 0), hp _⟩ →
      u ((⟨1, ![R]⟩ : Shape).rowMajor.symm n)
        = u ((⟨1, ![R]⟩ : Shape).rowMajor.symm ((⟨1, ![R]⟩ : Shape).rowMajor (ix1 r))) := by
    intro n _ hn
    rw [Equiv.symm_apply_apply] at hn ⊢
    have h1 : p (((⟨1, ![R]⟩ : Shape).rowMajor.symm n) 0) = p r := congrArg Fin.val (congrFun hn 0)
    have h2 := hinj h1
    rw [eq_ix1 ((⟨1, ![R]⟩ : Shape).rowMajor.symm n), h2]
    rfl
  have key := foldl_set_hit
    (fun n => (ix1 ⟨p (((⟨1, ![R]⟩ : Shape).rowMajor.symm n) 0), hp _⟩ : (⟨1, ![N]⟩ : Shape).Idx))
    (fun n => u ((⟨1, ![R]⟩ : Shape).rowMajor.symm n))
    ((⟨1, ![R]⟩ : Shape).rowMajor (ix1 r)) (List.finRange _) x (List.mem_finRange _) hco
  simp only [Equiv.symm_apply_apply] at key
  unfold Host.scatter
  simp only [hA]
  exact key

/-- THE SCATTER READ AT A MISS: a position that is no `p r` keeps the operand's element. -/
theorem scatter_set_apply_of_miss {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (n : Fin N) (hn : ∀ r, p r ≠ n.val) :
    Host.scatter d (fun _ b => b) x idx u (ix1 n) = x (ix1 n) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have key := foldl_set_inv
    (fun m => (ix1 ⟨p (((⟨1, ![R]⟩ : Shape).rowMajor.symm m) 0), hp _⟩ : (⟨1, ![N]⟩ : Shape).Idx))
    (fun m => u ((⟨1, ![R]⟩ : Shape).rowMajor.symm m)) (ix1 n) (x (ix1 n)) (List.finRange _) x
    (fun m _ hm => absurd (congrArg Fin.val (congrFun hm 0)) (hn _)) rfl
  unfold Host.scatter
  simp only [hA]
  exact key

end Idealize.ShloMosaic.HostIdx2
-- ==== Proof.RealClosure.lean ====
/-
  Arrays of real numbers stay arrays of real numbers.

  On the extended reals the sum, the product, the difference and the maximum of two real numbers are real, a finite
  sum of real numbers is real, and a real power of a real number is real (its value is the real power function's).
  A gather only picks entries of its operand; an accumulating scatter adds, at each position, finitely many of its
  updates to its operand's entry. So every stage of the network maps real arrays to real arrays.
-/
import Idealize.ShloMosaic.PureOps.Ideal
import Idealize.ShloMosaic.Lib.ValueIdx
import Idealize.ShloMosaic.Lib.Pipeline.Value
import proofs.«403152_j77584289235637_3_alg».proof.Proof.Whole
import proofs.«403152_j77584289235637_3_alg».proof.Proof.LibScatterAdd
import proofs.«403152_j77584289235637_3_alg».proof.Proof.LibHostIdx2

noncomputable section

namespace Cert.Whole

open Idealize.ShloMosaic Idealize.ShloMosaic.ValueIdx

/-- A finite sum of real numbers is a real number. -/
theorem sum_real {ι : Type} [Fintype ι] (f : ι → EReal) (hf : ∀ i, ∃ r : ℝ, f i = (r : EReal)) : ∃ r : ℝ, ∑ i, f i = (r : EReal) := by
  classical
  choose g hg using hf
  have key : ∀ S : Finset ι, ∑ i ∈ S, f i = ((∑ i ∈ S, g i : ℝ) : EReal) := by
    intro S
    induction S using Finset.induction_on with
    | empty => simp
    | insert a S ha ih => rw [Finset.sum_insert ha, Finset.sum_insert ha, ih, hg a, EReal.coe_add]
  exact ⟨_, key Finset.univ⟩

/-- A sum of real numbers over a finite set is a real number. -/
theorem sum_real_on {ι : Type} (S : Finset ι) (f : ι → EReal) (hf : ∀ i, ∃ r : ℝ, f i = (r : EReal)) : ∃ r : ℝ, ∑ i ∈ S, f i = (r : EReal) := by
  classical
  choose g hg using hf
  have key : ∀ S : Finset ι, ∑ i ∈ S, f i = ((∑ i ∈ S, g i : ℝ) : EReal) := by
    intro S
    induction S using Finset.induction_on with
    | empty => simp
    | insert a S ha ih => rw [Finset.sum_insert ha, Finset.sum_insert ha, ih, hg a, EReal.coe_add]
  exact ⟨_, key S⟩

/-- The maximum of two real numbers, taken among the extended reals, is their maximum as real numbers. -/
theorem coe_max_real (r t : ℝ) : max (r : EReal) (t : EReal) = ((max r t : ℝ) : EReal) :=
  (EReal.coe_strictMono.monotone.map_max).symm

variable {s : Shape}

theorem IsReal.addf {a b : Arr s} (ha : IsReal a) (hb : IsReal b) : IsReal (addf (F := Ideal) (φ := .f32) a b) := by
  intro i
  obtain ⟨r, hr⟩ := ha i
  obtain ⟨t, ht⟩ := hb i
  exact ⟨r + t, by rw [ValueIdx.addf_apply, hr, ht, EReal.coe_add]⟩
theorem IsReal.subf {a b : Arr s} (ha : IsReal a) (hb : IsReal b) : IsReal (subf (F := Ideal) (φ := .f32) a b) := by
  intro i
  obtain ⟨r, hr⟩ := ha i
  obtain ⟨t, ht⟩ := hb i
  exact ⟨r - t, by rw [ValueIdx.subf_apply, hr, ht, EReal.coe_sub]⟩
theorem IsReal.mulf {a b : Arr s} (ha : IsReal a) (hb : IsReal b) : IsReal (mulf (F := Ideal) (φ := .f32) a b) := by
  intro i
  obtain ⟨r, hr⟩ := ha i
  obtain ⟨t, ht⟩ := hb i
  exact ⟨r * t, by rw [ValueIdx.mulf_apply, hr, ht, EReal.coe_mul]⟩
theorem IsReal.maximumf {a b : Arr s} (ha : IsReal a) (hb : IsReal b) : IsReal (maximumf (F := Ideal) (φ := .f32) a b) := by
  intro i
  obtain ⟨r, hr⟩ := ha i
  obtain ⟨t, ht⟩ := hb i
  exact ⟨max r t, by rw [ValueIdx.maximumf_apply, hr, ht, coe_max_real]⟩
/-- A real power of a real number is real. -/
theorem IsReal.powf {a b : Arr s} (ha : IsReal a) (hb : IsReal b) : IsReal (Host.powf (F := Ideal) (φ := .f32) a b) := by
  intro i
  obtain ⟨r, hr⟩ := ha i
  obtain ⟨t, ht⟩ := hb i
  refine ⟨Real.rpow r t, ?_⟩
  show Ideal.pow (a i) (b i) = _
  rw [hr, ht, Ideal.pow_coe_coe]
/-- A constant array of a word whose value is real. -/
theorem IsReal.constant (w : BitVec 32) (hw : ∃ r : ℝ, Ideal.ofBits .f32 w = (r : EReal)) : IsReal (constant (F := Ideal) s .f32 w) := by
  intro i
  obtain ⟨r, hr⟩ := hw
  exact ⟨r, by rw [ValueIdx.constant_apply, hr]⟩
/-- A broadcast only repeats entries of its operand. -/
theorem IsReal.broadcastInDim {t : Shape} (dims : Fin s.rank → Fin t.rank) (h : s.BroadcastsInDim t dims) {x : Arr s} (hx : IsReal x) :
    IsReal (broadcastInDim t dims h x) := by
  intro j
  unfold Idealize.ShloMosaic.broadcastInDim
  exact hx _
theorem IsReal.id {x : Arr s} (hx : IsReal x) : IsReal (id x) := hx

/-- The words of the program's float constants are real numbers. -/
theorem real_word_zero : ∃ r : ℝ, Ideal.ofBits .f32 0x00000000#32 = (r : EReal) := by
  unfold Ideal.ofBits Ideal.ieee
  simp only []
  rw [if_neg (by decide)]
  split_ifs <;> exact ⟨_, rfl⟩
theorem real_word_one : ∃ r : ℝ, Ideal.ofBits .f32 0x3F800000#32 = (r : EReal) := by
  unfold Ideal.ofBits Ideal.ieee
  simp only []
  rw [if_neg (by decide)]
  split_ifs <;> exact ⟨_, rfl⟩
theorem real_word_mhalf : ∃ r : ℝ, Ideal.ofBits .f32 0xBF000000#32 = (r : EReal) := by
  unfold Ideal.ofBits Ideal.ieee
  simp only []
  rw [if_neg (by decide)]
  split_ifs <;> exact ⟨_, rfl⟩
theorem real_word_three : ∃ r : ℝ, Ideal.ofBits .f32 0x40400000#32 = (r : EReal) := by
  unfold Ideal.ofBits Ideal.ieee
  simp only []
  rw [if_neg (by decide)]
  split_ifs <;> exact ⟨_, rfl⟩
theorem real_word_mthree : ∃ r : ℝ, Ideal.ofBits .f32 0xC0400000#32 = (r : EReal) := by
  unfold Ideal.ofBits Ideal.ieee
  simp only []
  rw [if_neg (by decide)]
  split_ifs <;> exact ⟨_, rfl⟩
theorem real_word_075 : ∃ r : ℝ, Ideal.ofBits .f32 0x3F400000#32 = (r : EReal) := by
  unfold Ideal.ofBits Ideal.ieee
  simp only []
  rw [if_neg (by decide)]
  split_ifs <;> exact ⟨_, rfl⟩
theorem real_word_m15 : ∃ r : ℝ, Ideal.ofBits .f32 0xBFC00000#32 = (r : EReal) := by
  unfold Ideal.ofBits Ideal.ieee
  simp only []
  rw [if_neg (by decide)]
  split_ifs <;> exact ⟨_, rfl⟩

variable {M K N : ℕ}

theorem IsReal.relu {a : Arr s} (ha : IsReal a) : IsReal (relu a) := by
  intro i
  obtain ⟨r, hr⟩ := ha i
  exact ⟨max r 0, by rw [relu_apply, hr, ← EReal.coe_zero, coe_max_real]⟩
theorem IsReal.dense {x : Arr ⟨2, ![M, K]⟩} {w : Arr ⟨2, ![K, N]⟩} {b : Arr ⟨2, ![1, N]⟩} (hx : IsReal x) (hw : IsReal w) (hb : IsReal b) :
    IsReal (dense x w b) := by
  intro i
  obtain ⟨p, q, rfl⟩ : ∃ (p : Fin M) (q : Fin N), i = ix2 p q := ⟨i 0, i 1, eq_ix2 i⟩
  obtain ⟨m, hm⟩ : ∃ m : ℝ, mmAt x w p q = (m : EReal) := by
    unfold mmAt
    refine sum_real _ fun k => ?_
    obtain ⟨r, hr⟩ := hx (ix2 p k)
    obtain ⟨t, ht⟩ := hw (ix2 k q)
    exact ⟨r * t, by rw [hr, ht, EReal.coe_mul]⟩
  obtain ⟨c, hc⟩ := hb (ix2 0 q)
  exact ⟨m + c, by rw [dense_apply, hm, hc, EReal.coe_add]⟩
theorem IsReal.scaleRows {a : Arr ⟨2, ![M, N]⟩} {d : Arr ⟨2, ![M, 1]⟩} (ha : IsReal a) (hd : IsReal d) : IsReal (scaleRows a d) := by
  intro i
  obtain ⟨p, q, rfl⟩ : ∃ (p : Fin M) (q : Fin N), i = ix2 p q := ⟨i 0, i 1, eq_ix2 i⟩
  obtain ⟨r, hr⟩ := ha (ix2 p q)
  obtain ⟨t, ht⟩ := hd (ix2 p 0)
  exact ⟨r * t, by rw [scaleRows_apply, hr, ht, EReal.coe_mul]⟩
theorem IsReal.lapRes {f g : Arr ⟨2, ![M, N]⟩} {d : Arr ⟨2, ![M, 1]⟩} (hf : IsReal f) (hg : IsReal g) (hd : IsReal d) : IsReal (lapRes f g d) := by
  intro i
  obtain ⟨p, q, rfl⟩ : ∃ (p : Fin M) (q : Fin N), i = ix2 p q := ⟨i 0, i 1, eq_ix2 i⟩
  obtain ⟨u, hu⟩ := hf (ix2 p q)
  obtain ⟨r, hr⟩ := hg (ix2 p q)
  obtain ⟨t, ht⟩ := hd (ix2 p 0)
  exact ⟨u - r * t, by rw [lapRes_apply, hu, hr, ht, EReal.coe_sub, EReal.coe_mul]⟩

/-- A row gather picks rows of its operand (the row number clamped into range). -/
theorem IsReal.gather_rows {Nn R C : ℕ} (hN : 0 < Nn) (d : GatherDims ⟨2, ![Nn, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C]) {x : Arr ⟨2, ![Nn, C]⟩} (hx : IsReal x) (idx : IVec ⟨2, ![R, 1]⟩ 32) :
    IsReal (Host.gather d x idx) := by
  intro i
  obtain ⟨p, q, rfl⟩ : ∃ (p : Fin R) (q : Fin C), i = ix2 p q := ⟨i 0, i 1, eq_ix2 i⟩
  rw [Idealize.ShloMosaic.HostIdx2.gather_rows_apply hN d hod hcd hob hsb hsim hiv hss x idx p q]
  exact hx _

/-- An accumulating scatter of row updates adds finitely many real updates to a real entry. -/
theorem IsReal.scatterAdd_rows {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1) {x : Arr ⟨2, ![S, T]⟩} (hx : IsReal x) (idx : IVec ⟨2, ![R, 1]⟩ 32)
    {upd : Arr ⟨2, ![R, T]⟩} (hupd : IsReal upd) :
    IsReal (Host.scatterAdd (F := Ideal) (φ := .f32) d x idx upd) := by
  intro i
  obtain ⟨p, q, rfl⟩ : ∃ (p : Fin S) (q : Fin T), i = ix2 p q := ⟨i 0, i 1, eq_ix2 i⟩
  show ∃ r : ℝ, Ideal.hostScatterAdd d x idx upd (ix2 p q) = (r : EReal)
  rw [Cert.LibScatterAdd.scatterAdd_rows_apply d huw hiw hsd hiv x idx upd p q]
  obtain ⟨r, hr⟩ := hx (ix2 p q)
  obtain ⟨t, ht⟩ := sum_real_on (Finset.univ.filter (fun n : Fin R => (idx (ix2 n (0 : Fin 1))).toInt = (p.val : ℤ)))
    (fun n => upd (ix2 n q)) (fun n => hupd (ix2 n q))
  exact ⟨r + t, by rw [hr, ht, EReal.coe_add]⟩

/-- An accumulating scatter of scalar updates into a vector. -/
theorem IsReal.scatterAdd_flat {Nn R : ℕ} (d : ScatterDims ⟨1, ![Nn]⟩ ⟨2, ![R, 1]⟩ ⟨1, ![R]⟩)
    (huw : d.updateWindowDims = []) (hiw : d.insertedWindowDims = [0]) (hsd : d.scatterDimsToOperandDims = [0])
    (hiv : d.indexVectorDim = 1) {x : Arr ⟨1, ![Nn]⟩} (hx : IsReal x) (idx : IVec ⟨2, ![R, 1]⟩ 32)
    {upd : Arr ⟨1, ![R]⟩} (hupd : IsReal upd) :
    IsReal (Host.scatterAdd (F := Ideal) (φ := .f32) d x idx upd) := by
  intro i
  obtain ⟨p, rfl⟩ : ∃ (p : Fin Nn), i = ix1 p := ⟨i 0, eq_ix1 i⟩
  show ∃ r : ℝ, Ideal.hostScatterAdd d x idx upd (ix1 p) = (r : EReal)
  rw [Cert.LibScatterAdd.scatterAdd_flat_apply d huw hiw hsd hiv x idx upd p]
  obtain ⟨r, hr⟩ := hx (ix1 p)
  obtain ⟨t, ht⟩ := sum_real_on (Finset.univ.filter
    (fun n : (⟨1, ![R]⟩ : Shape).Idx => (idx (ix2 (n 0) (0 : Fin 1))).toInt = (p.val : ℤ))) upd hupd
  exact ⟨r + t, by rw [hr, ht, EReal.coe_add]⟩

end Cert.Whole

end
-- ==== Proof.RealNet.lean ====
/-
  The network's intermediate arrays are arrays of real numbers when its float inputs are.

  The degree scalings are real whatever the edge lists are (a count, at least one, to a real power); the hidden
  features are sums, products and maxima of reals; the graph operator only gathers, adds and scales.
-/
import proofs.«403152_j77584289235637_3_alg».proof.Proof.Net
import proofs.«403152_j77584289235637_3_alg».proof.Proof.RealClosure

noncomputable section

namespace Cert.Net

open Idealize.ShloMosaic Idealize.ShloMosaic.ValueIdx Cert.KernelIdeal Cert.KernelIdeal.Facts₀ Cert.Whole

theorem isReal_dinv (e : IVec S800000 32) : IsReal (dinv e) := by
  unfold dinv deg
  exact IsReal.broadcastInDim _ _ (IsReal.powf
    (IsReal.maximumf (IsReal.broadcastInDim _ _ (IsReal.id (IsReal.constant _ real_word_one)))
      (IsReal.scatterAdd_flat _ rfl rfl rfl rfl (IsReal.broadcastInDim _ _ (IsReal.constant _ real_word_zero)) _
        (IsReal.broadcastInDim _ _ (IsReal.constant _ real_word_one))))
    (IsReal.broadcastInDim _ _ (IsReal.constant _ real_word_mhalf)))

theorem isReal_rowOf64 {b : Arr S64} (hb : IsReal b) : IsReal (rowOf64 b) := by
  unfold rowOf64 shapeCast
  exact fun i => hb _

theorem isReal_hid {x0 : Arr S50000x128} {x3 : Arr S128x64} {x4 : Arr S64} {x5 : Arr S64x64} {x6 : Arr S64}
    (h0 : IsReal x0) (h3 : IsReal x3) (h4 : IsReal x4) (h5 : IsReal x5) (h6 : IsReal x6) : IsReal (hid x0 x3 x4 x5 x6) := by
  unfold hid
  exact IsReal.relu (IsReal.dense (IsReal.relu (IsReal.dense h0 h3 (isReal_rowOf64 h4))) h5 (isReal_rowOf64 h6))

theorem isReal_agg64 {y : Arr S50000x64} {d : Arr S50000x1} (hy : IsReal y) (hd : IsReal d) (s t : IVec S800000 32) : IsReal (agg64 y d s t) := by
  unfold agg64 spmm64
  exact IsReal.scatterAdd_rows _ rfl rfl rfl rfl (IsReal.broadcastInDim _ _ (IsReal.constant _ real_word_zero)) _
    (IsReal.gather_rows (by norm_num) _ rfl rfl rfl rfl rfl rfl rfl
      (IsReal.mulf hy (IsReal.broadcastInDim _ _ hd)) _)

theorem isReal_lap {f : Arr S50000x64} (hf : IsReal f) (s t : IVec S800000 32) : IsReal (lap f s t) := by
  unfold lap
  exact IsReal.lapRes hf (isReal_agg64 hf (isReal_dinv t) s t) (isReal_dinv t)

end Cert.Net

end
-- ==== Proof.HeadAlg.lean ====
/-
  The head's linear identity.

  The reference joins five [M, 64] branches side by side — three fixed linear combinations of h, f₁, f₂ and then f₁
  and f₂ themselves — and multiplies the [M, 320] result by W₃. The kernel multiplies h, f₁ and f₂ by three 64 × 64
  matrices that are the same linear combinations of W₃'s five 64-row blocks. Over the real numbers both are
    ∑ₖ (c₃ h + c₋₃ f₁ + c.₇₅ f₂)ₖ B₀ₖ + (c₀ h + c₃ f₁ + c₋₁.₅ f₂)ₖ B₁ₖ + (c₀ h + c₀ f₁ + c.₇₅ f₂)ₖ B₂ₖ + f₁ₖ B₃ₖ + f₂ₖ B₄ₖ,
  regrouped by distributivity; on the extended reals that law needs every entry real, which is assumed.
-/
import Idealize.ShloMosaic.PureOps.Ideal
import Idealize.ShloMosaic.Lib.ValueIdx
import Mathlib.Algebra.BigOperators.Fin
import Mathlib.Data.Fintype.BigOperators
import Mathlib.Logic.Equiv.Fin.Basic
import Mathlib.Data.EReal.Operations
import Mathlib.Tactic.Ring
import Mathlib.Tactic.NormNum
import proofs.«403152_j77584289235637_3_alg».proof.Proof.Whole

noncomputable section

namespace Cert.Whole

open Idealize.ShloMosaic Idealize.ShloMosaic.ValueIdx

/-- A sum over 320 consecutive indices is the sum, over the 64 positions inside a block, of the five entries that sit
  at that position in the five blocks of 64. -/
theorem sum_fin320 {α : Type*} [AddCommMonoid α] (g : Fin 320 → α) :
    ∑ c : Fin 320, g c = ∑ k : Fin 64, ((((g (⟨k.val, by omega⟩ : Fin 320) + g (⟨64 + k.val, by omega⟩ : Fin 320))
      + g (⟨128 + k.val, by omega⟩ : Fin 320)) + g (⟨192 + k.val, by omega⟩ : Fin 320)) + g (⟨256 + k.val, by omega⟩ : Fin 320)) := by
  have e : ∑ c : Fin 320, g c = ∑ p : Fin 5 × Fin 64, g ((finProdFinEquiv : Fin 5 × Fin 64 ≃ Fin (5 * 64)) p) :=
    (Equiv.sum_comp (finProdFinEquiv : Fin 5 × Fin 64 ≃ Fin (5 * 64)) g).symm
  rw [e, Fintype.sum_prod_type, Fin.sum_univ_five]
  simp only [← Finset.sum_add_distrib]
  refine Finset.sum_congr rfl fun k _ => ?_
  have h0 : (finProdFinEquiv : Fin 5 × Fin 64 ≃ Fin (5 * 64)) (0, k) = (⟨k.val, by omega⟩ : Fin 320) := by
    apply Fin.ext; simp [finProdFinEquiv]
  have h1 : (finProdFinEquiv : Fin 5 × Fin 64 ≃ Fin (5 * 64)) (1, k) = (⟨64 + k.val, by omega⟩ : Fin 320) := by
    apply Fin.ext; simp [finProdFinEquiv]; omega
  have h2 : (finProdFinEquiv : Fin 5 × Fin 64 ≃ Fin (5 * 64)) (2, k) = (⟨128 + k.val, by omega⟩ : Fin 320) := by
    apply Fin.ext; simp [finProdFinEquiv]; omega
  have h3 : (finProdFinEquiv : Fin 5 × Fin 64 ≃ Fin (5 * 64)) (3, k) = (⟨192 + k.val, by omega⟩ : Fin 320) := by
    apply Fin.ext; simp [finProdFinEquiv]; omega
  have h4 : (finProdFinEquiv : Fin 5 × Fin 64 ≃ Fin (5 * 64)) (4, k) = (⟨256 + k.val, by omega⟩ : Fin 320) := by
    apply Fin.ext; simp [finProdFinEquiv]; omega
  rw [h0, h1, h2, h3, h4]

theorem head_identity {M : ℕ} (h f1 f2 : Arr ⟨2, ![M, 64]⟩) (w : Arr ⟨2, ![320, 64]⟩)
    (hh : IsReal h) (hf1 : IsReal f1) (hf2 : IsReal f2) (hw : IsReal w)
    (c3 cm3 c75 cm15 c0 : EReal) (hc3 : ∃ r : ℝ, c3 = (r : EReal)) (hcm3 : ∃ r : ℝ, cm3 = (r : EReal)) (hc75 : ∃ r : ℝ, c75 = (r : EReal))
    (hcm15 : ∃ r : ℝ, cm15 = (r : EReal)) (hc0 : ∃ r : ℝ, c0 = (r : EReal))
    (cat : Arr ⟨2, ![M, 320]⟩)
    (hcat0 : ∀ (n : Fin M) (k : Fin 64), cat (ix2 n (⟨k.val, by omega⟩ : Fin 320)) = (c3 * h (ix2 n k) + cm3 * f1 (ix2 n k)) + c75 * f2 (ix2 n k))
    (hcat1 : ∀ (n : Fin M) (k : Fin 64), cat (ix2 n (⟨64 + k.val, by omega⟩ : Fin 320)) = (c0 * h (ix2 n k) + c3 * f1 (ix2 n k)) + cm15 * f2 (ix2 n k))
    (hcat2 : ∀ (n : Fin M) (k : Fin 64), cat (ix2 n (⟨128 + k.val, by omega⟩ : Fin 320)) = (c0 * h (ix2 n k) + c0 * f1 (ix2 n k)) + c75 * f2 (ix2 n k))
    (hcat3 : ∀ (n : Fin M) (k : Fin 64), cat (ix2 n (⟨192 + k.val, by omega⟩ : Fin 320)) = f1 (ix2 n k))
    (hcat4 : ∀ (n : Fin M) (k : Fin 64), cat (ix2 n (⟨256 + k.val, by omega⟩ : Fin 320)) = f2 (ix2 n k))
    (A0 A1 A2 : Arr ⟨2, ![64, 64]⟩)
    (hA0 : ∀ (k j : Fin 64), A0 (ix2 k j) = (c3 * w (ix2 (⟨k.val, by omega⟩ : Fin 320) j) + c0 * w (ix2 (⟨64 + k.val, by omega⟩ : Fin 320) j))
        + c0 * w (ix2 (⟨128 + k.val, by omega⟩ : Fin 320) j))
    (hA1 : ∀ (k j : Fin 64), A1 (ix2 k j) = ((cm3 * w (ix2 (⟨k.val, by omega⟩ : Fin 320) j) + c3 * w (ix2 (⟨64 + k.val, by omega⟩ : Fin 320) j))
        + c0 * w (ix2 (⟨128 + k.val, by omega⟩ : Fin 320) j)) + w (ix2 (⟨192 + k.val, by omega⟩ : Fin 320) j))
    (hA2 : ∀ (k j : Fin 64), A2 (ix2 k j) = ((c75 * w (ix2 (⟨k.val, by omega⟩ : Fin 320) j) + cm15 * w (ix2 (⟨64 + k.val, by omega⟩ : Fin 320) j))
        + c75 * w (ix2 (⟨128 + k.val, by omega⟩ : Fin 320) j)) + w (ix2 (⟨256 + k.val, by omega⟩ : Fin 320) j))
    (n : Fin M) (j : Fin 64) :
    mmAt cat w n j = (mmAt h A0 n j + mmAt f1 A1 n j) + mmAt f2 A2 n j := by
  choose hr hhr using hh
  choose f1r hf1r using hf1
  choose f2r hf2r using hf2
  choose wr hwr using hw
  obtain ⟨r3, rfl⟩ := hc3
  obtain ⟨rm3, rfl⟩ := hcm3
  obtain ⟨r75, rfl⟩ := hc75
  obtain ⟨rm15, rfl⟩ := hcm15
  obtain ⟨r0, rfl⟩ := hc0
  unfold mmAt
  rw [sum_fin320]
  simp only [← Finset.sum_add_distrib]
  refine Finset.sum_congr rfl fun k _ => ?_
  rw [hcat0, hcat1, hcat2, hcat3, hcat4, hA0, hA1, hA2]
  simp only [hhr, hf1r, hf2r, hwr]
  norm_cast
  ring

end Cert.Whole

end
-- ==== Proof.RefNetB.lean ====
/-
  The reference's first result is the network's head.

  The reference joins five [50000, 64] branches — 3h - 3f₁ + ¾f₂, 0h + 3f₁ - 1.5f₂, 0h + 0f₁ + ¾f₂, f₁, f₂ with f₁ = L h,
  f₂ = L f₁ — into a [50000, 320] array and multiplies it by W₃; the network's head multiplies h, f₁, f₂ by the three
  matrices that fold those coefficients into W₃'s blocks. With every entry real the two are equal by distributivity
  (`head_identity`); the bias, the rectifier and the last layer are the same on both sides.
-/
import proofs.«403152_j77584289235637_3_alg».proof.Proof.RefNetA
import proofs.«403152_j77584289235637_3_alg».proof.Proof.RealNet
import proofs.«403152_j77584289235637_3_alg».proof.Proof.HeadAlg

noncomputable section

namespace Cert.RefNet

open Idealize.ShloMosaic Idealize.ShloMosaic.ValueIdx Cert.ReferenceIdeal Cert.ReferenceIdeal.Read Cert.Whole Cert.Net

variable (x0 : Arr S50000x128) (x1 x2 : IVec S800000 32) (x3 : Arr S128x64) (x4 : Arr S64) (x5 : Arr S64x64) (x6 : Arr S64)
  (x7 : Arr S320x64) (x8 : Arr S64) (x9 : Arr S64x2) (x10 : Arr S2) (x11 : Arr S128x64) (x12 : Arr S64) (x13 : Arr S64x128) (x14 : Arr S128)

/-- A repeated float word read at an index. -/
theorem fillR_apply (w : BitVec 32) (h : S_.BroadcastsInDim S50000x64 (![] : Fin 0 → Fin S50000x64.rank)) (i : S50000x64.Idx) :
    broadcastInDim S50000x64 ![] h (constant (F := Ideal) S_ .f32 w) i = Ideal.ofBits .f32 w :=
  (broadcastInDim_apply _ h _ i (fun a => a.elim0) (fun a => a.elim0)).trans rfl

/-- The first branch, 3h - 3f₁ + ¾f₂, entry by entry. -/
theorem branch0 (n : Fin 50000) (k : Fin 64) : val_main_v62 (F := Ideal) x0 x1 x2 x3 x4 x5 x6 (ix2 n k)
    = (Ideal.ofBits .f32 0x40400000#32 * (hid x0 x3 x4 x5 x6) (ix2 n k) + Ideal.ofBits .f32 0xC0400000#32 * (lap (hid x0 x3 x4 x5 x6) x1 x2) (ix2 n k))
      + Ideal.ofBits .f32 0x3F400000#32 * (lap (lap (hid x0 x3 x4 x5 x6) x1 x2) x1 x2) (ix2 n k) := by
  unfold val_main_v62 val_main_v44 val_main_v26 val_main_v43 val_main_v61 val_main_v25 val_main_v42 val_main_v60 val_main_cst_6 val_main_cst_9 val_main_cst_13
  rw [addf_apply, addf_apply, mulf_apply, mulf_apply, mulf_apply, fillR_apply, fillR_apply, fillR_apply, hid_eq, f1_eq, f2_eq]

/-- The second branch, 0h + 3f₁ - 1.5f₂. -/
theorem branch1 (n : Fin 50000) (k : Fin 64) : val_main_v100 (F := Ideal) x0 x1 x2 x3 x4 x5 x6 (ix2 n k)
    = (Ideal.ofBits .f32 0x00000000#32 * (hid x0 x3 x4 x5 x6) (ix2 n k) + Ideal.ofBits .f32 0x40400000#32 * (lap (hid x0 x3 x4 x5 x6) x1 x2) (ix2 n k))
      + Ideal.ofBits .f32 0xBFC00000#32 * (lap (lap (hid x0 x3 x4 x5 x6) x1 x2) x1 x2) (ix2 n k) := by
  unfold val_main_v100 val_main_v82 val_main_v64 val_main_v81 val_main_v99 val_main_v63 val_main_v80 val_main_v98 val_main_cst_14 val_main_cst_18 val_main_cst_22
  rw [addf_apply, addf_apply, mulf_apply, mulf_apply, mulf_apply, fillR_apply, fillR_apply, fillR_apply, hid_eq, f1_eq_b, f2_eq_b]

/-- The third branch, 0h + 0f₁ + ¾f₂. -/
theorem branch2 (n : Fin 50000) (k : Fin 64) : val_main_v138 (F := Ideal) x0 x1 x2 x3 x4 x5 x6 (ix2 n k)
    = (Ideal.ofBits .f32 0x00000000#32 * (hid x0 x3 x4 x5 x6) (ix2 n k) + Ideal.ofBits .f32 0x00000000#32 * (lap (hid x0 x3 x4 x5 x6) x1 x2) (ix2 n k))
      + Ideal.ofBits .f32 0x3F400000#32 * (lap (lap (hid x0 x3 x4 x5 x6) x1 x2) x1 x2) (ix2 n k) := by
  unfold val_main_v138 val_main_v120 val_main_v102 val_main_v119 val_main_v137 val_main_v101 val_main_v118 val_main_v136 val_main_cst_23 val_main_cst_27 val_main_cst_31
  rw [addf_apply, addf_apply, mulf_apply, mulf_apply, mulf_apply, fillR_apply, fillR_apply, hid_eq, f1_eq_c, f2_eq_c]

/-- The joined array read in its five 64-column blocks: column 64·b + k is column k of piece b. -/
theorem cat_piece (b : ℕ) (hb : b < 5) (y : Arr S50000x64)
    (hy : [(⟨S50000x64, val_main_v62 (F := Ideal) x0 x1 x2 x3 x4 x5 x6⟩ : (s : Shape) × (s.Idx → EReal)), ⟨S50000x64, val_main_v100 (F := Ideal) x0 x1 x2 x3 x4 x5 x6⟩,
        ⟨S50000x64, val_main_v138 (F := Ideal) x0 x1 x2 x3 x4 x5 x6⟩, ⟨S50000x64, val_main_v153 (F := Ideal) x0 x1 x2 x3 x4 x5 x6⟩,
        ⟨S50000x64, val_main_v168 (F := Ideal) x0 x1 x2 x3 x4 x5 x6⟩][b]'(by simpa using hb) = ⟨S50000x64, y⟩)
    (n : Fin 50000) (k : Fin 64) (q : Fin 320) (hq : q.val = 64 * b + k.val) :
    val_main_v169 (F := Ideal) x0 x1 x2 x3 x4 x5 x6 (ix2 n q) = y (ix2 n k) := by
  unfold val_main_v169
  refine concatenate_apply_piece (t := S50000x320) (1 : Fin 2) _ _ (ix2 n q) b (by simpa using hb) S50000x64 y hy rfl (64 * b) ?_ (ix2 n k) ?_ ?_
  · interval_cases b <;> rfl
  · intro a ha
    match a with
    | ⟨0, _⟩ => rfl
    | ⟨1, _⟩ => exact absurd rfl ha
  · exact hq.symm

/-- The hidden layer before its rectifier. -/
theorem inner_eq (h0 : IsReal x0) (h3 : IsReal x3) (h4 : IsReal x4) (h5 : IsReal x5) (h6 : IsReal x6) (h7 : IsReal x7) :
    val_main_v173 (F := Ideal) x0 x1 x2 x3 x4 x5 x6 x7 x8
      = head3 (hid x0 x3 x4 x5 x6) (lap (hid x0 x3 x4 x5 x6) x1 x2) (lap (lap (hid x0 x3 x4 x5 x6) x1 x2) x1 x2) (fold0 x7) (fold1 x7) (fold2 x7) (rowOf64 x8) := by
  have hh : IsReal (hid x0 x3 x4 x5 x6) := isReal_hid h0 h3 h4 h5 h6
  have hf1 : IsReal (lap (hid x0 x3 x4 x5 x6) x1 x2) := isReal_lap hh x1 x2
  have hf2 : IsReal (lap (lap (hid x0 x3 x4 x5 x6) x1 x2) x1 x2) := isReal_lap hf1 x1 x2
  have key : ∀ (n : Fin 50000) (j : Fin 64), mmAt (val_main_v169 (F := Ideal) x0 x1 x2 x3 x4 x5 x6) x7 n j
      = (mmAt (hid x0 x3 x4 x5 x6) (fold0 x7) n j + mmAt (lap (hid x0 x3 x4 x5 x6) x1 x2) (fold1 x7) n j) + mmAt (lap (lap (hid x0 x3 x4 x5 x6) x1 x2) x1 x2) (fold2 x7) n j :=
    head_identity (hid x0 x3 x4 x5 x6) (lap (hid x0 x3 x4 x5 x6) x1 x2) (lap (lap (hid x0 x3 x4 x5 x6) x1 x2) x1 x2) x7 hh hf1 hf2 h7
      (Ideal.ofBits .f32 0x40400000#32) (Ideal.ofBits .f32 0xC0400000#32) (Ideal.ofBits .f32 0x3F400000#32)
      (Ideal.ofBits .f32 0xBFC00000#32) (Ideal.ofBits .f32 0x00000000#32)
      real_word_three real_word_mthree real_word_075 real_word_m15 real_word_zero
      (val_main_v169 (F := Ideal) x0 x1 x2 x3 x4 x5 x6)
      (fun n k => (cat_piece x0 x1 x2 x3 x4 x5 x6 0 (by decide) _ rfl n k _ (by simp)).trans (branch0 x0 x1 x2 x3 x4 x5 x6 n k))
      (fun n k => (cat_piece x0 x1 x2 x3 x4 x5 x6 1 (by decide) _ rfl n k _ (by simp)).trans (branch1 x0 x1 x2 x3 x4 x5 x6 n k))
      (fun n k => (cat_piece x0 x1 x2 x3 x4 x5 x6 2 (by decide) _ rfl n k _ (by simp)).trans (branch2 x0 x1 x2 x3 x4 x5 x6 n k))
      (fun n k => (cat_piece x0 x1 x2 x3 x4 x5 x6 3 (by decide) _ rfl n k _ (by simp)).trans (congrFun (f1_eq_d x0 x1 x2 x3 x4 x5 x6) (ix2 n k)))
      (fun n k => (cat_piece x0 x1 x2 x3 x4 x5 x6 4 (by decide) _ rfl n k _ (by simp)).trans (congrFun (f2_eq_d x0 x1 x2 x3 x4 x5 x6) (ix2 n k)))
      (fold0 x7) (fold1 x7) (fold2 x7) (fold0_apply x7) (fold1_apply x7) (fold2_apply x7)
  have e := ref_dense dot_S50000x320_S320x64_S50000x64_1_0_0_1_n_n rfl Facts₀.bcast_S64_S1x64_1 Facts₀.bcast_S1x64_S50000x64_0_1
    Cert.KernelIdeal.Facts₀.shapeCasts_S64_S1x64 (val_main_v169 (F := Ideal) x0 x1 x2 x3 x4 x5 x6) x7 x8
  funext i
  obtain ⟨n, j, rfl⟩ : ∃ (n : Fin 50000) (j : Fin 64), i = ix2 n j := ⟨i 0, i 1, eq_ix2 i⟩
  have e' := congrFun e (ix2 n j)
  rw [dense_apply] at e'
  rw [head3_apply, ← key n j]
  exact e'

/-- The first result. -/
theorem out_eq (h0 : IsReal x0) (h3 : IsReal x3) (h4 : IsReal x4) (h5 : IsReal x5) (h6 : IsReal x6) (h7 : IsReal x7) :
    val_main_v178 (F := Ideal) x0 x1 x2 x3 x4 x5 x6 x7 x8 x9 x10 = outK x0 x1 x2 x3 x4 x5 x6 x7 x8 x9 x10 := by
  unfold outK
  rw [← inner_eq x0 x1 x2 x3 x4 x5 x6 x7 x8 h0 h3 h4 h5 h6 h7]
  unfold val_main_v178 val_main_v175 val_main_v174 val_main_v177 val_main_v176 val_main_call4_v0 val_main_call4_cst
  rw [ref_relu]
  exact ref_dense dot_S50000x64_S64x2_S50000x2_1_0_0_1_n_n rfl Facts₀.bcast_S2_S1x2_1 Facts₀.bcast_S1x2_S50000x2_0_1
    Cert.KernelIdeal.Facts₀.shapeCasts_S2_S1x2 _ x9 x10

end Cert.RefNet

end
-- ==== Proof.PreReal.lean ====
/-
  The precondition read: every entry of the float inputs is a real number.

  The precondition is the conjunction, input by input, of "every entry's absolute value is below +∞". On the
  extended reals |x| < +∞ rules out both infinities, so x is a real number. Only the inputs the head's linear
  identity needs are read out: the features, the two front layers' weights and biases, and W₃.
-/
import proofs.«403152_j77584289235637_3_alg».proof.Pre_finite_inputs
import proofs.«403152_j77584289235637_3_alg».proof.Proof.Whole
import Idealize.ShloMosaic.PureOps.Ideal
import Idealize.ShloMosaic.PureOps.Ideal.Laws
import Idealize.ShloMosaic.Lib.ValueIdx
import Idealize.ShloMosaic.Lib.ReduceAll

noncomputable section

namespace Cert.PreReal

open Idealize.ShloMosaic Idealize.ShloMosaic.ValueIdx Cert.Pre_finite_inputs Cert.Whole

/-- The rank-0 shape has one index. -/
instance : Subsingleton S_.Idx := ⟨fun _ _ => funext fun d => d.elim0⟩

/-- The word 0x7F800000 denotes +∞. -/
theorem ofBits_inf : Ideal.ofBits .f32 0x7F800000#32 = ⊤ := by
  simp [Ideal.ofBits, Ideal.ieee]

/-- On the extended reals |x| < +∞ rules out both infinities: x is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the compared array: the comparison being 1 says the entry is a real number. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  rw [Ideal.hostAbsf_def, Ideal.absf_def, Ideal.cmpf_def, Ideal.ofBits_def, ofBits_inf] at h
  by_contra hn
  simp only [Ideal.cmp, decide_eq_false hn] at h
  exact absurd h (by decide)

/-- All entries of |x| below +∞, reduced by "and" over every axis to 1: x is an array of real numbers. -/
theorem isReal_of_all {s : Shape} {axes : List (Fin s.rank)} (x : Arr s)
    (hb : S_.BroadcastsInDim s (![] : Fin 0 → Fin s.rank)) (hr : s.ReducesTo axes S_) (hu : 0 < S_.numel)
    (e : Host.reduce IntOp.andi
      (cmpf .olt (Host.absf (F := Ideal) (φ := .f32) x) (broadcastInDim s ![] hb (constant (F := Ideal) S_ .f32 0x7F800000#32)))
      (constantI S_ 1 1#1) hr hu ix0 = 1#1) : IsReal x := by
  intro i
  have hi := Host.reduce_andi_all _ _ hr hu ix0 e i
  exact real_of_cmp (x i) hi

theorem real_of_pre [Cert.Pre_finite_inputs.Facts] (a0 : Arr S50000x128) (a1 a2 : IVec S800000 32) (a3 : Arr S128x64) (a4 : Arr S64) (a5 : Arr S64x64)
    (a6 : Arr S64) (a7 : Arr S320x64) (a8 : Arr S64) (a9 : Arr S64x2) (a10 : Arr S2) (a11 : Arr S128x64) (a12 : Arr S64)
    (a13 : Arr S64x128) (a14 : Arr S128)
    (h : Cert.Pre_finite_inputs.fn (F := Ideal) a0 a1 a2 a3 a4 a5 a6 a7 a8 a9 a10 a11 a12 a13 a14 = (fun _ => 1#1)) :
    IsReal a0 ∧ IsReal a3 ∧ IsReal a4 ∧ IsReal a5 ∧ IsReal a6 ∧ IsReal a7 := by
  have h0 := congrFun h ix0
  simp only [fn, fn_part1, fn_part2, fn_part3, andi, IntOp.andi_eq_one] at h0
  obtain ⟨⟨⟨⟨⟨⟨⟨⟨⟨⟨⟨⟨e0, e3⟩, e4⟩, e5⟩, e6⟩, e7⟩, _⟩, _⟩, _⟩, _⟩, _⟩, _⟩, _⟩ := h0
  exact ⟨isReal_of_all a0 _ _ _ e0, isReal_of_all a3 _ _ _ e3, isReal_of_all a4 _ _ _ e4,
    isReal_of_all a5 _ _ _ e5, isReal_of_all a6 _ _ _ e6, isReal_of_all a7 _ _ _ e7⟩

end Cert.PreReal

end
-- ==== Proof.lean ====
/-
  The certificate's five claims.

  Both programs compute, from the node features x, the edge lists (src, dst) and the weights:
    h  = relu (relu (x W₁ + b₁) W₂ + b₂),     d_in = max(1, in-degree)^(-1/2),   d_out = max(1, out-degree)^(-1/2),
    L f = f - d_in · A (d_in · f)              (A: for each node, the sum of the source rows of its incoming edges),
    out = relu ([3h - 3Lh + ¾L²h | 3Lh - 1.5L²h | ¾L²h | Lh | L²h] W₃ + b₃) W₄ + b₄,
    emb = (d_in · A (d_out · relu ((d_in · A (d_out · x)) Wg₁ + bg₁))) Wg₂ + bg₂.
  The kernel program evaluates L h and L²h once, folds the coefficients of the five branches into three 64 × 64
  matrices built from W₃'s row blocks, and runs every dense stage as a call over blocks of 1000 rows; the reference
  evaluates everything on whole arrays. At the ideal values the aggregation, the degree scalings and all row-local
  stages are literally the same functions on both sides; the one real difference, the folded head, is distributivity
  of the product over the sum, which on the extended reals needs every entry of h, L h, L²h and W₃ to be real: this is
  where the precondition (all float inputs finite) is used.
-/
import proofs.«403152_j77584289235637_3_alg».proof.Defs
import proofs.«403152_j77584289235637_3_alg».proof.Proof.Gen.Kernel
import proofs.«403152_j77584289235637_3_alg».proof.Proof.Gen.Kernel.Frame
import proofs.«403152_j77584289235637_3_alg».proof.Proof.Gen.KernelIdeal
import proofs.«403152_j77584289235637_3_alg».proof.Proof.Gen.KernelIdeal.Frame
import proofs.«403152_j77584289235637_3_alg».proof.Proof.Gen.ReferenceIdeal
import proofs.«403152_j77584289235637_3_alg».proof.Proof.Gen.ReferenceIdeal.Run
import proofs.«403152_j77584289235637_3_alg».proof.Proof.Gen.ReferenceIdeal.Read
import proofs.«403152_j77584289235637_3_alg».proof.Proof.Gen.Pre_finite_inputs
import proofs.«403152_j77584289235637_3_alg».proof.Proof.KChain
import proofs.«403152_j77584289235637_3_alg».proof.Proof.RefNetA
import proofs.«403152_j77584289235637_3_alg».proof.Proof.RefNetB
import proofs.«403152_j77584289235637_3_alg».proof.Proof.PreReal
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no call: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end at the network's two outputs of their (agreeing) arguments. -/
theorem algebraic : Cert.algebraic_KernelIdeal_ReferenceIdeal := by
  intro m ρ m' ρ' hpre hagree
  refine ⟨_, _, Cert.KernelIdeal.Chain.run m ρ, ?_⟩
  refine (θ_run Cert.ReferenceIdeal.defs _ _).mono (fun _ h c => ⟨?_, ?_, (h c).2.2⟩) (Cert.ReferenceIdeal.Value.run (F := Ideal) m' ρ')
  · obtain ⟨e0, e1, e2, e3, e4, e5, e6, e7, e8, e9, e10, e11, e12, e13, e14⟩ := hagree c
    obtain ⟨r0, r3, r4, r5, r6, r7⟩ := Cert.PreReal.real_of_pre _ _ _ _ _ _ _ _ _ _ _ _ _ _ _ (hpre c)
    rw [(h c).1, Cert.ReferenceIdeal.Read.val_main_v178_eq, e0, e1, e2, e3, e4, e5, e6, e7, e8, e9, e10]
    exact Cert.RefNet.out_eq _ _ _ _ _ _ _ _ _ _ _ r0 r3 r4 r5 r6 r7
  · obtain ⟨e0, e1, e2, e3, e4, e5, e6, e7, e8, e9, e10, e11, e12, e13, e14⟩ := hagree c
    rw [(h c).2.1, Cert.ReferenceIdeal.Read.val_main_v215_eq, e0, e1, e2, e11, e12, e13, e14]
    exact Cert.RefNet.emb_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
